-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v36_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v36_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S640000x128 : Shape := ⟨2, ![640000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part6 {F : FTy → Type} [FloatOps F] (main_arg21 : FVec F S128 .f32) (main_v98 : IVec S_ 1) (main_v101 : IVec S_ 1) : IVec S_ 1 :=
  let main_v102 : IVec S_ 1 := andi main_v98 main_v101
  let main_cst_40 : FVec F S_ .f32 := constant S_ .f32 0x00000000#32
  let main_v103 : FVec F S128 .f32 := broadcastInDim S128 ![] bcast_S_S128 main_cst_40
  let main_v104 : IVec S128 1 := cmpf .oge main_arg21 main_v103
  let main_c_41 : IVec S_ 1 := constantI S_ 1 1#1
  let main_v105 : IVec S_ 1 := (fun x v => Host.reduce IntOp.andi x v reducesTo_S128_S_d0 h_S_) main_v104 main_c_41
  let main_v106 : IVec S_ 1 := andi main_v102 main_v105
  main_v106

def fn_part5 {F : FTy → Type} [FloatOps F] (main_arg17 : FVec F S128 .f32) (main_arg20 : FVec F S128 .f32) (main_arg21 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_cst_38 : FVec F S_ .f32 := constant S_ .f32 0x00000000#32
  let main_v99 : FVec F S128 .f32 := broadcastInDim S128 ![] bcast_S_S128 main_cst_38
  let main_v100 : IVec S128 1 := cmpf .oge main_arg17 main_v99
  let main_c_39 : IVec S_ 1 := constantI S_ 1 1#1
  let main_v101 : IVec S_ 1 := (fun x v => Host.reduce IntOp.andi x v reducesTo_S128_S_d0 h_S_) main_v100 main_c_39
  fn_part6 (F := F) main_arg21 main_v98 main_v101

def fn_part4 {F : FTy → Type} [FloatOps F] (main_arg16 : FVec F S128 .f32) (main_arg17 : FVec F S128 .f32) (main_arg18 : FVec F S128 .f32) (main_arg19 : FVec F S128 .f32) (main_arg20 : FVec F S128 .f32) (main_arg21 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg17 main_arg20 main_arg21 main_v83 main_v84 main_cst_32

def fn_part3 {F : FTy → Type} [FloatOps F] (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_v63 main_v67

def fn_part2 {F : FTy → Type} [FloatOps F] (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_arg18 main_arg19 main_arg20 main_arg21 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_v33

def fn {F : FTy → Type} [FloatOps F] (main_arg0 : FVec F S20000x128 .f32) (main_arg1 : FVec F S640000x128 .f32) (main_arg2 : IVec S640000 32) (main_arg3 : IVec S640000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S20000x128 : Shape := ⟨2, ![20000, 128]⟩
abbrev S640000x128 : Shape := ⟨2, ![640000, 128]⟩
abbrev S640000 : Shape := ⟨1, ![640000]⟩
abbrev S128x128 : Shape := ⟨2, ![128, 128]⟩
abbrev S128 : Shape := ⟨1, ![128]⟩
abbrev S512x128 : Shape := ⟨2, ![512, 128]⟩
abbrev S128x512 : Shape := ⟨2, ![128, 512]⟩
abbrev S512 : Shape := ⟨1, ![512]⟩
abbrev S1x512 : Shape := ⟨2, ![1, 512]⟩
abbrev S20000x512 : Shape := ⟨2, ![20000, 512]⟩
abbrev S2000x128 : Shape := ⟨2, ![2000, 128]⟩
abbrev S2000x512 : Shape := ⟨2, ![2000, 512]⟩
abbrev S_ : Shape := ⟨0, ![]⟩
abbrev S640000x1 : Shape := ⟨2, ![640000, 1]⟩
abbrev S1x128 : Shape := ⟨2, ![1, 128]⟩
abbrev S3200x128 : Shape := ⟨2, ![3200, 128]⟩

abbrev nBuf : Space → Nat
  | .hbm => 80
  | .vmem => 38
  | .smem => 0
  | _ => 0

abbrev bufTy : (tb : Table) → Fin (tcTables nBuf tb) → BufTy
  | .hbm, ⟨0, _⟩ => ⟨S20000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S512x128, .f32⟩
  | .hbm, ⟨23, _⟩ => ⟨S128x512, .f32⟩
  | .hbm, ⟨24, _⟩ => ⟨S512, .f32⟩
  | .hbm, ⟨25, _⟩ => ⟨S1x512, .f32⟩
  | .hbm, ⟨26, _⟩ => ⟨S20000x512, .f32⟩
  | .hbm, ⟨27, _⟩ => ⟨S20000x128, .f32⟩
  | .hbm, ⟨28, _⟩ => ⟨S20000x128, .f32⟩
  | .hbm, ⟨29, _⟩ => ⟨S20000x128, .f32⟩
  | .hbm, ⟨30, _⟩ => ⟨S20000x128, .f32⟩
  | .hbm, ⟨31, _⟩ => ⟨S_, .i32⟩
  | .hbm, ⟨32, _⟩ => ⟨S640000, .i32⟩
  | .hbm, ⟨33, _⟩ => ⟨S640000, .i1⟩
  | .hbm, ⟨34, _⟩ => ⟨S_, .i32⟩
  | .hbm, ⟨35, _⟩ => ⟨S640000, .i32⟩
  | .hbm, ⟨36, _⟩ => ⟨S640000, .i32⟩
  | .hbm, ⟨37, _⟩ => ⟨S640000, .i32⟩
  | .hbm, ⟨38, _⟩ => ⟨S640000x1, .i32⟩
  | .hbm, ⟨39, _⟩ => ⟨S640000x128, .f32⟩
  | .hbm, ⟨40, _⟩ => ⟨S_, .i32⟩
  | .hbm, ⟨41, _⟩ => ⟨S640000, .i32⟩
  | .hbm, ⟨42, _⟩ => ⟨S640000, .i1⟩
  | .hbm, ⟨43, _⟩ => ⟨S_, .i32⟩
  | .hbm, ⟨44, _⟩ => ⟨S640000, .i32⟩
  | .hbm, ⟨45, _⟩ => ⟨S640000, .i32⟩
  | .hbm, ⟨46, _⟩ => ⟨S640000, .i32⟩
  | .hbm, ⟨47, _⟩ => ⟨S640000x1, .i32⟩
  | .hbm, ⟨48, _⟩ => ⟨S640000x128, .f32⟩
  | .hbm, ⟨49, _⟩ => ⟨S_, .i32⟩
  | .hbm, ⟨50, _⟩ => ⟨S640000, .i32⟩
  | .hbm, ⟨51, _⟩ => ⟨S640000, .i1⟩
  | .hbm, ⟨52, _⟩ => ⟨S_, .i32⟩
  | .hbm, ⟨53, _⟩ => ⟨S640000, .i32⟩
  | .hbm, ⟨54, _⟩ => ⟨S640000, .i32⟩
  | .hbm, ⟨55, _⟩ => ⟨S640000, .i32⟩
  | .hbm, ⟨56, _⟩ => ⟨S640000x1, .i32⟩
  | .hbm, ⟨57, _⟩ => ⟨S640000x128, .f32⟩
  | .hbm, ⟨58, _⟩ => ⟨S128x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S640000x128, .f32⟩
  | .hbm, ⟨65, _⟩ => ⟨S640000x128, .f32⟩
  | .hbm, ⟨66, _⟩ => ⟨S640000x128, .f32⟩
  | .hbm, ⟨67, _⟩ => ⟨S_, .f32⟩
  | .hbm, ⟨68, _⟩ => ⟨S20000x128, .f32⟩
  | .hbm, ⟨69, _⟩ => ⟨S640000x1, .i32⟩
  | .hbm, ⟨70, _⟩ => ⟨S20000x128, .f32⟩
  | .hbm, ⟨71, _⟩ => ⟨S_, .f32⟩
  | .hbm, ⟨72, _⟩ => ⟨S20000x128, .f32⟩
  | .hbm, ⟨73, _⟩ => ⟨S640000x1, .i32⟩
  | .hbm, ⟨74, _⟩ => ⟨S20000x128, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S20000x128, .f32⟩
  | .local _ .vmem, ⟨0, _⟩ => ⟨S2000x128, .f32⟩
  | .local _ .vmem, ⟨1, _⟩ => ⟨S2000x128, .f32⟩
  | .local _ .vmem, ⟨2, _⟩ => ⟨S128x512, .f32⟩
  | .local _ .vmem, ⟨3, _⟩ => ⟨S1x512, .f32⟩
  | .local _ .vmem, ⟨4, _⟩ => ⟨S2000x512, .f32⟩
  | .local _ .vmem, ⟨5, _⟩ => ⟨S2000x512, .f32⟩
  | .local _ .vmem, ⟨6, _⟩ => ⟨S3200x128, .f32⟩
  | .local _ .vmem, ⟨7, _⟩ => ⟨S3200x128, .f32⟩
  | .local _ .vmem, ⟨8, _⟩ => ⟨S128x128, .f32⟩
  | .local _ .vmem, ⟨9, _⟩ => ⟨S1x128, .f32⟩
  | .local _ .vmem, ⟨10, _⟩ => ⟨S3200x128, .f32⟩
  | .local _ .vmem, ⟨11, _⟩ => ⟨S3200x128, .f32⟩
  | .local _ .vmem, ⟨12, _⟩ => ⟨S3200x128, .f32⟩
  | .local _ .vmem, ⟨13, _⟩ => ⟨S3200x128, .f32⟩
  | .local _ .vmem, ⟨14, _⟩ => ⟨S3200x128, .f32⟩
  | .local _ .vmem, ⟨15, _⟩ => ⟨S3200x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S3200x128, .f32⟩
  | .local _ .vmem, ⟨21, _⟩ => ⟨S3200x128, .f32⟩
  | .local _ .vmem, ⟨22, _⟩ => ⟨S3200x128, .f32⟩
  | .local _ .vmem, ⟨23, _⟩ => ⟨S3200x128, .f32⟩
  | .local _ .vmem, ⟨24, _⟩ => ⟨S3200x128, .f32⟩
  | .local _ .vmem, ⟨25, _⟩ => ⟨S3200x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S2000x128, .f32⟩
  | .local _ .vmem, ⟨37, _⟩ => ⟨S2000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_c : Ref sig .tc := ⟨.hbm, 31, rfl⟩
abbrev main_v9 : Ref sig .tc := ⟨.hbm, 32, rfl⟩
abbrev main_v10 : Ref sig .tc := ⟨.hbm, 33, rfl⟩
abbrev main_c_0 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_c_1 : Ref sig .tc := ⟨.hbm, 40, rfl⟩
abbrev main_v16 : Ref sig .tc := ⟨.hbm, 41, rfl⟩
abbrev main_v17 : Ref sig .tc := ⟨.hbm, 42, rfl⟩
abbrev main_c_2 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_c_3 : Ref sig .tc := ⟨.hbm, 49, rfl⟩
abbrev main_v23 : Ref sig .tc := ⟨.hbm, 50, rfl⟩
abbrev main_v24 : Ref sig .tc := ⟨.hbm, 51, rfl⟩
abbrev main_c_4 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36_0 : Ref sig .tc := ⟨.hbm, 64, rfl⟩
abbrev main_v36_1 : Ref sig .tc := ⟨.hbm, 65, rfl⟩
abbrev main_v36_2 : Ref sig .tc := ⟨.hbm, 66, rfl⟩
abbrev main_cst : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_5 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg10_1 : Ref sig .tc := ⟨.vmem, 21, rfl⟩
abbrev cc1_stg11_0 : Ref sig .tc := ⟨.vmem, 22, rfl⟩
abbrev cc1_stg11_1 : Ref sig .tc := ⟨.vmem, 23, rfl⟩
abbrev cc1_stg12_0 : Ref sig .tc := ⟨.vmem, 24, rfl⟩
abbrev cc1_stg12_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg7_0 : Ref sig .tc := ⟨.vmem, 36, rfl⟩
abbrev cc2_stg7_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem10_1 : DmaSem sig := 21
abbrev cc1_sem11_0 : DmaSem sig := 22
abbrev cc1_sem11_1 : DmaSem sig := 23
abbrev cc1_sem12_0 : DmaSem sig := 24
abbrev cc1_sem12_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem7_0 : DmaSem sig := 36
abbrev cc2_sem7_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3200x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S3200x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S3200x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S3200x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S3200x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S3200x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S3200x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  concatenates_S128x128_S128x128_S128x128_S128x128_S512x128_d0 : Shape.Concatenates [S128x128, S128x128, S128x128, S128x128] S512x128 0
  transposes_S512x128_S128x512_1_0 : S512x128.Transposes [1, 0] S128x512
  concatenates_S128_S128_S128_S128_S512_d0 : Shape.Concatenates [S128, S128, S128, S128] S512 0
  shapeCasts_S512_S1x512 : S512.ShapeCasts S1x512
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  slices_S20000x512_S20000x128_0_0 : S20000x512.Slices ![0, 0] S20000x128
  slices_S20000x512_S20000x128_0_128 : S20000x512.Slices ![0, 128] S20000x128
  slices_S20000x512_S20000x128_0_256 : S20000x512.Slices ![0, 256] S20000x128
  slices_S20000x512_S20000x128_0_384 : S20000x512.Slices ![0, 384] S20000x128
  bcast_S_S640000 : S_.BroadcastsInDim S640000 (![] : Fin 0 → Fin S640000.rank)
  bcast_S640000_S640000x1_0 : S640000.BroadcastsInDim S640000x1 (![0] : Fin 1 → Fin S640000x1.rank)
  transposes_S128x128_S128x128_1_0 : S128x128.Transposes [1, 0] S128x128
  shapeCasts_S128_S1x128 : S128.ShapeCasts S1x128
  inb_S3200x128_S3200x128_0_0 : ∀ a, (![0, 0] : Fin 2 → Nat) a + S3200x128.size a ≤ S3200x128.size a
  h_S3200x128 : 0 < S3200x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3200x128 : S1x128.Broadcasts S3200x128
  shapeCasts_S3200x128_S3200x128 : S3200x128.ShapeCasts S3200x128
  bcast_S_S20000x128 : S_.BroadcastsInDim S20000x128 (![] : Fin 0 → Fin S20000x128.rank)
  shapeCasts_S2000x128_S2000x128 : S2000x128.ShapeCasts S2000x128
  broadcasts_S1x128_S2000x128 : S1x128.Broadcasts S2000x128
  dot_S2000x128_S128x512_S2000x512_1_0_0_1_n_n_wf : DotDims.WF S2000x128 S128x512 S2000x512 [1] [0] [0] [1] [] []
  gather_S20000x128_S640000x1_S640000x128_1_0_n_n_0_1_1128_wf : GatherDims.WF S20000x128 S640000x1 S640000x128 [1] [0] [] [0] [] 1 ![1, 128]
  dot_S3200x128_S128x128_S3200x128_1_0_0_1_n_n_wf : DotDims.WF S3200x128 S128x128 S3200x128 [1] [0] [0] [1] [] []
  scatter_S20000x128_S640000x1_S640000x128_1_0_0_1_wf : ScatterDims.WF S20000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S20000x512.size a
  hwx0_3 : ∀ i : grid0.Coords, EltTy.bits .f32 = 32 ∨ (Rect.block (s := S20000x512) S2000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3200x128.size a ≤ S640000x128.size a
  hwx1_0 : ∀ i : grid1.Coords, EltTy.bits .f32 = 32 ∨ (Rect.block (s := S640000x128) S3200x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S3200x128.size a ≤ S640000x128.size a
  hwx1_3 : ∀ i : grid1.Coords, EltTy.bits .f32 = 32 ∨ (Rect.block (s := S640000x128) S3200x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S3200x128.size a ≤ S640000x128.size a
  hwx1_4 : ∀ i : grid1.Coords, EltTy.bits .f32 = 32 ∨ (Rect.block (s := S640000x128) S3200x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S3200x128.size a ≤ S640000x128.size a
  hwx1_5 : ∀ i : grid1.Coords, EltTy.bits .f32 = 32 ∨ (Rect.block (s := S640000x128) S3200x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S3200x128.size a ≤ S640000x128.size a
  hwx1_10 : ∀ i : grid1.Coords, EltTy.bits .f32 = 32 ∨ (Rect.block (s := S640000x128) S3200x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S3200x128.size a ≤ S640000x128.size a
  hwx1_11 : ∀ i : grid1.Coords, EltTy.bits .f32 = 32 ∨ (Rect.block (s := S640000x128) S3200x128.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S3200x128.size a ≤ S640000x128.size a
  hwx1_12 : ∀ i : grid1.Coords, EltTy.bits .f32 = 32 ∨ (Rect.block (s := S640000x128) S3200x128.size (cc1_transform_12 i) (hinb1_12 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S20000x128.size a
  hwx2_0 : ∀ i : grid2.Coords, EltTy.bits .f32 = 32 ∨ (Rect.block (s := S20000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S20000x128.size a
  hwx2_1 : ∀ i : grid2.Coords, EltTy.bits .f32 = 32 ∨ (Rect.block (s := S20000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S20000x128.size a
  hwx2_2 : ∀ i : grid2.Coords, EltTy.bits .f32 = 32 ∨ (Rect.block (s := S20000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S20000x128.size a
  hwx2_7 : ∀ i : grid2.Coords, EltTy.bits .f32 = 32 ∨ (Rect.block (s := S20000x128) S2000x128.size (cc2_transform_7 i) (hinb2_7 i)).WholeWords (EltTy.packing .f32)

variable [Facts₀]

def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S3200x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S3200x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v22) S3200x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v29) S3200x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v32) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v33) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v34) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v35) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v36_0) S3200x128.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v36_1) S3200x128.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v36_2) S3200x128.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev win2_0 : Pipeline.Window sig grid2 :=
  Pipeline.Window.ofSpec (Memref.whole main_v5) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v43) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v46) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v47) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S20000x128 : Shape := ⟨2, ![20000, 128]⟩
abbrev S640000x128 : Shape := ⟨2, ![640000, 128]⟩
abbrev S640000 : Shape := ⟨1, ![640000]⟩
abbrev S128x128 : Shape := ⟨2, ![128, 128]⟩
abbrev S128 : Shape := ⟨1, ![128]⟩
abbrev S1x128 : Shape := ⟨2, ![1, 128]⟩
abbrev S_ : Shape := ⟨0, ![]⟩
abbrev S640000x1 : Shape := ⟨2, ![640000, 1]⟩

abbrev nBuf : Space → Nat
  | .hbm => 136
  | .vmem => 0
  | .smem => 0
  | _ => 0

abbrev hbmTy0_0 (i : Nat) : BufTy := match i % 128 with
  | 0 => ⟨S20000x128, .f32⟩
  | 1 => ⟨S640000x128, .f32⟩
  | 2 => ⟨S640000, .i32⟩
  | 3 => ⟨S640000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128, .f32⟩
  | 15 => ⟨S128, .f32⟩
  | 16 => ⟨S128, .f32⟩
  | 17 => ⟨S128, .f32⟩
  | 18 => ⟨S128, .f32⟩
  | 19 => ⟨S128, .f32⟩
  | 20 => ⟨S128, .f32⟩
  | 21 => ⟨S128, .f32⟩
  | 22 => ⟨S128x128, .f32⟩
  | 23 => ⟨S20000x128, .f32⟩
  | 24 => ⟨S1x128, .f32⟩
  | 25 => ⟨S20000x128, .f32⟩
  | 26 => ⟨S20000x128, .f32⟩
  | 27 => ⟨S128x128, .f32⟩
  | 28 => ⟨S20000x128, .f32⟩
  | 29 => ⟨S1x128, .f32⟩
  | 30 => ⟨S20000x128, .f32⟩
  | 31 => ⟨S20000x128, .f32⟩
  | 32 => ⟨S128x128, .f32⟩
  | 33 => ⟨S20000x128, .f32⟩
  | 34 => ⟨S1x128, .f32⟩
  | 35 => ⟨S20000x128, .f32⟩
  | 36 => ⟨S20000x128, .f32⟩
  | 37 => ⟨S128x128, .f32⟩
  | 38 => ⟨S20000x128, .f32⟩
  | 39 => ⟨S1x128, .f32⟩
  | 40 => ⟨S20000x128, .f32⟩
  | 41 => ⟨S20000x128, .f32⟩
  | 42 => ⟨S128x128, .f32⟩
  | 43 => ⟨S640000x128, .f32⟩
  | 44 => ⟨S1x128, .f32⟩
  | 45 => ⟨S640000x128, .f32⟩
  | 46 => ⟨S640000x128, .f32⟩
  | 47 => ⟨S_, .i32⟩
  | 48 => ⟨S640000, .i32⟩
  | 49 => ⟨S640000, .i1⟩
  | 50 => ⟨S_, .i32⟩
  | 51 => ⟨S640000, .i32⟩
  | 52 => ⟨S640000, .i32⟩
  | 53 => ⟨S640000, .i32⟩
  | 54 => ⟨S640000x1, .i32⟩
  | 55 => ⟨S640000x128, .f32⟩
  | 56 => ⟨S640000x128, .f32⟩
  | 57 => ⟨S_, .i32⟩
  | 58 => ⟨S640000, .i32⟩
  | 59 => ⟨S640000, .i1⟩
  | 60 => ⟨S_, .i32⟩
  | 61 => ⟨S640000, .i32⟩
  | 62 => ⟨S640000, .i32⟩
  | 63 => ⟨S640000, .i32⟩
  | 64 => ⟨S640000x1, .i32⟩
  | 65 => ⟨S640000x128, .f32⟩
  | 66 => ⟨S640000x128, .f32⟩
  | 67 => ⟨S640000x128, .f32⟩
  | 68 => ⟨S640000x128, .f32⟩
  | 69 => ⟨S_, .f32⟩
  | 70 => ⟨S640000x128, .f32⟩
  | 71 => ⟨S640000x128, .f32⟩
  | 72 => ⟨S_, .f32⟩
  | 73 => ⟨S640000x128, .f32⟩
  | 74 => ⟨S640000x128, .f32⟩
  | 75 => ⟨S_, .i32⟩
  | 76 => ⟨S640000, .i32⟩
  | 77 => ⟨S640000, .i1⟩
  | 78 => ⟨S_, .i32⟩
  | 79 => ⟨S640000, .i32⟩
  | 80 => ⟨S640000, .i32⟩
  | 81 => ⟨S640000, .i32⟩
  | 82 => ⟨S640000x1, .i32⟩
  | 83 => ⟨S640000x128, .f32⟩
  | 84 => ⟨S640000x128, .f32⟩
  | 85 => ⟨S_, .f32⟩
  | 86 => ⟨S20000x128, .f32⟩
  | 87 => ⟨S640000x1, .i32⟩
  | 88 => ⟨S20000x128, .f32⟩
  | 89 => ⟨S_, .f32⟩
  | 90 => ⟨S20000x128, .f32⟩
  | 91 => ⟨S640000x1, .i32⟩
  | 92 => ⟨S20000x128, .f32⟩
  | 93 => ⟨S_, .f32⟩
  | 94 => ⟨S20000x128, .f32⟩
  | 95 => ⟨S20000x128, .f32⟩
  | 96 => ⟨S20000x128, .f32⟩
  | 97 => ⟨S20000x128, .f32⟩
  | 98 => ⟨S1x128, .f32⟩
  | 99 => ⟨S20000x128, .f32⟩
  | 100 => ⟨S20000x128, .f32⟩
  | 101 => ⟨S1x128, .f32⟩
  | 102 => ⟨S20000x128, .f32⟩
  | 103 => ⟨S20000x128, .f32⟩
  | 104 => ⟨S_, .f32⟩
  | 105 => ⟨S128, .f32⟩
  | 106 => ⟨S128, .f32⟩
  | 107 => ⟨S128, .f32⟩
  | 108 => ⟨S1x128, .f32⟩
  | 109 => ⟨S20000x128, .f32⟩
  | 110 => ⟨S20000x128, .f32⟩
  | 111 => ⟨S1x128, .f32⟩
  | 112 => ⟨S20000x128, .f32⟩
  | 113 => ⟨S20000x128, .f32⟩
  | 114 => ⟨S_, .f32⟩
  | 115 => ⟨S20000x128, .f32⟩
  | 116 => ⟨S20000x128, .f32⟩
  | 117 => ⟨S1x128, .f32⟩
  | 118 => ⟨S640000x128, .f32⟩
  | 119 => ⟨S640000x128, .f32⟩
  | 120 => ⟨S1x128, .f32⟩
  | 121 => ⟨S640000x128, .f32⟩
  | 122 => ⟨S640000x128, .f32⟩
  | 123 => ⟨S_, .f32⟩
  | 124 => ⟨S128, .f32⟩
  | 125 => ⟨S128, .f32⟩
  | 126 => ⟨S128, .f32⟩
  | 127 => ⟨S1x128, .f32⟩
  | _ => ⟨S20000x128, .f32⟩

abbrev hbmTy0_1 (i : Nat) : BufTy := match i % 128 with
  | 0 => ⟨S640000x128, .f32⟩
  | 1 => ⟨S640000x128, .f32⟩
  | 2 => ⟨S1x128, .f32⟩
  | 3 => ⟨S640000x128, .f32⟩
  | 4 => ⟨S640000x128, .f32⟩
  | 5 => ⟨S_, .f32⟩
  | 6 => ⟨S640000x128, .f32⟩
  | 7 => ⟨S640000x128, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c : Ref sig .tc := ⟨.hbm, 47, rfl⟩
abbrev main_v25 : Ref sig .tc := ⟨.hbm, 48, rfl⟩
abbrev main_v26 : Ref sig .tc := ⟨.hbm, 49, rfl⟩
abbrev main_c_0 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_1 : Ref sig .tc := ⟨.hbm, 57, rfl⟩
abbrev main_v33 : Ref sig .tc := ⟨.hbm, 58, rfl⟩
abbrev main_v34 : Ref sig .tc := ⟨.hbm, 59, rfl⟩
abbrev main_c_2 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst : Ref sig .tc := ⟨.hbm, 69, rfl⟩
abbrev main_v43 : Ref sig .tc := ⟨.hbm, 70, rfl⟩
abbrev main_v44 : Ref sig .tc := ⟨.hbm, 71, rfl⟩
abbrev main_cst_3 : Ref sig .tc := ⟨.hbm, 72, rfl⟩
abbrev main_v45 : Ref sig .tc := ⟨.hbm, 73, rfl⟩
abbrev main_v46 : Ref sig .tc := ⟨.hbm, 74, rfl⟩
abbrev main_c_4 : Ref sig .tc := ⟨.hbm, 75, rfl⟩
abbrev main_v47 : Ref sig .tc := ⟨.hbm, 76, rfl⟩
abbrev main_v48 : Ref sig .tc := ⟨.hbm, 77, rfl⟩
abbrev main_c_5 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_6 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_7 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_8 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_9 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_call0_cst : Ref sig .tc := ⟨.hbm, 114, rfl⟩
abbrev main_call0_v0 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_10 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_call1_cst : Ref sig .tc := ⟨.hbm, 133, rfl⟩
abbrev main_call1_v0 : Ref sig .tc := ⟨.hbm, 134, rfl⟩
abbrev main_v96 : Ref sig .tc := ⟨.hbm, 135, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S1x128_S640000x128_0_1 : S1x128.BroadcastsInDim S640000x128 (![0, 1] : Fin 2 → Fin S640000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S640000x128 : S_.BroadcastsInDim S640000x128 (![] : Fin 0 → Fin S640000x128.rank)
  bcast_S_S20000x128 : S_.BroadcastsInDim S20000x128 (![] : Fin 0 → Fin S20000x128.rank)
  bcast_S_S128 : S_.BroadcastsInDim S128 (![] : Fin 0 → Fin S128.rank)
  dot_S20000x128_S128x128_S20000x128_1_0_0_1_n_n_wf : DotDims.WF S20000x128 S128x128 S20000x128 [1] [0] [0] [1] [] []
  dot_S640000x128_S128x128_S640000x128_1_0_0_1_n_n_wf : DotDims.WF S640000x128 S128x128 S640000x128 [1] [0] [0] [1] [] []
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1

variable [Facts₀]

def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf

class Facts : Prop extends Facts₀ where

variable [Facts]
-- ==== Proof.KB.Region0.lean ====
/- Region 0 of @main, the node projection: at each of its 10 grid points the body reads a 2000-row block of the
   node features, the whole 128x512 weight matrix and the 1x512 bias row, and stores into the output window's
   2000x512 block the product of the first two plus the bias row broadcast down the rows. This module states what
   the body leaves in every window's staging buffer as a function of the input blocks, proves the body's triple
   on whole staging buffers, and packages both as the pipeline's proof data and body obligation, at any
   contents `V` of the TensorCore's buffers on entry and at any float instance. -/
import proofs.«157276_j46986942218355_1_alg».proof.Proof.Gen.Kernel.Launch
import proofs.«157276_j46986942218355_1_alg».proof.Proof.Gen.Kernel.Skeleton
import proofs.«157276_j46986942218355_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether or not it was fetched there:
    where it was not, the block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole buffer -/

abbrev r0_h : Rect S2000x128 := Rect.unit (s := S2000x128) ![0, 0] S2000x128.size inb_S2000x128_S2000x128_0_0
abbrev r0_w : Rect S128x512 := Rect.unit (s := S128x512) ![0, 0] S128x512.size inb_S128x512_S128x512_0_0
abbrev r0_b : Rect S1x512 := Rect.unit (s := S1x512) ![0, 0] S1x512.size inb_S1x512_S1x512_0_0
abbrev r0_o : Rect S2000x512 := Rect.unit (s := S2000x512) ![0, 0] S2000x512.size inb_S2000x512_S2000x512_0_0

/-- The output window's staging buffer after the body: its one store, of the payload of the three loads. -/
def out0_3 (x0 : Vec F S2000x128 .f32) (x1 : Vec F S128x512 .f32) (x2 : Vec F S1x512 .f32) : Vec F S2000x512 .f32 :=
  View.canon [⟨r0_o, k0_pay1 (View.ld x0 r0_h) (View.ld x1 r0_w) (View.ld x2 r0_b)⟩]

/-- The one store covers the buffer. -/
theorem cover0_3 (p0 : Vec F S2000x512 .f32) (y : S2000x512.Idx) :
    ∃ pc ∈ ([⟨r0_o, p0⟩] : List (View.Piece (Elt F) S2000x512 .f32)), y ∈ pc.1.set :=
  View.cover_of_tiled [⟨r0_o, p0⟩] S2000x512.size (by rfl) y

/-! ## The body's triple -/

set_option maxHeartbeats 1000000 in
/-- On whole staging buffers, the inputs' at known contents and the output's at anything, the body runs to the
    continuation with the inputs as they were and the output at `out0_3` of the inputs. -/
theorem sound_kernel0 (c : Dev nD) (E : Set ℕ) (i : grid0.Coords) (arg1 : Memref sig .tc .vmem S2000x128 .f32) (harg1 : arg1.IsWhole)
    (arg2 : Memref sig .tc .vmem S128x512 .f32) (harg2 : arg2.IsWhole) (arg3 : Memref sig .tc .vmem S1x512 .f32) (harg3 : arg3.IsWhole)
    (arg4 : Memref sig .tc .vmem S2000x512 .f32) (harg4 : arg4.IsWhole)
    (x0 : Vec F S2000x128 .f32) (x1 : Vec F S128x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__node_proj_kernel i arg1 harg1 arg2 harg2 arg3 harg3 arg4 harg4) K := by
  simp only [cc0__node_proj_kernel_eq_skeleton]; unfold cc0__node_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- Pipeline 0's proof data on core `c`: the arrays as the region finds them; after the body at point `t` each
    input's buffer still at its block and the output's at `out0_3` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Region1.lean ====
/- Region 1 of @main, the fused edge update: at each of its 200 grid points the body reads a 3200-row block of the
   edge features, the whole 128x128 weight matrix and its 1x128 bias row, the matching 3200-row blocks of three
   gathered node projections, and the four 1x128 rows of the normalisation (mean, variance, scale, shift). With
   s the product of the first two plus the bias row broadcast down the rows plus the first two gathered blocks,
   it stores three 3200x128 blocks: the normalised, scaled, shifted and rectified s; the logistic of s times the
   third gathered block; and the logistic of s. This module states what the body leaves in every window's staging
   buffer as a function of the input blocks, proves the body's triple on whole staging buffers, and packages both
   as the pipeline's proof data and body obligation, at any contents `V` of the TensorCore's buffers on entry and
   at any float instance. -/
import proofs.«157276_j46986942218355_1_alg».proof.Proof.Gen.Kernel.Launch
import proofs.«157276_j46986942218355_1_alg».proof.Proof.Gen.Kernel.Skeleton
import proofs.«157276_j46986942218355_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether or not it was fetched there:
    where it was not, the block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole buffer -/

abbrev r1_e : Rect S3200x128 := Rect.unit (s := S3200x128) ![0, 0] S3200x128.size inb_S3200x128_S3200x128_0_0
abbrev r1_w : Rect S128x128 := Rect.unit (s := S128x128) ![0, 0] S128x128.size inb_S128x128_S128x128_0_0
abbrev r1_r : Rect S1x128 := Rect.unit (s := S1x128) ![0, 0] S1x128.size inb_S1x128_S1x128_0_0

/-- The first output window's staging buffer after the body: its one store, of the rectified sum of the shift row
    and the normalised, scaled pre-activation (the payload of nine loads; the third gathered block is not read). -/
def out1_10 (x0 : Vec F S3200x128 .f32) (x1 : Vec F S128x128 .f32) (x2 : Vec F S1x128 .f32) (x3 x4 : Vec F S3200x128 .f32)
    (x6 x7 x8 x9 : Vec F S1x128 .f32) : Vec F S3200x128 .f32 :=
  View.canon [⟨r1_e, k1_pay1 (k1_pay5 (View.ld x0 r1_e) (View.ld x1 r1_w) (View.ld x2 r1_r) (View.ld x3 r1_e) (View.ld x4 r1_e)
    (View.ld x7 r1_r) (View.ld x8 r1_r) (View.ld x6 r1_r)) (k1_pay6 (View.ld x9 r1_r))⟩]

/-- The second output window's: its one store, of the gate (the logistic of the pre-activation) times the third
    gathered block. -/
def out1_11 (x0 : Vec F S3200x128 .f32) (x1 : Vec F S128x128 .f32) (x2 : Vec F S1x128 .f32) (x3 x4 x5 : Vec F S3200x128 .f32) :
    Vec F S3200x128 .f32 :=
  View.canon [⟨r1_e, k1_pay4 (View.ld x0 r1_e) (View.ld x1 r1_w) (View.ld x2 r1_r) (View.ld x3 r1_e) (View.ld x4 r1_e) (View.ld x5 r1_e)⟩]

/-- The third output window's: its one store, of the gate itself. -/
def out1_12 (x0 : Vec F S3200x128 .f32) (x1 : Vec F S128x128 .f32) (x2 : Vec F S1x128 .f32) (x3 x4 : Vec F S3200x128 .f32) :
    Vec F S3200x128 .f32 :=
  View.canon [⟨r1_e, k1_pay3 (View.ld x0 r1_e) (View.ld x1 r1_w) (View.ld x2 r1_r) (View.ld x3 r1_e) (View.ld x4 r1_e)⟩]

/-- Each output's one store covers its buffer. -/
theorem cover1_10 (p0 : Vec F S3200x128 .f32) (y : S3200x128.Idx) :
    ∃ pc ∈ ([⟨r1_e, p0⟩] : List (View.Piece (Elt F) S3200x128 .f32)), y ∈ pc.1.set :=
  View.cover_of_tiled [⟨r1_e, p0⟩] S3200x128.size (by rfl) y
theorem cover1_11 (p0 : Vec F S3200x128 .f32) (y : S3200x128.Idx) :
    ∃ pc ∈ ([⟨r1_e, p0⟩] : List (View.Piece (Elt F) S3200x128 .f32)), y ∈ pc.1.set :=
  View.cover_of_tiled [⟨r1_e, p0⟩] S3200x128.size (by rfl) y
theorem cover1_12 (p0 : Vec F S3200x128 .f32) (y : S3200x128.Idx) :
    ∃ pc ∈ ([⟨r1_e, p0⟩] : List (View.Piece (Elt F) S3200x128 .f32)), y ∈ pc.1.set :=
  View.cover_of_tiled [⟨r1_e, p0⟩] S3200x128.size (by rfl) y

/-! ## The body's triple -/

set_option maxHeartbeats 4000000 in
/-- On whole staging buffers, the ten inputs' at known contents and the three outputs' at anything, the body runs to
    the continuation with the inputs as they were and the outputs at `out1_10`, `out1_11`, `out1_12` of the inputs. -/
theorem sound_kernel1 (c : Dev nD) (E : Set ℕ) (i : grid1.Coords)
    (arg1 : Memref sig .tc .vmem S3200x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S3200x128 .f32) (harg4 : arg4.IsWhole)
    (arg5 : Memref sig .tc .vmem S3200x128 .f32) (harg5 : arg5.IsWhole) (arg6 : Memref sig .tc .vmem S3200x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S3200x128 .f32) (harg11 : arg11.IsWhole) (arg12 : Memref sig .tc .vmem S3200x128 .f32) (harg12 : arg12.IsWhole)
    (arg13 : Memref sig .tc .vmem S3200x128 .f32) (harg13 : arg13.IsWhole)
    (x0 : Vec F S3200x128 .f32) (x1 : Vec F S128x128 .f32) (x2 : Vec F S1x128 .f32) (x3 x4 x5 : Vec F S3200x128 .f32)
    (x6 x7 x8 x9 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9
        ∗ (∃ d, owns (c : Thread nD τ) arg11 fullShare d) ∗ (∃ d, owns (c : Thread nD τ) arg12 fullShare d)
        ∗ (∃ d, owns (c : Thread nD τ) arg13 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9
            ∗ owns (c : Thread nD τ) arg11 fullShare (out1_10 x0 x1 x2 x3 x4 x6 x7 x8 x9)
            ∗ owns (c : Thread nD τ) arg12 fullShare (out1_11 x0 x1 x2 x3 x4 x5)
            ∗ owns (c : Thread nD τ) arg13 fullShare (out1_12 x0 x1 x2 x3 x4)) -∗ K ⟨⟩))
      ⊢ wp frame (wpE (defs₀ (F := F)) Variants.none c none) E
          (cc1__edge_fused_kernel i arg1 harg1 arg2 harg2 arg3 harg3 arg4 harg4 arg5 harg5 arg6 harg6 arg7 harg7 arg8 harg8 arg9 harg9
            arg10 harg10 arg11 harg11 arg12 harg12 arg13 harg13) K := by
  simp only [cc1__edge_fused_kernel_eq_skeleton]; unfold cc1__edge_fused_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%d10, %f10, -, H10⟩, ⟨%d11, %f11, -, H11⟩, ⟨%d12, %f12, -, H12⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    try dsimp only
    exact View.read_writes_eq_canon _ _ _ (cover1_10 _)
  isplitl [H11]
  · iexists _; isplitr
    swap; · iexact H11
    ipureintro
    try dsimp only
    exact View.read_writes_eq_canon _ _ _ (cover1_11 _)
  iexists _; isplitr
  swap; · iexact H12
  ipureintro
  try dsimp only
  exact View.read_writes_eq_canon _ _ _ (cover1_12 _)

/-! ## The pipeline's proof data -/

/-- Pipeline 1's proof data on core `c`: the arrays as the region finds them; after the body at point `t` each
    input's buffer still at its block and each output's at its `out1_w` of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 6 t) (iblk1 V c 7 t)
        (iblk1 V c 8 t) (iblk1 V c 9 t)
    | ⟨11, _⟩ => out1_11 (iblk1 V c 0 t) (iblk1 V c 1 t) (iblk1 V c 2 t) (iblk1 V c 3 t) (iblk1 V c 4 t) (iblk1 V c 5 t)
    | ⟨12, _⟩ => out1_12 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) :
    (dat1 V c).after 10 t = out1_10 (iblk1 V c 0 t) (iblk1 V c 1 t) (iblk1 V c 2 t) (iblk1 V c 3 t) (iblk1 V c 4 t) (iblk1 V c 6 t)
      (iblk1 V c 7 t) (iblk1 V c 8 t) (iblk1 V c 9 t) := by dsimp only [dat1]
theorem after1_11 (c : Dev nD) (t : Fin cfg1.N) :
    (dat1 V c).after 11 t = out1_11 (iblk1 V c 0 t) (iblk1 V c 1 t) (iblk1 V c 2 t) (iblk1 V c 3 t) (iblk1 V c 4 t) (iblk1 V c 5 t) := by
  dsimp only [dat1]
theorem after1_12 (c : Dev nD) (t : Fin cfg1.N) :
    (dat1 V c).after 12 t = out1_12 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

set_option maxHeartbeats 1000000 in
/-- The body at any point: the inputs' buffers hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩⟩
  iapply (sound_kernel1 c Set.univ _ _ _ _ _ _ _ _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t)
    (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Region2.lean ====
/- Region 2 of @main, the node combine: at each of its 10 grid points the body reads a 2000-row block of each of
   the projected node features, the aggregation's numerator and its denominator, and the four 1x128 rows of the
   normalisation (mean, variance, scale, shift), and stores into the output window's 2000x128 block the rectified
   normalised value of the first plus the quotient of the other two. This module states what the body leaves in
   every window's staging buffer as a function of the input blocks, proves the body's triple on whole staging
   buffers, and packages both as the pipeline's proof data and body obligation, at any contents `V` of the
   TensorCore's buffers on entry and at any float instance. -/
import proofs.«157276_j46986942218355_1_alg».proof.Proof.Gen.Kernel.Launch
import proofs.«157276_j46986942218355_1_alg».proof.Proof.Gen.Kernel.Skeleton
import proofs.«157276_j46986942218355_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether or not it was fetched there:
    where it was not (the four rows after the first point), the block index has not moved since the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole buffer -/

abbrev r2_n : Rect S2000x128 := Rect.unit (s := S2000x128) ![0, 0] S2000x128.size inb_S2000x128_S2000x128_0_0
abbrev r2_r : Rect S1x128 := Rect.unit (s := S1x128) ![0, 0] S1x128.size inb_S1x128_S1x128_0_0

/-- The output window's staging buffer after the body: its one store, of the payload of the seven loads (the
    payload takes the variance row, the scale row and the mean row in that order between the blocks and the shift). -/
def out2_7 (x0 x1 x2 : Vec F S2000x128 .f32) (x3 x4 x5 x6 : Vec F S1x128 .f32) : Vec F S2000x128 .f32 :=
  View.canon [⟨r2_n, k2_pay1 (View.ld x0 r2_n) (View.ld x1 r2_n) (View.ld x2 r2_n) (View.ld x4 r2_r) (View.ld x5 r2_r)
    (View.ld x3 r2_r) (View.ld x6 r2_r)⟩]

/-- The one store covers the buffer. -/
theorem cover2_7 (p0 : Vec F S2000x128 .f32) (y : S2000x128.Idx) :
    ∃ pc ∈ ([⟨r2_n, p0⟩] : List (View.Piece (Elt F) S2000x128 .f32)), y ∈ pc.1.set :=
  View.cover_of_tiled [⟨r2_n, p0⟩] S2000x128.size (by rfl) y

/-! ## The body's triple -/

set_option maxHeartbeats 1000000 in
/-- On whole staging buffers, the inputs' at known contents and the output's at anything, the body runs to the
    continuation with the inputs as they were and the output at `out2_7` of the inputs. -/
theorem sound_kernel2 (c : Dev nD) (E : Set ℕ) (i : grid2.Coords) (arg1 : Memref sig .tc .vmem S2000x128 .f32) (harg1 : arg1.IsWhole)
    (arg2 : Memref sig .tc .vmem S2000x128 .f32) (harg2 : arg2.IsWhole) (arg3 : Memref sig .tc .vmem S2000x128 .f32) (harg3 : arg3.IsWhole)
    (arg4 : Memref sig .tc .vmem S1x128 .f32) (harg4 : arg4.IsWhole) (arg5 : Memref sig .tc .vmem S1x128 .f32) (harg5 : arg5.IsWhole)
    (arg6 : Memref sig .tc .vmem S1x128 .f32) (harg6 : arg6.IsWhole) (arg7 : Memref sig .tc .vmem S1x128 .f32) (harg7 : arg7.IsWhole)
    (arg8 : Memref sig .tc .vmem S2000x128 .f32) (harg8 : arg8.IsWhole)
    (x0 x1 x2 : Vec F S2000x128 .f32) (x3 x4 x5 x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out2_7 x0 x1 x2 x3 x4 x5 x6)) -∗ K ⟨⟩))
      ⊢ wp frame (wpE (defs₀ (F := F)) Variants.none c none) E
          (cc2__node_combine_kernel i arg1 harg1 arg2 harg2 arg3 harg3 arg4 harg4 arg5 harg5 arg6 harg6 arg7 harg7 arg8 harg8) K := by
  simp only [cc2__node_combine_kernel_eq_skeleton]; unfold cc2__node_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- Pipeline 2's proof data on core `c`: the arrays as the region finds them; after the body at point `t` each
    input's buffer still at its block and the output's at `out2_7` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t)
        (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) :
    (dat2 V c).after 7 t = out2_7 (iblk2 V c 0 t) (iblk2 V c 1 t) (iblk2 V c 2 t) (iblk2 V c 3 t) (iblk2 V c 4 t) (iblk2 V c 5 t)
      (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' buffers hold their blocks, so the triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t)
    (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Run.lean ====
/- The run of @main as six segments: three stretches of host operations and the three kernel regions between them.
   The buffer contents at each boundary are a fold from the launch memory: a host stretch applies its operations, a
   region replaces its windows' arrays by what its write-backs leave and keeps every other buffer. Over that fold the
   proof data of the three pipelines are pinned at their regions' entry contents, each region is a segment entered
   and left at the fold's contents, and the launch theorem for several regions gives: every weakly fair execution
   terminates without a fault, in a state whose every unscoped TensorCore buffer holds the fold's last contents.
   From that one statement come the frame (each argument read back through the fold to its launch contents) and the
   values of the two results (the last contents at their buffers). Stated at any float instance. -/
import proofs.«157276_j46986942218355_1_alg».proof.Proof.KB.Region0
import proofs.«157276_j46986942218355_1_alg».proof.Proof.KB.Region1
import proofs.«157276_j46986942218355_1_alg».proof.Proof.KB.Region2
import proofs.«157276_j46986942218355_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- Core `c`'s buffers at launch. -/
abbrev W0 : Dev nD → Valuation τ sig (Elt F) := fun c b => m ((c : Dev nD), b)
/-- After the first host stretch (region 0's entry). -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b

/-- At region 0's exit: its windows' arrays at what the pipeline leaves (an input's as entered, an output's
    write-backs folded over the grid), every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- An input window's array leaves the region as it entered it. -/
theorem W2_in (c : Dev nD) (w : Fin cfg0.W) (hin : (cfg0.win w).isOut = false) :
    W2 m c (Proc.devRef .tc (Pipeline.arrRef spec0 w)) = W1 m c (Proc.devRef .tc (Pipeline.arrRef spec0 w)) :=
  (W2_arr m c w).trans (((dat0 (E1 m) c).arrAt_in w hin _).trans (A_eq0 (E1 m) c w))
/-- The same read at the TensorCore's references. -/
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b

/-- At region 1's exit: its windows' arrays at what the pipeline leaves (an input's as entered, an output's
    write-backs folded over the grid), every other buffer as entered. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- An input window's array leaves the region as it entered it. -/
theorem W4_in (c : Dev nD) (w : Fin cfg1.W) (hin : (cfg1.win w).isOut = false) :
    W4 m c (Proc.devRef .tc (Pipeline.arrRef spec1 w)) = W3 m c (Proc.devRef .tc (Pipeline.arrRef spec1 w)) :=
  (W4_arr m c w).trans (((dat1 (E3 m) c).arrAt_in w hin _).trans (A_eq1 (E3 m) c w))
/-- The same read at the TensorCore's references. -/
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-- After the third host stretch (region 2's entry). -/
abbrev W5 : Dev nD → Valuation τ sig (Elt F) := fun c => StableHlo.after hostOps2 (W4 m c)
abbrev E5 : (c : Dev nD) → (b : Ref sig .tc) → Buf (Elt F) ((c : Thread nD τ).loc b) := fun c b => W5 m c b

/-- At region 2's exit: its windows' arrays at what the pipeline leaves (an input's as entered, an output's
    write-backs folded over the grid), every other buffer as entered. -/
def W6 (c : Dev nD) : Valuation τ sig (Elt F) :=
  Pipeline.withArrays spec2 c (W5 m c) fun w => (dat2 (E5 m) c).arrAt w cfg2.N
theorem W6_arr (c : Dev nD) (w : Fin cfg2.W) :
    W6 m c (Proc.devRef .tc (Pipeline.arrRef spec2 w)) = (dat2 (E5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- An input window's array leaves the region as it entered it. -/
theorem W6_in (c : Dev nD) (w : Fin cfg2.W) (hin : (cfg2.win w).isOut = false) :
    W6 m c (Proc.devRef .tc (Pipeline.arrRef spec2 w)) = W5 m c (Proc.devRef .tc (Pipeline.arrRef spec2 w)) :=
  (W6_arr m c w).trans (((dat2 (E5 m) c).arrAt_in w hin _).trans (A_eq2 (E5 m) c w))
/-- The same read at the TensorCore's references. -/
abbrev E6 : (c : Dev nD) → (b : Ref sig .tc) → Buf (Elt F) ((c : Thread nD τ).loc b) := fun c b => W6 m c b
theorem hF2 (c : Dev nD) (w : Fin cfg2.W) : (dat2 (E5 m) c).arrAt w cfg2.N = E6 m c (Pipeline.arrRef spec2 w) :=
  (W6_arr m c w).symm
theorem hrest2 (c : Dev nD) : ∀ b, b ∉ Finset.univ.image (Pipeline.arrRef spec2) → E6 m c b = E5 m c b :=
  fun b hb => W6_of_ne m c b fun w e => hb (Finset.mem_image.mpr ⟨w, Finset.mem_univ _, e⟩)

/-! ## A buffer no host operation writes passes every stretch -/

theorem W1_keep (c : Dev nD) (r : Ref sig .tc) (h : r ∉ hostOps0_W) : W1 m c (Proc.devRef .tc r) = W0 m c (Proc.devRef .tc r) :=
  StableHlo.after_of_writes_sub hostOps0 _ hostOps0_writes h
theorem W3_keep (c : Dev nD) (r : Ref sig .tc) (h : r ∉ hostOps1_W) : W3 m c (Proc.devRef .tc r) = W2 m c (Proc.devRef .tc r) :=
  StableHlo.after_of_writes_sub hostOps1 _ hostOps1_writes h
theorem W5_keep (c : Dev nD) (r : Ref sig .tc) (h : r ∉ hostOps2_W) : W5 m c (Proc.devRef .tc r) = W4 m c (Proc.devRef .tc r) :=
  StableHlo.after_of_writes_sub hostOps2 _ hostOps2_writes h

/-- The buffer `r` holds its launch contents at every boundary of the fold. -/
abbrev KeptAll (c : Dev nD) (r : Ref sig .tc) : Prop :=
  W1 m c (Proc.devRef .tc r) = m ((c : Thread nD τ).loc r) ∧ W2 m c (Proc.devRef .tc r) = m ((c : Thread nD τ).loc r)
    ∧ W3 m c (Proc.devRef .tc r) = m ((c : Thread nD τ).loc r) ∧ W4 m c (Proc.devRef .tc r) = m ((c : Thread nD τ).loc r)
    ∧ W5 m c (Proc.devRef .tc r) = m ((c : Thread nD τ).loc r) ∧ W6 m c (Proc.devRef .tc r) = m ((c : Thread nD τ).loc r)

/-- A buffer that no host operation writes and that is no window's array of any region holds its launch contents at
    every boundary. -/
theorem passive (c : Dev nD) (r : Ref sig .tc) (h0 : r ∉ hostOps0_W) (h1 : r ∉ hostOps1_W) (h2 : r ∉ hostOps2_W)
    (a0 : ∀ w, Pipeline.arrRef spec0 w ≠ r) (a1 : ∀ w, Pipeline.arrRef spec1 w ≠ r) (a2 : ∀ w, Pipeline.arrRef spec2 w ≠ r) :
    KeptAll m c r := by
  have e1 : W1 m c (Proc.devRef .tc r) = m ((c : Thread nD τ).loc r) := (W1_keep m c r h0).trans rfl
  have e2 := (W2_of_ne m c r a0).trans e1
  have e3 := (W3_keep m c r h1).trans e2
  have e4 := (W4_of_ne m c r a1).trans e3
  have e5 := (W5_keep m c r h2).trans e4
  exact ⟨e1, e2, e3, e4, e5, (W6_of_ne m c r a2).trans e5⟩

/-- The node features: region 0 stages them through an input window; nothing else touches them. -/
theorem arg0_all (c : Dev nD) : KeptAll m c main_arg0 := by
  have e1 : W1 m c (Proc.devRef .tc main_arg0) = m ((c : Thread nD τ).loc main_arg0) := (W1_keep m c main_arg0 (by decide)).trans rfl
  have e2 := (W2_in m c 0 rfl).trans e1
  have e3 := (W3_keep m c main_arg0 (by decide)).trans e2
  have e4 := (W4_of_ne m c main_arg0 (by decide)).trans e3
  have e5 := (W5_keep m c main_arg0 (by decide)).trans e4
  exact ⟨e1, e2, e3, e4, e5, (W6_of_ne m c main_arg0 (by decide)).trans e5⟩

/-- The edge features: region 1 stages them through an input window; nothing else touches them. -/
theorem arg1_all (c : Dev nD) : KeptAll m c main_arg1 := by
  have e1 : W1 m c (Proc.devRef .tc main_arg1) = m ((c : Thread nD τ).loc main_arg1) := (W1_keep m c main_arg1 (by decide)).trans rfl
  have e2 := (W2_of_ne m c main_arg1 (by decide)).trans e1
  have e3 := (W3_keep m c main_arg1 (by decide)).trans e2
  have e4 := (W4_in m c 0 rfl).trans e3
  have e5 := (W5_keep m c main_arg1 (by decide)).trans e4
  exact ⟨e1, e2, e3, e4, e5, (W6_of_ne m c main_arg1 (by decide)).trans e5⟩

/-- Every other argument is passive: the host operations read it, the regions never see it. -/
theorem arg2_all (c : Dev nD) : KeptAll m c main_arg2 := passive m c main_arg2 (by decide) (by decide) (by decide) (by decide) (by decide) (by decide)
theorem arg3_all (c : Dev nD) : KeptAll m c main_arg3 := passive m c main_arg3 (by decide) (by decide) (by decide) (by decide) (by decide) (by decide)
theorem arg4_all (c : Dev nD) : KeptAll m c main_arg4 := passive m c main_arg4 (by decide) (by decide) (by decide) (by decide) (by decide) (by decide)
theorem arg5_all (c : Dev nD) : KeptAll m c main_arg5 := passive m c main_arg5 (by decide) (by decide) (by decide) (by decide) (by decide) (by decide)
theorem arg6_all (c : Dev nD) : KeptAll m c main_arg6 := passive m c main_arg6 (by decide) (by decide) (by decide) (by decide) (by decide) (by decide)
theorem arg7_all (c : Dev nD) : KeptAll m c main_arg7 := passive m c main_arg7 (by decide) (by decide) (by decide) (by decide) (by decide) (by decide)
theorem arg8_all (c : Dev nD) : KeptAll m c main_arg8 := passive m c main_arg8 (by decide) (by decide) (by decide) (by decide) (by decide) (by decide)
theorem arg9_all (c : Dev nD) : KeptAll m c main_arg9 := passive m c main_arg9 (by decide) (by decide) (by decide) (by decide) (by decide) (by decide)
theorem arg10_all (c : Dev nD) : KeptAll m c main_arg10 := passive m c main_arg10 (by decide) (by decide) (by decide) (by decide) (by decide) (by decide)
theorem arg11_all (c : Dev nD) : KeptAll m c main_arg11 := passive m c main_arg11 (by decide) (by decide) (by decide) (by decide) (by decide) (by decide)
theorem arg12_all (c : Dev nD) : KeptAll m c main_arg12 := passive m c main_arg12 (by decide) (by decide) (by decide) (by decide) (by decide) (by decide)
theorem arg13_all (c : Dev nD) : KeptAll m c main_arg13 := passive m c main_arg13 (by decide) (by decide) (by decide) (by decide) (by decide) (by decide)
theorem arg14_all (c : Dev nD) : KeptAll m c main_arg14 := passive m c main_arg14 (by decide) (by decide) (by decide) (by decide) (by decide) (by decide)
theorem arg15_all (c : Dev nD) : KeptAll m c main_arg15 := passive m c main_arg15 (by decide) (by decide) (by decide) (by decide) (by decide) (by decide)
theorem arg16_all (c : Dev nD) : KeptAll m c main_arg16 := passive m c main_arg16 (by decide) (by decide) (by decide) (by decide) (by decide) (by decide)
theorem arg17_all (c : Dev nD) : KeptAll m c main_arg17 := passive m c main_arg17 (by decide) (by decide) (by decide) (by decide) (by decide) (by decide)
theorem arg18_all (c : Dev nD) : KeptAll m c main_arg18 := passive m c main_arg18 (by decide) (by decide) (by decide) (by decide) (by decide) (by decide)
theorem arg19_all (c : Dev nD) : KeptAll m c main_arg19 := passive m c main_arg19 (by decide) (by decide) (by decide) (by decide) (by decide) (by decide)
theorem arg20_all (c : Dev nD) : KeptAll m c main_arg20 := passive m c main_arg20 (by decide) (by decide) (by decide) (by decide) (by decide) (by decide)
theorem arg21_all (c : Dev nD) : KeptAll m c main_arg21 := passive m c main_arg21 (by decide) (by decide) (by decide) (by decide) (by decide) (by decide)

/-! ## The proof data family and the thread state -/

/-- Every pipeline's proof data, each at its region's entry contents. -/
def pd : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at
    some state. -/
abbrev Tₙ (c : Dev nD) : sProp 𝕄 := iprop(StableHlo.held (c : Thread nD τ) (Pipeline.ucRefs τ sig) (W6 m c) ∗ ∃ r, prngReg c r)

/-! ## The regions as segments -/

-- a library lemma stated over the pinned configuration unifies with the printed one only when unification may unfold
-- plain definitions in a metavariable's type
set_option backward.isDefEq.respectTransparency.types false in
/-- Region 0 over the thread state: entered with every unscoped buffer at `W1`, left with them at `W2`. Its
    windows' arrays are split out of the unscoped buffers on entry and put back, at what the write-backs leave, on
    exit; the generator register goes into the region's invariant and comes back; nothing is owed. -/
def reg0 : Pipeline.RegionSeg (pcfgs (F := F)) adm (pd m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pd m) launch0.win launch0.arr_whole c
      ((pd m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 0 c).Φ 0 = Pipeline.ΦA spec0 c from rfl]; unfold Pipeline.ΦA
    iintro ⟨Hp, -, Hr⟩
    isplitl [Hr]; · iexact Hr
    iexact Hp
  hout c := by
    rw [Pipeline.ownSems0_none, show (pd m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pd m) ((pd m 0 c).share_full fun _ => rfl)
      (E1 m c) (E2 m c) ((pd m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered with every unscoped buffer at `W3`, left with them at `W4`. Its
    windows' arrays are split out of the unscoped buffers on entry and put back, at what the write-backs leave, on
    exit; the generator register goes into the region's invariant and comes back; nothing is owed. -/
def reg1 : Pipeline.RegionSeg (pcfgs (F := F)) adm (pd m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pd m) launch1.win launch1.arr_whole c
      ((pd m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 1 c).Φ 0 = Pipeline.ΦA spec1 c from rfl]; unfold Pipeline.ΦA
    iintro ⟨Hp, -, Hr⟩
    isplitl [Hr]; · iexact Hr
    iexact Hp
  hout c := by
    rw [Pipeline.ownSems0_none, show (pd m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pd m) ((pd m 1 c).share_full fun _ => rfl)
      (E3 m c) (E4 m c) ((pd m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered with every unscoped buffer at `W5`, left with them at `W6`. Its
    windows' arrays are split out of the unscoped buffers on entry and put back, at what the write-backs leave, on
    exit; the generator register goes into the region's invariant and comes back; nothing is owed. -/
def reg2 : Pipeline.RegionSeg (pcfgs (F := F)) adm (pd m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pd m) launch2.win launch2.arr_whole c
      ((pd m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 2 c).Φ 0 = Pipeline.ΦA spec2 c from rfl]; unfold Pipeline.ΦA
    iintro ⟨Hp, -, Hr⟩
    isplitl [Hr]; · iexact Hr
    iexact Hp
  hout c := by
    rw [Pipeline.ownSems0_none, show (pd m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pd m) ((pd m 2 c).share_full fun _ => rfl)
      (E5 m c) (E6 m c) ((pd m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order. -/
abbrev sgs : List (Pipeline.Seg (pcfgs (F := F)) adm (pd m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
/-- @main is the run of the segments. -/
theorem main_run (c : Dev nD) : main (F := F) c = Pipeline.Seg.run (sgs m) := (main_chain c).trans (by chain_rfl)

set_option backward.isDefEq.respectTransparency.types false in
/-- From any memory with zero counters every weakly fair execution of @main terminates, nothing faulting, in a state
    whose every unscoped TensorCore buffer holds the fold's last contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pd m) () cellOf_inj emb₁ defs₀ 𝒱₀ L lv m ρ main (sgs m)
    (fun c Q => by rw [main_run m c])
    (by simp only [sgs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- From "every unscoped buffer of a memory holds the fold's last contents" on a core: each argument array holds its
    launch contents. -/
theorem frame_of_all (mem : (ℓ : Loc nD τ sig) → Buf (Elt F) ℓ) (c : Dev nD)
    (h : ∀ b ∈ Pipeline.ucRefs τ sig, mem (((c : Thread nD τ)).1, b) = W6 m c b) :
      mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)
      ∧ mem ((c.tc : Thread nD τ).loc main_arg10) = m ((c.tc : Thread nD τ).loc main_arg10)
      ∧ mem ((c.tc : Thread nD τ).loc main_arg11) = m ((c.tc : Thread nD τ).loc main_arg11)
      ∧ mem ((c.tc : Thread nD τ).loc main_arg12) = m ((c.tc : Thread nD τ).loc main_arg12)
      ∧ mem ((c.tc : Thread nD τ).loc main_arg13) = m ((c.tc : Thread nD τ).loc main_arg13)
      ∧ mem ((c.tc : Thread nD τ).loc main_arg14) = m ((c.tc : Thread nD τ).loc main_arg14)
      ∧ mem ((c.tc : Thread nD τ).loc main_arg15) = m ((c.tc : Thread nD τ).loc main_arg15)
      ∧ mem ((c.tc : Thread nD τ).loc main_arg16) = m ((c.tc : Thread nD τ).loc main_arg16)
      ∧ mem ((c.tc : Thread nD τ).loc main_arg17) = m ((c.tc : Thread nD τ).loc main_arg17)
      ∧ mem ((c.tc : Thread nD τ).loc main_arg18) = m ((c.tc : Thread nD τ).loc main_arg18)
      ∧ mem ((c.tc : Thread nD τ).loc main_arg19) = m ((c.tc : Thread nD τ).loc main_arg19)
      ∧ mem ((c.tc : Thread nD τ).loc main_arg20) = m ((c.tc : Thread nD τ).loc main_arg20)
      ∧ mem ((c.tc : Thread nD τ).loc main_arg21) = m ((c.tc : Thread nD τ).loc main_arg21) :=
  ⟨(h _ (mem_uc main_arg0 (by decide))).trans (arg0_all m c).2.2.2.2.2,
   (h _ (mem_uc main_arg1 (by decide))).trans (arg1_all m c).2.2.2.2.2,
   (h _ (mem_uc main_arg2 (by decide))).trans (arg2_all m c).2.2.2.2.2,
   (h _ (mem_uc main_arg3 (by decide))).trans (arg3_all m c).2.2.2.2.2,
   (h _ (mem_uc main_arg4 (by decide))).trans (arg4_all m c).2.2.2.2.2,
   (h _ (mem_uc main_arg5 (by decide))).trans (arg5_all m c).2.2.2.2.2,
   (h _ (mem_uc main_arg6 (by decide))).trans (arg6_all m c).2.2.2.2.2,
   (h _ (mem_uc main_arg7 (by decide))).trans (arg7_all m c).2.2.2.2.2,
   (h _ (mem_uc main_arg8 (by decide))).trans (arg8_all m c).2.2.2.2.2,
   (h _ (mem_uc main_arg9 (by decide))).trans (arg9_all m c).2.2.2.2.2,
   (h _ (mem_uc main_arg10 (by decide))).trans (arg10_all m c).2.2.2.2.2,
   (h _ (mem_uc main_arg11 (by decide))).trans (arg11_all m c).2.2.2.2.2,
   (h _ (mem_uc main_arg12 (by decide))).trans (arg12_all m c).2.2.2.2.2,
   (h _ (mem_uc main_arg13 (by decide))).trans (arg13_all m c).2.2.2.2.2,
   (h _ (mem_uc main_arg14 (by decide))).trans (arg14_all m c).2.2.2.2.2,
   (h _ (mem_uc main_arg15 (by decide))).trans (arg15_all m c).2.2.2.2.2,
   (h _ (mem_uc main_arg16 (by decide))).trans (arg16_all m c).2.2.2.2.2,
   (h _ (mem_uc main_arg17 (by decide))).trans (arg17_all m c).2.2.2.2.2,
   (h _ (mem_uc main_arg18 (by decide))).trans (arg18_all m c).2.2.2.2.2,
   (h _ (mem_uc main_arg19 (by decide))).trans (arg19_all m c).2.2.2.2.2,
   (h _ (mem_uc main_arg20 (by decide))).trans (arg20_all m c).2.2.2.2.2,
   (h _ (mem_uc main_arg21 (by decide))).trans (arg21_all m c).2.2.2.2.2⟩

/-- The frame: every argument array ends holding its launch contents. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => frame_of_all m r.2.mem c (h c)) (run_all m ρ)

end Cert.Kernel.Hand

end
-- ==== Proof.KI.Region0.lean ====
/- Region 0 of @main, the node projection: at each of its 10 grid points the body reads a 2000-row block of the
   node features, the whole 128x512 weight matrix and the 1x512 bias row, and stores into the output window's
   2000x512 block the product of the first two plus the bias row broadcast down the rows. This module states what
   the body leaves in every window's staging buffer as a function of the input blocks, proves the body's triple
   on whole staging buffers, and packages both as the pipeline's proof data and body obligation, at any
   contents `V` of the TensorCore's buffers on entry and at any float instance. -/
import proofs.«157276_j46986942218355_1_alg».proof.Proof.Gen.KernelIdeal.Launch
import proofs.«157276_j46986942218355_1_alg».proof.Proof.Gen.KernelIdeal.Skeleton
import proofs.«157276_j46986942218355_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether or not it was fetched there:
    where it was not, the block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole buffer -/

abbrev r0_h : Rect S2000x128 := Rect.unit (s := S2000x128) ![0, 0] S2000x128.size inb_S2000x128_S2000x128_0_0
abbrev r0_w : Rect S128x512 := Rect.unit (s := S128x512) ![0, 0] S128x512.size inb_S128x512_S128x512_0_0
abbrev r0_b : Rect S1x512 := Rect.unit (s := S1x512) ![0, 0] S1x512.size inb_S1x512_S1x512_0_0
abbrev r0_o : Rect S2000x512 := Rect.unit (s := S2000x512) ![0, 0] S2000x512.size inb_S2000x512_S2000x512_0_0

/-- The output window's staging buffer after the body: its one store, of the payload of the three loads. -/
def out0_3 (x0 : Vec F S2000x128 .f32) (x1 : Vec F S128x512 .f32) (x2 : Vec F S1x512 .f32) : Vec F S2000x512 .f32 :=
  View.canon [⟨r0_o, k0_pay1 (View.ld x0 r0_h) (View.ld x1 r0_w) (View.ld x2 r0_b)⟩]

/-- The one store covers the buffer. -/
theorem cover0_3 (p0 : Vec F S2000x512 .f32) (y : S2000x512.Idx) :
    ∃ pc ∈ ([⟨r0_o, p0⟩] : List (View.Piece (Elt F) S2000x512 .f32)), y ∈ pc.1.set :=
  View.cover_of_tiled [⟨r0_o, p0⟩] S2000x512.size (by rfl) y

/-! ## The body's triple -/

set_option maxHeartbeats 1000000 in
/-- On whole staging buffers, the inputs' at known contents and the output's at anything, the body runs to the
    continuation with the inputs as they were and the output at `out0_3` of the inputs. -/
theorem sound_kernel0 (c : Dev nD) (E : Set ℕ) (i : grid0.Coords) (arg1 : Memref sig .tc .vmem S2000x128 .f32) (harg1 : arg1.IsWhole)
    (arg2 : Memref sig .tc .vmem S128x512 .f32) (harg2 : arg2.IsWhole) (arg3 : Memref sig .tc .vmem S1x512 .f32) (harg3 : arg3.IsWhole)
    (arg4 : Memref sig .tc .vmem S2000x512 .f32) (harg4 : arg4.IsWhole)
    (x0 : Vec F S2000x128 .f32) (x1 : Vec F S128x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__node_proj_kernel i arg1 harg1 arg2 harg2 arg3 harg3 arg4 harg4) K := by
  simp only [cc0__node_proj_kernel_eq_skeleton]; unfold cc0__node_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- Pipeline 0's proof data on core `c`: the arrays as the region finds them; after the body at point `t` each
    input's buffer still at its block and the output's at `out0_3` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/- Region 1 of @main, the fused edge update: at each of its 200 grid points the body reads a 3200-row block of the
   edge features, the whole 128x128 weight matrix and its 1x128 bias row, the matching 3200-row blocks of three
   gathered node projections, and the four 1x128 rows of the normalisation (mean, variance, scale, shift). With
   s the product of the first two plus the bias row broadcast down the rows plus the first two gathered blocks,
   it stores three 3200x128 blocks: the normalised, scaled, shifted and rectified s; the logistic of s times the
   third gathered block; and the logistic of s. This module states what the body leaves in every window's staging
   buffer as a function of the input blocks, proves the body's triple on whole staging buffers, and packages both
   as the pipeline's proof data and body obligation, at any contents `V` of the TensorCore's buffers on entry and
   at any float instance. -/
import proofs.«157276_j46986942218355_1_alg».proof.Proof.Gen.KernelIdeal.Launch
import proofs.«157276_j46986942218355_1_alg».proof.Proof.Gen.KernelIdeal.Skeleton
import proofs.«157276_j46986942218355_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether or not it was fetched there:
    where it was not, the block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole buffer -/

abbrev r1_e : Rect S3200x128 := Rect.unit (s := S3200x128) ![0, 0] S3200x128.size inb_S3200x128_S3200x128_0_0
abbrev r1_w : Rect S128x128 := Rect.unit (s := S128x128) ![0, 0] S128x128.size inb_S128x128_S128x128_0_0
abbrev r1_r : Rect S1x128 := Rect.unit (s := S1x128) ![0, 0] S1x128.size inb_S1x128_S1x128_0_0

/-- The first output window's staging buffer after the body: its one store, of the rectified sum of the shift row
    and the normalised, scaled pre-activation (the payload of nine loads; the third gathered block is not read). -/
def out1_10 (x0 : Vec F S3200x128 .f32) (x1 : Vec F S128x128 .f32) (x2 : Vec F S1x128 .f32) (x3 x4 : Vec F S3200x128 .f32)
    (x6 x7 x8 x9 : Vec F S1x128 .f32) : Vec F S3200x128 .f32 :=
  View.canon [⟨r1_e, k1_pay1 (k1_pay5 (View.ld x0 r1_e) (View.ld x1 r1_w) (View.ld x2 r1_r) (View.ld x3 r1_e) (View.ld x4 r1_e)
    (View.ld x7 r1_r) (View.ld x8 r1_r) (View.ld x6 r1_r)) (k1_pay6 (View.ld x9 r1_r))⟩]

/-- The second output window's: its one store, of the gate (the logistic of the pre-activation) times the third
    gathered block. -/
def out1_11 (x0 : Vec F S3200x128 .f32) (x1 : Vec F S128x128 .f32) (x2 : Vec F S1x128 .f32) (x3 x4 x5 : Vec F S3200x128 .f32) :
    Vec F S3200x128 .f32 :=
  View.canon [⟨r1_e, k1_pay4 (View.ld x0 r1_e) (View.ld x1 r1_w) (View.ld x2 r1_r) (View.ld x3 r1_e) (View.ld x4 r1_e) (View.ld x5 r1_e)⟩]

/-- The third output window's: its one store, of the gate itself. -/
def out1_12 (x0 : Vec F S3200x128 .f32) (x1 : Vec F S128x128 .f32) (x2 : Vec F S1x128 .f32) (x3 x4 : Vec F S3200x128 .f32) :
    Vec F S3200x128 .f32 :=
  View.canon [⟨r1_e, k1_pay3 (View.ld x0 r1_e) (View.ld x1 r1_w) (View.ld x2 r1_r) (View.ld x3 r1_e) (View.ld x4 r1_e)⟩]

/-- Each output's one store covers its buffer. -/
theorem cover1_10 (p0 : Vec F S3200x128 .f32) (y : S3200x128.Idx) :
    ∃ pc ∈ ([⟨r1_e, p0⟩] : List (View.Piece (Elt F) S3200x128 .f32)), y ∈ pc.1.set :=
  View.cover_of_tiled [⟨r1_e, p0⟩] S3200x128.size (by rfl) y
theorem cover1_11 (p0 : Vec F S3200x128 .f32) (y : S3200x128.Idx) :
    ∃ pc ∈ ([⟨r1_e, p0⟩] : List (View.Piece (Elt F) S3200x128 .f32)), y ∈ pc.1.set :=
  View.cover_of_tiled [⟨r1_e, p0⟩] S3200x128.size (by rfl) y
theorem cover1_12 (p0 : Vec F S3200x128 .f32) (y : S3200x128.Idx) :
    ∃ pc ∈ ([⟨r1_e, p0⟩] : List (View.Piece (Elt F) S3200x128 .f32)), y ∈ pc.1.set :=
  View.cover_of_tiled [⟨r1_e, p0⟩] S3200x128.size (by rfl) y

/-! ## The body's triple -/

set_option maxHeartbeats 4000000 in
/-- On whole staging buffers, the ten inputs' at known contents and the three outputs' at anything, the body runs to
    the continuation with the inputs as they were and the outputs at `out1_10`, `out1_11`, `out1_12` of the inputs. -/
theorem sound_kernel1 (c : Dev nD) (E : Set ℕ) (i : grid1.Coords)
    (arg1 : Memref sig .tc .vmem S3200x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S3200x128 .f32) (harg4 : arg4.IsWhole)
    (arg5 : Memref sig .tc .vmem S3200x128 .f32) (harg5 : arg5.IsWhole) (arg6 : Memref sig .tc .vmem S3200x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S3200x128 .f32) (harg11 : arg11.IsWhole) (arg12 : Memref sig .tc .vmem S3200x128 .f32) (harg12 : arg12.IsWhole)
    (arg13 : Memref sig .tc .vmem S3200x128 .f32) (harg13 : arg13.IsWhole)
    (x0 : Vec F S3200x128 .f32) (x1 : Vec F S128x128 .f32) (x2 : Vec F S1x128 .f32) (x3 x4 x5 : Vec F S3200x128 .f32)
    (x6 x7 x8 x9 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9
        ∗ (∃ d, owns (c : Thread nD τ) arg11 fullShare d) ∗ (∃ d, owns (c : Thread nD τ) arg12 fullShare d)
        ∗ (∃ d, owns (c : Thread nD τ) arg13 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9
            ∗ owns (c : Thread nD τ) arg11 fullShare (out1_10 x0 x1 x2 x3 x4 x6 x7 x8 x9)
            ∗ owns (c : Thread nD τ) arg12 fullShare (out1_11 x0 x1 x2 x3 x4 x5)
            ∗ owns (c : Thread nD τ) arg13 fullShare (out1_12 x0 x1 x2 x3 x4)) -∗ K ⟨⟩))
      ⊢ wp frame (wpE (defs₀ (F := F)) Variants.none c none) E
          (cc1__edge_fused_kernel i arg1 harg1 arg2 harg2 arg3 harg3 arg4 harg4 arg5 harg5 arg6 harg6 arg7 harg7 arg8 harg8 arg9 harg9
            arg10 harg10 arg11 harg11 arg12 harg12 arg13 harg13) K := by
  simp only [cc1__edge_fused_kernel_eq_skeleton]; unfold cc1__edge_fused_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%d10, %f10, -, H10⟩, ⟨%d11, %f11, -, H11⟩, ⟨%d12, %f12, -, H12⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    try dsimp only
    exact View.read_writes_eq_canon _ _ _ (cover1_10 _)
  isplitl [H11]
  · iexists _; isplitr
    swap; · iexact H11
    ipureintro
    try dsimp only
    exact View.read_writes_eq_canon _ _ _ (cover1_11 _)
  iexists _; isplitr
  swap; · iexact H12
  ipureintro
  try dsimp only
  exact View.read_writes_eq_canon _ _ _ (cover1_12 _)

/-! ## The pipeline's proof data -/

/-- Pipeline 1's proof data on core `c`: the arrays as the region finds them; after the body at point `t` each
    input's buffer still at its block and each output's at its `out1_w` of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 6 t) (iblk1 V c 7 t)
        (iblk1 V c 8 t) (iblk1 V c 9 t)
    | ⟨11, _⟩ => out1_11 (iblk1 V c 0 t) (iblk1 V c 1 t) (iblk1 V c 2 t) (iblk1 V c 3 t) (iblk1 V c 4 t) (iblk1 V c 5 t)
    | ⟨12, _⟩ => out1_12 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) :
    (dat1 V c).after 10 t = out1_10 (iblk1 V c 0 t) (iblk1 V c 1 t) (iblk1 V c 2 t) (iblk1 V c 3 t) (iblk1 V c 4 t) (iblk1 V c 6 t)
      (iblk1 V c 7 t) (iblk1 V c 8 t) (iblk1 V c 9 t) := by dsimp only [dat1]
theorem after1_11 (c : Dev nD) (t : Fin cfg1.N) :
    (dat1 V c).after 11 t = out1_11 (iblk1 V c 0 t) (iblk1 V c 1 t) (iblk1 V c 2 t) (iblk1 V c 3 t) (iblk1 V c 4 t) (iblk1 V c 5 t) := by
  dsimp only [dat1]
theorem after1_12 (c : Dev nD) (t : Fin cfg1.N) :
    (dat1 V c).after 12 t = out1_12 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

set_option maxHeartbeats 1000000 in
/-- The body at any point: the inputs' buffers hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩⟩
  iapply (sound_kernel1 c Set.univ _ _ _ _ _ _ _ _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t)
    (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
/- Region 2 of @main, the node combine: at each of its 10 grid points the body reads a 2000-row block of each of
   the projected node features, the aggregation's numerator and its denominator, and the four 1x128 rows of the
   normalisation (mean, variance, scale, shift), and stores into the output window's 2000x128 block the rectified
   normalised value of the first plus the quotient of the other two. This module states what the body leaves in
   every window's staging buffer as a function of the input blocks, proves the body's triple on whole staging
   buffers, and packages both as the pipeline's proof data and body obligation, at any contents `V` of the
   TensorCore's buffers on entry and at any float instance. -/
import proofs.«157276_j46986942218355_1_alg».proof.Proof.Gen.KernelIdeal.Launch
import proofs.«157276_j46986942218355_1_alg».proof.Proof.Gen.KernelIdeal.Skeleton
import proofs.«157276_j46986942218355_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether or not it was fetched there:
    where it was not (the four rows after the first point), the block index has not moved since the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole buffer -/

abbrev r2_n : Rect S2000x128 := Rect.unit (s := S2000x128) ![0, 0] S2000x128.size inb_S2000x128_S2000x128_0_0
abbrev r2_r : Rect S1x128 := Rect.unit (s := S1x128) ![0, 0] S1x128.size inb_S1x128_S1x128_0_0

/-- The output window's staging buffer after the body: its one store, of the payload of the seven loads (the
    payload takes the variance row, the scale row and the mean row in that order between the blocks and the shift). -/
def out2_7 (x0 x1 x2 : Vec F S2000x128 .f32) (x3 x4 x5 x6 : Vec F S1x128 .f32) : Vec F S2000x128 .f32 :=
  View.canon [⟨r2_n, k2_pay1 (View.ld x0 r2_n) (View.ld x1 r2_n) (View.ld x2 r2_n) (View.ld x4 r2_r) (View.ld x5 r2_r)
    (View.ld x3 r2_r) (View.ld x6 r2_r)⟩]

/-- The one store covers the buffer. -/
theorem cover2_7 (p0 : Vec F S2000x128 .f32) (y : S2000x128.Idx) :
    ∃ pc ∈ ([⟨r2_n, p0⟩] : List (View.Piece (Elt F) S2000x128 .f32)), y ∈ pc.1.set :=
  View.cover_of_tiled [⟨r2_n, p0⟩] S2000x128.size (by rfl) y

/-! ## The body's triple -/

set_option maxHeartbeats 1000000 in
/-- On whole staging buffers, the inputs' at known contents and the output's at anything, the body runs to the
    continuation with the inputs as they were and the output at `out2_7` of the inputs. -/
theorem sound_kernel2 (c : Dev nD) (E : Set ℕ) (i : grid2.Coords) (arg1 : Memref sig .tc .vmem S2000x128 .f32) (harg1 : arg1.IsWhole)
    (arg2 : Memref sig .tc .vmem S2000x128 .f32) (harg2 : arg2.IsWhole) (arg3 : Memref sig .tc .vmem S2000x128 .f32) (harg3 : arg3.IsWhole)
    (arg4 : Memref sig .tc .vmem S1x128 .f32) (harg4 : arg4.IsWhole) (arg5 : Memref sig .tc .vmem S1x128 .f32) (harg5 : arg5.IsWhole)
    (arg6 : Memref sig .tc .vmem S1x128 .f32) (harg6 : arg6.IsWhole) (arg7 : Memref sig .tc .vmem S1x128 .f32) (harg7 : arg7.IsWhole)
    (arg8 : Memref sig .tc .vmem S2000x128 .f32) (harg8 : arg8.IsWhole)
    (x0 x1 x2 : Vec F S2000x128 .f32) (x3 x4 x5 x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out2_7 x0 x1 x2 x3 x4 x5 x6)) -∗ K ⟨⟩))
      ⊢ wp frame (wpE (defs₀ (F := F)) Variants.none c none) E
          (cc2__node_combine_kernel i arg1 harg1 arg2 harg2 arg3 harg3 arg4 harg4 arg5 harg5 arg6 harg6 arg7 harg7 arg8 harg8) K := by
  simp only [cc2__node_combine_kernel_eq_skeleton]; unfold cc2__node_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- Pipeline 2's proof data on core `c`: the arrays as the region finds them; after the body at point `t` each
    input's buffer still at its block and the output's at `out2_7` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t)
        (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) :
    (dat2 V c).after 7 t = out2_7 (iblk2 V c 0 t) (iblk2 V c 1 t) (iblk2 V c 2 t) (iblk2 V c 3 t) (iblk2 V c 4 t) (iblk2 V c 5 t)
      (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' buffers hold their blocks, so the triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t)
    (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/- The run of @main as six segments: three stretches of host operations and the three kernel regions between them.
   The buffer contents at each boundary are a fold from the launch memory: a host stretch applies its operations, a
   region replaces its windows' arrays by what its write-backs leave and keeps every other buffer. Over that fold the
   proof data of the three pipelines are pinned at their regions' entry contents, each region is a segment entered
   and left at the fold's contents, and the launch theorem for several regions gives: every weakly fair execution
   terminates without a fault, in a state whose every unscoped TensorCore buffer holds the fold's last contents.
   From that one statement come the frame (each argument read back through the fold to its launch contents) and the
   values of the two results (the last contents at their buffers). Stated at any float instance. -/
import proofs.«157276_j46986942218355_1_alg».proof.Proof.KI.Region0
import proofs.«157276_j46986942218355_1_alg».proof.Proof.KI.Region1
import proofs.«157276_j46986942218355_1_alg».proof.Proof.KI.Region2
import proofs.«157276_j46986942218355_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- Core `c`'s buffers at launch. -/
abbrev W0 : Dev nD → Valuation τ sig (Elt F) := fun c b => m ((c : Dev nD), b)
/-- After the first host stretch (region 0's entry). -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b

/-- At region 0's exit: its windows' arrays at what the pipeline leaves (an input's as entered, an output's
    write-backs folded over the grid), every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- An input window's array leaves the region as it entered it. -/
theorem W2_in (c : Dev nD) (w : Fin cfg0.W) (hin : (cfg0.win w).isOut = false) :
    W2 m c (Proc.devRef .tc (Pipeline.arrRef spec0 w)) = W1 m c (Proc.devRef .tc (Pipeline.arrRef spec0 w)) :=
  (W2_arr m c w).trans (((dat0 (E1 m) c).arrAt_in w hin _).trans (A_eq0 (E1 m) c w))
/-- The same read at the TensorCore's references. -/
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b

/-- At region 1's exit: its windows' arrays at what the pipeline leaves (an input's as entered, an output's
    write-backs folded over the grid), every other buffer as entered. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- An input window's array leaves the region as it entered it. -/
theorem W4_in (c : Dev nD) (w : Fin cfg1.W) (hin : (cfg1.win w).isOut = false) :
    W4 m c (Proc.devRef .tc (Pipeline.arrRef spec1 w)) = W3 m c (Proc.devRef .tc (Pipeline.arrRef spec1 w)) :=
  (W4_arr m c w).trans (((dat1 (E3 m) c).arrAt_in w hin _).trans (A_eq1 (E3 m) c w))
/-- The same read at the TensorCore's references. -/
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-- After the third host stretch (region 2's entry). -/
abbrev W5 : Dev nD → Valuation τ sig (Elt F) := fun c => StableHlo.after hostOps2 (W4 m c)
abbrev E5 : (c : Dev nD) → (b : Ref sig .tc) → Buf (Elt F) ((c : Thread nD τ).loc b) := fun c b => W5 m c b

/-- At region 2's exit: its windows' arrays at what the pipeline leaves (an input's as entered, an output's
    write-backs folded over the grid), every other buffer as entered. -/
def W6 (c : Dev nD) : Valuation τ sig (Elt F) :=
  Pipeline.withArrays spec2 c (W5 m c) fun w => (dat2 (E5 m) c).arrAt w cfg2.N
theorem W6_arr (c : Dev nD) (w : Fin cfg2.W) :
    W6 m c (Proc.devRef .tc (Pipeline.arrRef spec2 w)) = (dat2 (E5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- An input window's array leaves the region as it entered it. -/
theorem W6_in (c : Dev nD) (w : Fin cfg2.W) (hin : (cfg2.win w).isOut = false) :
    W6 m c (Proc.devRef .tc (Pipeline.arrRef spec2 w)) = W5 m c (Proc.devRef .tc (Pipeline.arrRef spec2 w)) :=
  (W6_arr m c w).trans (((dat2 (E5 m) c).arrAt_in w hin _).trans (A_eq2 (E5 m) c w))
/-- The same read at the TensorCore's references. -/
abbrev E6 : (c : Dev nD) → (b : Ref sig .tc) → Buf (Elt F) ((c : Thread nD τ).loc b) := fun c b => W6 m c b
theorem hF2 (c : Dev nD) (w : Fin cfg2.W) : (dat2 (E5 m) c).arrAt w cfg2.N = E6 m c (Pipeline.arrRef spec2 w) :=
  (W6_arr m c w).symm
theorem hrest2 (c : Dev nD) : ∀ b, b ∉ Finset.univ.image (Pipeline.arrRef spec2) → E6 m c b = E5 m c b :=
  fun b hb => W6_of_ne m c b fun w e => hb (Finset.mem_image.mpr ⟨w, Finset.mem_univ _, e⟩)

/-! ## A buffer no host operation writes passes every stretch -/

theorem W1_keep (c : Dev nD) (r : Ref sig .tc) (h : r ∉ hostOps0_W) : W1 m c (Proc.devRef .tc r) = W0 m c (Proc.devRef .tc r) :=
  StableHlo.after_of_writes_sub hostOps0 _ hostOps0_writes h
theorem W3_keep (c : Dev nD) (r : Ref sig .tc) (h : r ∉ hostOps1_W) : W3 m c (Proc.devRef .tc r) = W2 m c (Proc.devRef .tc r) :=
  StableHlo.after_of_writes_sub hostOps1 _ hostOps1_writes h
theorem W5_keep (c : Dev nD) (r : Ref sig .tc) (h : r ∉ hostOps2_W) : W5 m c (Proc.devRef .tc r) = W4 m c (Proc.devRef .tc r) :=
  StableHlo.after_of_writes_sub hostOps2 _ hostOps2_writes h

/-- The buffer `r` holds its launch contents at every boundary of the fold. -/
abbrev KeptAll (c : Dev nD) (r : Ref sig .tc) : Prop :=
  W1 m c (Proc.devRef .tc r) = m ((c : Thread nD τ).loc r) ∧ W2 m c (Proc.devRef .tc r) = m ((c : Thread nD τ).loc r)
    ∧ W3 m c (Proc.devRef .tc r) = m ((c : Thread nD τ).loc r) ∧ W4 m c (Proc.devRef .tc r) = m ((c : Thread nD τ).loc r)
    ∧ W5 m c (Proc.devRef .tc r) = m ((c : Thread nD τ).loc r) ∧ W6 m c (Proc.devRef .tc r) = m ((c : Thread nD τ).loc r)

/-- A buffer that no host operation writes and that is no window's array of any region holds its launch contents at
    every boundary. -/
theorem passive (c : Dev nD) (r : Ref sig .tc) (h0 : r ∉ hostOps0_W) (h1 : r ∉ hostOps1_W) (h2 : r ∉ hostOps2_W)
    (a0 : ∀ w, Pipeline.arrRef spec0 w ≠ r) (a1 : ∀ w, Pipeline.arrRef spec1 w ≠ r) (a2 : ∀ w, Pipeline.arrRef spec2 w ≠ r) :
    KeptAll m c r := by
  have e1 : W1 m c (Proc.devRef .tc r) = m ((c : Thread nD τ).loc r) := (W1_keep m c r h0).trans rfl
  have e2 := (W2_of_ne m c r a0).trans e1
  have e3 := (W3_keep m c r h1).trans e2
  have e4 := (W4_of_ne m c r a1).trans e3
  have e5 := (W5_keep m c r h2).trans e4
  exact ⟨e1, e2, e3, e4, e5, (W6_of_ne m c r a2).trans e5⟩

/-- The node features: region 0 stages them through an input window; nothing else touches them. -/
theorem arg0_all (c : Dev nD) : KeptAll m c main_arg0 := by
  have e1 : W1 m c (Proc.devRef .tc main_arg0) = m ((c : Thread nD τ).loc main_arg0) := (W1_keep m c main_arg0 (by decide)).trans rfl
  have e2 := (W2_in m c 0 rfl).trans e1
  have e3 := (W3_keep m c main_arg0 (by decide)).trans e2
  have e4 := (W4_of_ne m c main_arg0 (by decide)).trans e3
  have e5 := (W5_keep m c main_arg0 (by decide)).trans e4
  exact ⟨e1, e2, e3, e4, e5, (W6_of_ne m c main_arg0 (by decide)).trans e5⟩

/-- The edge features: region 1 stages them through an input window; nothing else touches them. -/
theorem arg1_all (c : Dev nD) : KeptAll m c main_arg1 := by
  have e1 : W1 m c (Proc.devRef .tc main_arg1) = m ((c : Thread nD τ).loc main_arg1) := (W1_keep m c main_arg1 (by decide)).trans rfl
  have e2 := (W2_of_ne m c main_arg1 (by decide)).trans e1
  have e3 := (W3_keep m c main_arg1 (by decide)).trans e2
  have e4 := (W4_in m c 0 rfl).trans e3
  have e5 := (W5_keep m c main_arg1 (by decide)).trans e4
  exact ⟨e1, e2, e3, e4, e5, (W6_of_ne m c main_arg1 (by decide)).trans e5⟩

/-- Every other argument is passive: the host operations read it, the regions never see it. -/
theorem arg2_all (c : Dev nD) : KeptAll m c main_arg2 := passive m c main_arg2 (by decide) (by decide) (by decide) (by decide) (by decide) (by decide)
theorem arg3_all (c : Dev nD) : KeptAll m c main_arg3 := passive m c main_arg3 (by decide) (by decide) (by decide) (by decide) (by decide) (by decide)
theorem arg4_all (c : Dev nD) : KeptAll m c main_arg4 := passive m c main_arg4 (by decide) (by decide) (by decide) (by decide) (by decide) (by decide)
theorem arg5_all (c : Dev nD) : KeptAll m c main_arg5 := passive m c main_arg5 (by decide) (by decide) (by decide) (by decide) (by decide) (by decide)
theorem arg6_all (c : Dev nD) : KeptAll m c main_arg6 := passive m c main_arg6 (by decide) (by decide) (by decide) (by decide) (by decide) (by decide)
theorem arg7_all (c : Dev nD) : KeptAll m c main_arg7 := passive m c main_arg7 (by decide) (by decide) (by decide) (by decide) (by decide) (by decide)
theorem arg8_all (c : Dev nD) : KeptAll m c main_arg8 := passive m c main_arg8 (by decide) (by decide) (by decide) (by decide) (by decide) (by decide)
theorem arg9_all (c : Dev nD) : KeptAll m c main_arg9 := passive m c main_arg9 (by decide) (by decide) (by decide) (by decide) (by decide) (by decide)
theorem arg10_all (c : Dev nD) : KeptAll m c main_arg10 := passive m c main_arg10 (by decide) (by decide) (by decide) (by decide) (by decide) (by decide)
theorem arg11_all (c : Dev nD) : KeptAll m c main_arg11 := passive m c main_arg11 (by decide) (by decide) (by decide) (by decide) (by decide) (by decide)
theorem arg12_all (c : Dev nD) : KeptAll m c main_arg12 := passive m c main_arg12 (by decide) (by decide) (by decide) (by decide) (by decide) (by decide)
theorem arg13_all (c : Dev nD) : KeptAll m c main_arg13 := passive m c main_arg13 (by decide) (by decide) (by decide) (by decide) (by decide) (by decide)
theorem arg14_all (c : Dev nD) : KeptAll m c main_arg14 := passive m c main_arg14 (by decide) (by decide) (by decide) (by decide) (by decide) (by decide)
theorem arg15_all (c : Dev nD) : KeptAll m c main_arg15 := passive m c main_arg15 (by decide) (by decide) (by decide) (by decide) (by decide) (by decide)
theorem arg16_all (c : Dev nD) : KeptAll m c main_arg16 := passive m c main_arg16 (by decide) (by decide) (by decide) (by decide) (by decide) (by decide)
theorem arg17_all (c : Dev nD) : KeptAll m c main_arg17 := passive m c main_arg17 (by decide) (by decide) (by decide) (by decide) (by decide) (by decide)
theorem arg18_all (c : Dev nD) : KeptAll m c main_arg18 := passive m c main_arg18 (by decide) (by decide) (by decide) (by decide) (by decide) (by decide)
theorem arg19_all (c : Dev nD) : KeptAll m c main_arg19 := passive m c main_arg19 (by decide) (by decide) (by decide) (by decide) (by decide) (by decide)
theorem arg20_all (c : Dev nD) : KeptAll m c main_arg20 := passive m c main_arg20 (by decide) (by decide) (by decide) (by decide) (by decide) (by decide)
theorem arg21_all (c : Dev nD) : KeptAll m c main_arg21 := passive m c main_arg21 (by decide) (by decide) (by decide) (by decide) (by decide) (by decide)

/-! ## The proof data family and the thread state -/

/-- Every pipeline's proof data, each at its region's entry contents. -/
def pd : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at
    some state. -/
abbrev Tₙ (c : Dev nD) : sProp 𝕄 := iprop(StableHlo.held (c : Thread nD τ) (Pipeline.ucRefs τ sig) (W6 m c) ∗ ∃ r, prngReg c r)

/-! ## The regions as segments -/

-- a library lemma stated over the pinned configuration unifies with the printed one only when unification may unfold
-- plain definitions in a metavariable's type
set_option backward.isDefEq.respectTransparency.types false in
/-- Region 0 over the thread state: entered with every unscoped buffer at `W1`, left with them at `W2`. Its
    windows' arrays are split out of the unscoped buffers on entry and put back, at what the write-backs leave, on
    exit; the generator register goes into the region's invariant and comes back; nothing is owed. -/
def reg0 : Pipeline.RegionSeg (pcfgs (F := F)) adm (pd m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pd m) launch0.win launch0.arr_whole c
      ((pd m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 0 c).Φ 0 = Pipeline.ΦA spec0 c from rfl]; unfold Pipeline.ΦA
    iintro ⟨Hp, -, Hr⟩
    isplitl [Hr]; · iexact Hr
    iexact Hp
  hout c := by
    rw [Pipeline.ownSems0_none, show (pd m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pd m) ((pd m 0 c).share_full fun _ => rfl)
      (E1 m c) (E2 m c) ((pd m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered with every unscoped buffer at `W3`, left with them at `W4`. Its
    windows' arrays are split out of the unscoped buffers on entry and put back, at what the write-backs leave, on
    exit; the generator register goes into the region's invariant and comes back; nothing is owed. -/
def reg1 : Pipeline.RegionSeg (pcfgs (F := F)) adm (pd m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pd m) launch1.win launch1.arr_whole c
      ((pd m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 1 c).Φ 0 = Pipeline.ΦA spec1 c from rfl]; unfold Pipeline.ΦA
    iintro ⟨Hp, -, Hr⟩
    isplitl [Hr]; · iexact Hr
    iexact Hp
  hout c := by
    rw [Pipeline.ownSems0_none, show (pd m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pd m) ((pd m 1 c).share_full fun _ => rfl)
      (E3 m c) (E4 m c) ((pd m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered with every unscoped buffer at `W5`, left with them at `W6`. Its
    windows' arrays are split out of the unscoped buffers on entry and put back, at what the write-backs leave, on
    exit; the generator register goes into the region's invariant and comes back; nothing is owed. -/
def reg2 : Pipeline.RegionSeg (pcfgs (F := F)) adm (pd m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pd m) launch2.win launch2.arr_whole c
      ((pd m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 2 c).Φ 0 = Pipeline.ΦA spec2 c from rfl]; unfold Pipeline.ΦA
    iintro ⟨Hp, -, Hr⟩
    isplitl [Hr]; · iexact Hr
    iexact Hp
  hout c := by
    rw [Pipeline.ownSems0_none, show (pd m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pd m) ((pd m 2 c).share_full fun _ => rfl)
      (E5 m c) (E6 m c) ((pd m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order. -/
abbrev sgs : List (Pipeline.Seg (pcfgs (F := F)) adm (pd m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
/-- @main is the run of the segments. -/
theorem main_run (c : Dev nD) : main (F := F) c = Pipeline.Seg.run (sgs m) := (main_chain c).trans (by chain_rfl)

set_option backward.isDefEq.respectTransparency.types false in
/-- From any memory with zero counters every weakly fair execution of @main terminates, nothing faulting, in a state
    whose every unscoped TensorCore buffer holds the fold's last contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pd m) () cellOf_inj emb₁ defs₀ 𝒱₀ L lv m ρ main (sgs m)
    (fun c Q => by rw [main_run m c])
    (by simp only [sgs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- From "every unscoped buffer of a memory holds the fold's last contents" on a core: each argument array holds its
    launch contents. -/
theorem frame_of_all (mem : (ℓ : Loc nD τ sig) → Buf (Elt F) ℓ) (c : Dev nD)
    (h : ∀ b ∈ Pipeline.ucRefs τ sig, mem (((c : Thread nD τ)).1, b) = W6 m c b) :
      mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)
      ∧ mem ((c.tc : Thread nD τ).loc main_arg10) = m ((c.tc : Thread nD τ).loc main_arg10)
      ∧ mem ((c.tc : Thread nD τ).loc main_arg11) = m ((c.tc : Thread nD τ).loc main_arg11)
      ∧ mem ((c.tc : Thread nD τ).loc main_arg12) = m ((c.tc : Thread nD τ).loc main_arg12)
      ∧ mem ((c.tc : Thread nD τ).loc main_arg13) = m ((c.tc : Thread nD τ).loc main_arg13)
      ∧ mem ((c.tc : Thread nD τ).loc main_arg14) = m ((c.tc : Thread nD τ).loc main_arg14)
      ∧ mem ((c.tc : Thread nD τ).loc main_arg15) = m ((c.tc : Thread nD τ).loc main_arg15)
      ∧ mem ((c.tc : Thread nD τ).loc main_arg16) = m ((c.tc : Thread nD τ).loc main_arg16)
      ∧ mem ((c.tc : Thread nD τ).loc main_arg17) = m ((c.tc : Thread nD τ).loc main_arg17)
      ∧ mem ((c.tc : Thread nD τ).loc main_arg18) = m ((c.tc : Thread nD τ).loc main_arg18)
      ∧ mem ((c.tc : Thread nD τ).loc main_arg19) = m ((c.tc : Thread nD τ).loc main_arg19)
      ∧ mem ((c.tc : Thread nD τ).loc main_arg20) = m ((c.tc : Thread nD τ).loc main_arg20)
      ∧ mem ((c.tc : Thread nD τ).loc main_arg21) = m ((c.tc : Thread nD τ).loc main_arg21) :=
  ⟨(h _ (mem_uc main_arg0 (by decide))).trans (arg0_all m c).2.2.2.2.2,
   (h _ (mem_uc main_arg1 (by decide))).trans (arg1_all m c).2.2.2.2.2,
   (h _ (mem_uc main_arg2 (by decide))).trans (arg2_all m c).2.2.2.2.2,
   (h _ (mem_uc main_arg3 (by decide))).trans (arg3_all m c).2.2.2.2.2,
   (h _ (mem_uc main_arg4 (by decide))).trans (arg4_all m c).2.2.2.2.2,
   (h _ (mem_uc main_arg5 (by decide))).trans (arg5_all m c).2.2.2.2.2,
   (h _ (mem_uc main_arg6 (by decide))).trans (arg6_all m c).2.2.2.2.2,
   (h _ (mem_uc main_arg7 (by decide))).trans (arg7_all m c).2.2.2.2.2,
   (h _ (mem_uc main_arg8 (by decide))).trans (arg8_all m c).2.2.2.2.2,
   (h _ (mem_uc main_arg9 (by decide))).trans (arg9_all m c).2.2.2.2.2,
   (h _ (mem_uc main_arg10 (by decide))).trans (arg10_all m c).2.2.2.2.2,
   (h _ (mem_uc main_arg11 (by decide))).trans (arg11_all m c).2.2.2.2.2,
   (h _ (mem_uc main_arg12 (by decide))).trans (arg12_all m c).2.2.2.2.2,
   (h _ (mem_uc main_arg13 (by decide))).trans (arg13_all m c).2.2.2.2.2,
   (h _ (mem_uc main_arg14 (by decide))).trans (arg14_all m c).2.2.2.2.2,
   (h _ (mem_uc main_arg15 (by decide))).trans (arg15_all m c).2.2.2.2.2,
   (h _ (mem_uc main_arg16 (by decide))).trans (arg16_all m c).2.2.2.2.2,
   (h _ (mem_uc main_arg17 (by decide))).trans (arg17_all m c).2.2.2.2.2,
   (h _ (mem_uc main_arg18 (by decide))).trans (arg18_all m c).2.2.2.2.2,
   (h _ (mem_uc main_arg19 (by decide))).trans (arg19_all m c).2.2.2.2.2,
   (h _ (mem_uc main_arg20 (by decide))).trans (arg20_all m c).2.2.2.2.2,
   (h _ (mem_uc main_arg21 (by decide))).trans (arg21_all m c).2.2.2.2.2⟩

/-- The frame: every argument array ends holding its launch contents. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => frame_of_all m r.2.mem c (h c)) (run_all m ρ)

end Cert.KernelIdeal.Hand

end
-- ==== Proof.RefImports.lean ====
/- The reference's run read back, and its stages read at an index: the two generated modules of the
   reference program, gathered under one import for the modules that compare values. -/
import proofs.«157276_j46986942218355_1_alg».proof.Proof.Gen.ReferenceIdeal.Run
import proofs.«157276_j46986942218355_1_alg».proof.Proof.Gen.ReferenceIdeal.Read
-- ==== Proof.Val.Pre.lean ====
/-
  Reading the precondition. The claim's precondition is a conjunction of one "all entries satisfy …" fact per input:
  for every float input "|x| < +∞", and for the two variance vectors (arguments 17 and 21) also "x ≥ 0". This module
  takes the conjunction apart and states what the four conjuncts on the two variance vectors say at the extended reals:
  every entry of either vector is a real number, and that real is non-negative.
-/
import proofs.«157276_j46986942218355_1_alg».proof.Proof.Gen.Pre_finite_inputs
import Idealize.ShloMosaic.Lib.ReduceAll
import Idealize.ShloMosaic.Lib.ValueIdx
import Idealize.ShloMosaic.Lib.StableHlo.Predicate
import Idealize.ShloMosaic.PureOps.Ideal.Laws

namespace Cert.Proof.PreFacts

open Idealize.ShloMosaic Cert.Pre_finite_inputs

/-- The scalar shape has one index. -/
instance : Subsingleton S_.Idx := ⟨fun a b => funext fun d => d.elim0⟩

/-- One entry: an extended real whose absolute value max x (−x) lies strictly below +∞ is neither infinity, so it is a real. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  have hlt : max (x : EReal) (-(x : EReal)) < ⊤ := of_decide_eq_true ((StableHlo.Predicate.ofBool_eq_one_iff _).1 h)
  obtain ⟨h1, h2⟩ := max_lt_iff.1 hlt
  induction x using EReal.rec with
  | bot => exact absurd h2 (by simp)
  | coe r => exact ⟨r, rfl⟩
  | top => exact absurd h1 (by simp)

/-- One entry: "x ≥ 0" against the constant whose bits are all zero is the order fact 0 ≤ x. -/
theorem nonneg_of_oge_zero (x : Ideal .f32)
    (h : FloatOps.cmpf .oge x (FloatOps.ofBits (F := Ideal) .f32 0x00000000#32) = 1#1) : (0 : EReal) ≤ x := by
  change Ideal.cmp .oge (x : EReal) (Ideal.ofBits .f32 0x00000000#32) = 1#1 at h
  rw [Ideal.ofBits_zero_f32] at h
  unfold Ideal.cmp at h
  exact of_decide_eq_true ((StableHlo.Predicate.ofBool_eq_one_iff _).1 h)

/-- The two variance vectors under the precondition: each entry is a non-negative real. Finite by the conjunct
    "|x| < +∞" on that vector, non-negative by the conjunct "x ≥ 0" on it; the other eighteen conjuncts are dropped. -/
theorem var_real_nonneg
    (a0 : FVec Ideal S20000x128 .f32) (a1 : FVec Ideal S640000x128 .f32) (a2 a3 : IVec S640000 32)
    (a4 : FVec Ideal S128x128 .f32) (a5 : FVec Ideal S128 .f32) (a6 : FVec Ideal S128x128 .f32)
    (a7 : FVec Ideal S128 .f32) (a8 : FVec Ideal S128x128 .f32) (a9 : FVec Ideal S128 .f32)
    (a10 : FVec Ideal S128x128 .f32) (a11 : FVec Ideal S128 .f32) (a12 : FVec Ideal S128x128 .f32)
    (a13 a14 a15 a16 a17 a18 a19 a20 a21 : FVec Ideal S128 .f32)
    (h : Cert.Pre_finite_inputs.fn (F := Ideal) a0 a1 a2 a3 a4 a5 a6 a7 a8 a9 a10 a11 a12 a13 a14 a15 a16 a17 a18 a19
      a20 a21 = fun _ => 1#1) :
    (∀ j : S128.Idx, ∃ r : ℝ, 0 ≤ r ∧ a17 j = (r : EReal)) ∧ (∀ j : S128.Idx, ∃ r : ℝ, 0 ≤ r ∧ a21 j = (r : EReal)) := by
  have h0 := congrFun h ValueIdx.ix0
  dsimp only [fn, fn_part1, fn_part2, fn_part3, fn_part4, fn_part5, fn_part6] at h0
  -- the conjunction, from the outside in: (((… ∧ all |a17| < ∞) ∧ … ∧ all |a21| < ∞) ∧ all a17 ≥ 0) ∧ all a21 ≥ 0
  obtain ⟨h102, g21⟩ := IntOp.andi_eq_one.1 h0
  obtain ⟨h98, g17⟩ := IntOp.andi_eq_one.1 h102
  obtain ⟨h93, f21⟩ := IntOp.andi_eq_one.1 h98
  obtain ⟨h88, -⟩ := IntOp.andi_eq_one.1 h93
  obtain ⟨h83, -⟩ := IntOp.andi_eq_one.1 h88
  obtain ⟨h78, -⟩ := IntOp.andi_eq_one.1 h83
  obtain ⟨-, f17⟩ := IntOp.andi_eq_one.1 h78
  clear h0 h102 h98 h93 h88 h83 h78 h
  refine ⟨fun j => ?_, fun j => ?_⟩
  · obtain ⟨r, hr⟩ := real_of_abs_lt_inf (a17 j) (Host.reduce_andi_all _ _ _ _ _ f17 j)
    have hn := nonneg_of_oge_zero (a17 j) (Host.reduce_andi_all _ _ _ _ _ g17 j)
    rw [hr] at hn
    exact ⟨r, EReal.coe_nonneg.1 hn, hr⟩
  · obtain ⟨r, hr⟩ := real_of_abs_lt_inf (a21 j) (Host.reduce_andi_all _ _ _ _ _ f21 j)
    have hn := nonneg_of_oge_zero (a21 j) (Host.reduce_andi_all _ _ _ _ _ g21 j)
    rw [hr] at hn
    exact ⟨r, EReal.coe_nonneg.1 hn, hr⟩

end Cert.Proof.PreFacts
-- ==== Proof.Val.Spec.lean ====
/- The results of the three kernel regions as whole-array functions of their operand arrays, over the extended
   reals, index by index. An array of extents n0 x n1 is a function on its index type; a row vector has extent 1 on
   its first axis. These are the functions both sides of the comparison are read against: the kernel's blockwise
   write-backs assemble to them, and the reference's stages are them up to the order of the operands. -/
import Idealize.ShloMosaic.PureOps.Ideal
import Idealize.ShloMosaic.Lib.ValueIdx

noncomputable section

namespace Cert.Proof.Spec

open Idealize.ShloMosaic Idealize.ShloMosaic.ValueIdx

/-- An n0 x n1 array of extended reals. -/
abbrev Arr (n0 n1 : Nat) : Type := (⟨2, ![n0, n1]⟩ : Shape).Idx → EReal

/-- The small constants of the two programs, as the extended reals their f32 words denote. -/
abbrev eps5 : EReal := Ideal.ofBits .f32 0x3727C5AC#32
abbrev eps6 : EReal := Ideal.ofBits .f32 0x358637BD#32
abbrev zero32 : EReal := Ideal.ofBits .f32 0x00000000#32

/-- An affine map of the rows: entry (p, q) is the sum over k of x(p, k) * w(k, q), plus the bias row's entry q. -/
def lin {N K M : Nat} (x : Arr N K) (w : Arr K M) (b : Arr 1 M) : Arr N M :=
  fun i => (∑ k : Fin K, x (ix2 (i 0) k) * w (ix2 k (i 1))) + b (ix2 0 (i 1))

theorem lin_apply {N K M : Nat} (x : Arr N K) (w : Arr K M) (b : Arr 1 M) (p : Fin N) (q : Fin M) :
    lin x w b (ix2 p q) = (∑ k : Fin K, x (ix2 p k) * w (ix2 k q)) + b (ix2 0 q) := rfl

/-- The edge pre-activation: the affine map of the edge features plus the two gathered node projections. -/
def enew {N K M : Nat} (e : Arr N K) (w : Arr K M) (b : Arr 1 M) (dh eh : Arr N M) : Arr N M :=
  fun i => (lin e w b i + dh i) + eh i

/-- The gate: the logistic function of the pre-activation. -/
def sig {N K M : Nat} (e : Arr N K) (w : Arr K M) (b : Arr 1 M) (dh eh : Arr N M) : Arr N M :=
  fun i => Ideal.logistic (enew e w b dh eh i)

/-- The gated message: the gate times the gathered source projection. -/
def numr {N K M : Nat} (e : Arr N K) (w : Arr K M) (b : Arr 1 M) (dh eh bh : Arr N M) : Arr N M :=
  fun i => sig e w b dh eh i * bh i

/-- Inference-form batch normalisation with the reciprocal square root, then the rectifier:
    max((gamma * (x - mean)) * rsqrt(var + eps) + beta, 0), the four rows read at the column. -/
def bn {N M : Nat} (x : Arr N M) (mean var gamma beta : Arr 1 M) : Arr N M :=
  fun i => max (((gamma (ix2 0 (i 1)) * (x i - mean (ix2 0 (i 1)))) * Ideal.rsqrt (var (ix2 0 (i 1)) + eps5)) + beta (ix2 0 (i 1))) zero32

theorem bn_apply {N M : Nat} (x : Arr N M) (mean var gamma beta : Arr 1 M) (p : Fin N) (q : Fin M) :
    bn x mean var gamma beta (ix2 p q)
      = max (((gamma (ix2 0 q) * (x (ix2 p q) - mean (ix2 0 q))) * Ideal.rsqrt (var (ix2 0 q) + eps5)) + beta (ix2 0 q)) zero32 := rfl

/-- The node update before normalisation: the node's own projection plus the ratio of the two aggregates. -/
def hnew {N M : Nat} (ah num den : Arr N M) : Arr N M :=
  fun i => ah i + Ideal.div (num i) (den i + eps6)

end Cert.Proof.Spec

end
-- ==== Proof.Val.KHost.lean ====
/- What the three stretches of host operations of the kernel's @main leave in the buffers the regions and the
   later stretches read, as terms of the launch arguments and of the regions' output arrays: the stacked and
   transposed weights and the stacked bias row before region 0; the four column bands of region 0's result, the three
   row gathers (each band read at the wrapped node index of an edge's source or destination), the transposed edge
   weight and the reshaped rows before region 1; the two scatter-sums over the destination index and the reshaped
   rows before region 2. Each is read off the fold of the stretch's operations. At the ideal instance. -/
import proofs.«157276_j46986942218355_1_alg».proof.Proof.KI.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (c : Dev nD)

/-- An argument's (or any buffer's) launch contents on core `c`. -/
abbrev X (r : Ref sig .tc) : Buf (Elt Ideal) ((c : Thread nD τ).loc r) := m ((c : Thread nD τ).loc r)

/-- The gather and scatter index of an edge endpoint: a negative node index wraps once (plus the node count), then
    the vector becomes a one-column matrix. -/
def wrapIdx (x : IVec S640000 32) : IVec S640000x1 32 :=
  broadcastInDim S640000x1 ![0] bcast_S640000_S640000x1_0
    (select (cmpi .slt x (broadcastInDim S640000 ![] bcast_S_S640000 (constantI S_ 32 0#32)))
      (addi x (broadcastInDim S640000 ![] bcast_S_S640000 (constantI S_ 32 20000#32))) x)

/-! ## Before region 0 -/

theorem e1_v1 : E1 m c main_v1 = transpose S128x512 [1, 0]
    (concatenate S512x128 0 [⟨S128x128, X m c main_arg4⟩, ⟨S128x128, X m c main_arg6⟩, ⟨S128x128, X m c main_arg10⟩, ⟨S128x128, X m c main_arg12⟩]
      concatenates_S128x128_S128x128_S128x128_S128x128_S512x128_d0) transposes_S512x128_S128x512_1_0 := by
  show StableHlo.after hostOps0 (W0 m c) (Proc.devRef .tc main_v1) = _
  after_results
  rfl

theorem e1_v3 : E1 m c main_v3 = shapeCast S1x512
    (concatenate S512 0 [⟨S128, X m c main_arg5⟩, ⟨S128, X m c main_arg7⟩, ⟨S128, X m c main_arg11⟩, ⟨S128, X m c main_arg13⟩]
      concatenates_S128_S128_S128_S128_S512_d0) shapeCasts_S512_S1x512 := by
  show StableHlo.after hostOps0 (W0 m c) (Proc.devRef .tc main_v3) = _
  after_results
  rfl

theorem e1_arg0 : E1 m c main_arg0 = X m c main_arg0 := (arg0_all m c).1

/-! ## Before region 1 -/

theorem e3_v5 : E3 m c main_v5 = extractStridedSlice S20000x128 ![0, 0] (W2 m c (Proc.devRef .tc main_v4)) slices_S20000x512_S20000x128_0_0 := by
  show StableHlo.after hostOps1 (W2 m c) (Proc.devRef .tc main_v5) = _
  after_results_simp <;> rfl
theorem e3_v6 : E3 m c main_v6 = extractStridedSlice S20000x128 ![0, 128] (W2 m c (Proc.devRef .tc main_v4)) slices_S20000x512_S20000x128_0_128 := by
  show StableHlo.after hostOps1 (W2 m c) (Proc.devRef .tc main_v6) = _
  after_results_simp <;> rfl
theorem e3_v7 : E3 m c main_v7 = extractStridedSlice S20000x128 ![0, 256] (W2 m c (Proc.devRef .tc main_v4)) slices_S20000x512_S20000x128_0_256 := by
  show StableHlo.after hostOps1 (W2 m c) (Proc.devRef .tc main_v7) = _
  after_results_simp <;> rfl
theorem e3_v8 : E3 m c main_v8 = extractStridedSlice S20000x128 ![0, 384] (W2 m c (Proc.devRef .tc main_v4)) slices_S20000x512_S20000x128_0_384 := by
  show StableHlo.after hostOps1 (W2 m c) (Proc.devRef .tc main_v8) = _
  after_results_simp <;> rfl

theorem e3_v15 : E3 m c main_v15 = Host.gather gather_S20000x128_S640000x1_S640000x128_1_0_n_n_0_1_1128 (E3 m c main_v7) (wrapIdx (X m c main_arg2)) := by
  rw [e3_v7]
  unfold X
  rw [← (arg2_all m c).2.1]
  show StableHlo.after hostOps1 (W2 m c) (Proc.devRef .tc main_v15) = _
  unfold wrapIdx
  after_results_simp <;> rfl
theorem e3_v22 : E3 m c main_v22 = Host.gather gather_S20000x128_S640000x1_S640000x128_1_0_n_n_0_1_1128 (E3 m c main_v8) (wrapIdx (X m c main_arg3)) := by
  rw [e3_v8]
  unfold X
  rw [← (arg3_all m c).2.1]
  show StableHlo.after hostOps1 (W2 m c) (Proc.devRef .tc main_v22) = _
  unfold wrapIdx
  after_results_simp <;> rfl
theorem e3_v29 : E3 m c main_v29 = Host.gather gather_S20000x128_S640000x1_S640000x128_1_0_n_n_0_1_1128 (E3 m c main_v6) (wrapIdx (X m c main_arg2)) := by
  rw [e3_v6]
  unfold X
  rw [← (arg2_all m c).2.1]
  show StableHlo.after hostOps1 (W2 m c) (Proc.devRef .tc main_v29) = _
  unfold wrapIdx
  after_results_simp <;> rfl

theorem e3_v30 : E3 m c main_v30 = transpose S128x128 [1, 0] (X m c main_arg8) transposes_S128x128_S128x128_1_0 := by
  unfold X
  rw [← (arg8_all m c).2.1]
  show StableHlo.after hostOps1 (W2 m c) (Proc.devRef .tc main_v30) = _
  after_results_simp <;> rfl
theorem e3_v31 : E3 m c main_v31 = shapeCast S1x128 (X m c main_arg9) shapeCasts_S128_S1x128 := by
  unfold X
  rw [← (arg9_all m c).2.1]
  show StableHlo.after hostOps1 (W2 m c) (Proc.devRef .tc main_v31) = _
  after_results_simp <;> rfl
theorem e3_v32 : E3 m c main_v32 = shapeCast S1x128 (X m c main_arg20) shapeCasts_S128_S1x128 := by
  unfold X
  rw [← (arg20_all m c).2.1]
  show StableHlo.after hostOps1 (W2 m c) (Proc.devRef .tc main_v32) = _
  after_results_simp <;> rfl
theorem e3_v33 : E3 m c main_v33 = shapeCast S1x128 (X m c main_arg21) shapeCasts_S128_S1x128 := by
  unfold X
  rw [← (arg21_all m c).2.1]
  show StableHlo.after hostOps1 (W2 m c) (Proc.devRef .tc main_v33) = _
  after_results_simp <;> rfl
theorem e3_v34 : E3 m c main_v34 = shapeCast S1x128 (X m c main_arg18) shapeCasts_S128_S1x128 := by
  unfold X
  rw [← (arg18_all m c).2.1]
  show StableHlo.after hostOps1 (W2 m c) (Proc.devRef .tc main_v34) = _
  after_results_simp <;> rfl
theorem e3_v35 : E3 m c main_v35 = shapeCast S1x128 (X m c main_arg19) shapeCasts_S128_S1x128 := by
  unfold X
  rw [← (arg19_all m c).2.1]
  show StableHlo.after hostOps1 (W2 m c) (Proc.devRef .tc main_v35) = _
  after_results_simp <;> rfl
theorem e3_arg1 : E3 m c main_arg1 = X m c main_arg1 := (arg1_all m c).2.2.1

/-! ## Before region 2 -/

/-- The first band of region 0's result passes region 1 and the third stretch untouched. -/
theorem e5_v5 : E5 m c main_v5 = E3 m c main_v5 :=
  (W5_keep m c main_v5 (by decide)).trans (W4_of_ne m c main_v5 (by decide))

theorem e5_v39 : E5 m c main_v39 = Host.scatterAdd scatter_S20000x128_S640000x1_S640000x128_1_0_0_1
    (broadcastInDim S20000x128 ![] bcast_S_S20000x128 (constant (F := Ideal) S_ .f32 0x00000000#32))
    (broadcastInDim S640000x1 ![0] bcast_S640000_S640000x1_0 (X m c main_arg3)) (W4 m c (Proc.devRef .tc main_v36_1)) := by
  unfold X
  rw [← (arg3_all m c).2.2.2.1]
  show StableHlo.after hostOps2 (W4 m c) (Proc.devRef .tc main_v39) = _
  after_results
theorem e5_v42 : E5 m c main_v42 = Host.scatterAdd scatter_S20000x128_S640000x1_S640000x128_1_0_0_1
    (broadcastInDim S20000x128 ![] bcast_S_S20000x128 (constant (F := Ideal) S_ .f32 0x00000000#32))
    (broadcastInDim S640000x1 ![0] bcast_S640000_S640000x1_0 (X m c main_arg3)) (W4 m c (Proc.devRef .tc main_v36_2)) := by
  unfold X
  rw [← (arg3_all m c).2.2.2.1]
  show StableHlo.after hostOps2 (W4 m c) (Proc.devRef .tc main_v42) = _
  after_results
theorem e5_v43 : E5 m c main_v43 = shapeCast S1x128 (X m c main_arg16) shapeCasts_S128_S1x128 := by
  unfold X
  rw [← (arg16_all m c).2.2.2.1]
  show StableHlo.after hostOps2 (W4 m c) (Proc.devRef .tc main_v43) = _
  after_results
  rfl
theorem e5_v44 : E5 m c main_v44 = shapeCast S1x128 (X m c main_arg17) shapeCasts_S128_S1x128 := by
  unfold X
  rw [← (arg17_all m c).2.2.2.1]
  show StableHlo.after hostOps2 (W4 m c) (Proc.devRef .tc main_v44) = _
  after_results
  rfl
theorem e5_v45 : E5 m c main_v45 = shapeCast S1x128 (X m c main_arg14) shapeCasts_S128_S1x128 := by
  unfold X
  rw [← (arg14_all m c).2.2.2.1]
  show StableHlo.after hostOps2 (W4 m c) (Proc.devRef .tc main_v45) = _
  after_results
  rfl
theorem e5_v46 : E5 m c main_v46 = shapeCast S1x128 (X m c main_arg15) shapeCasts_S128_S1x128 := by
  unfold X
  rw [← (arg15_all m c).2.2.2.1]
  show StableHlo.after hostOps2 (W4 m c) (Proc.devRef .tc main_v46) = _
  after_results
  rfl

/-- The edge result passes the third stretch and region 2 untouched. -/
theorem w6_v36_0 : W6 m c (Proc.devRef .tc main_v36_0) = W4 m c (Proc.devRef .tc main_v36_0) :=
  (W6_of_ne m c main_v36_0 (by decide)).trans (W5_keep m c main_v36_0 (by decide))

end Cert.KernelIdeal.Hand

end
-- ==== Proof.LibPlainDot.lean ====
/-
  A plain matrix product `[M, K] × [K, N] → [M, N]` — the left operand's columns contracted with the right operand's
  rows, no batch axis — read at the output entry `(p, q)` at the ideal values: the sum over `k : Fin K` of
  `l (p, k) * r (k, q)`. The device's `matmul` into the zero accumulator and the host's `dot_general` are both
  this sum, whatever record spells the dimension numbers, as long as it is the plain one (`hd`, which a printed
  record meets by `rfl`); and nothing depends on the sizes, so one statement serves a block of rows and the
  whole array alike.
  Beside it: a sum over `Fin (a + b)` of a function that reads its first `a` positions from one family and the
  rest from another is the two families' sums — what a product with two column blocks joined side by side is.
-/
import Idealize.ShloMosaic.Lib.ValueIdx
import Idealize.ShloMosaic.PureOps.Ideal.Laws
import Mathlib.Algebra.BigOperators.Fin

namespace Cert.PlainDot

open Idealize.ShloMosaic Idealize.ShloMosaic.ValueIdx

variable {M K N : ℕ}

/-- The left operand index of the plain product at output `(p, q)` and contraction position `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := 1) rfl (ix2 p q) _).trans hk

/-- The right operand index is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of the plain product, re-indexed by the one contracted coordinate. -/
theorem plain_sum {β : Type*} [AddCommMonoid β] (f : (⟨2, ![M, K]⟩ : Shape).Idx → (⟨2, ![K, N]⟩ : Shape).Idx → β)
    (p : Fin M) (q : Fin N) :
    ∑ k : (DotDims.plain M K N).contr.Idx,
        f ((DotDims.plain M K N).lhsIdx (ix2 p q) k) ((DotDims.plain M K N).rhsIdx (ix2 p q) k)
      = ∑ k : Fin K, f (ix2 p k) (ix2 k q) := by
  rw [← Equiv.sum_comp (contrEquiv1 (DotDims.plain M K N) K rfl rfl).symm]
  refine Finset.sum_congr rfl fun k _ => ?_
  rw [plain_lhsIdx, plain_rhsIdx]

variable {φ₁ φ₂ : FTy}

/-- The device's matrix product into the zero accumulator, at `(p, q)`. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  subst hd
  simp only [matmul]
  rw [Ideal.matmul_constant_zero_apply]
  exact plain_sum (fun a b => l a * r b) p q

/-- The host's `dot_general`, at `(p, q)`. -/
theorem dotGeneral_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum (fun a b => l a * r b) p q

/-- A sum over `Fin (a + b)` of a function given piecewise — below `a` by `f`, from `a` on by `g` — is the sum of
    `f` plus the sum of `g`. -/
theorem sum_two_blocks {β : Type*} [AddCommMonoid β] {a b n : ℕ} (hn : n = a + b) (F : Fin n → β) (f : Fin a → β) (g : Fin b → β)
    (hf : ∀ k : Fin a, F ⟨k.val, by have := k.isLt; omega⟩ = f k)
    (hg : ∀ k : Fin b, F ⟨a + k.val, by have := k.isLt; omega⟩ = g k) :
    ∑ k : Fin n, F k = ∑ k : Fin a, f k + ∑ k : Fin b, g k := by
  subst hn
  rw [Fin.sum_univ_add]
  refine congrArg₂ (· + ·) (Finset.sum_congr rfl fun k _ => ?_) (Finset.sum_congr rfl fun k _ => ?_)
  · exact hf k
  · exact hg k

end Cert.PlainDot
-- ==== Proof.Val.Final0.lean ====
/- Region 0's output array after the run, as one function of the region's operand arrays. At each of the 10 grid
   points the body writes back a block of 2000 rows: the product of that block of the node features with the whole
   weight matrix, plus the bias row laid down the rows. Block t of the output is rows 2000 t … 2000 t + 1999, the
   weight matrix and the bias row are read whole at every point, and the ten blocks tile the 20000 rows; so the
   array ends holding the affine map of the node features, entry by entry. -/
import proofs.«157276_j46986942218355_1_alg».proof.Proof.KI.Region0
import proofs.«157276_j46986942218355_1_alg».proof.Proof.Val.Spec
import proofs.«157276_j46986942218355_1_alg».proof.Proof.LibPlainDot
import Idealize.ShloMosaic.Lib.Pipeline.Value
import Idealize.ShloMosaic.Lib.ValueLayout
import Idealize.ShloMosaic.Lib.ValueIdx

noncomputable section

namespace Cert.KernelIdeal.Hand

open Cert.KernelIdeal Cert.KernelIdeal.Gen Cert.Proof.Spec
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The body's accesses start at the origin of their buffers. -/
theorem origin2 : (![0, 0] : Fin 2 → Nat) = fun _ => 0 := funext fun a => by fin_cases a <;> rfl

/-! ## The body's payload at an entry -/

/-- Entry (p, q) of what the body stores: row p of the node block against column q of the weights, plus the bias
    row's entry q. The narrowing of the two operands is the identity on the extended reals. -/
theorem proj_at (x0 : Vec Ideal S2000x128 .f32) (x1 : Vec Ideal S128x512 .f32) (x2 : Vec Ideal S1x512 .f32)
    (p : Fin 2000) (q : Fin 512) :
    k0_pay1 (F := Ideal) x0 x1 x2 (ix2 p q) = (∑ k : Fin 128, x0 (ix2 p k) * x1 (ix2 k q)) + x2 (ix2 0 q) := by
  unfold k0_pay1
  rw [shapeCast_self, shapeCast_self]
  simp only [addf, Ideal.addf_def]
  rw [Cert.PlainDot.matmul_zero_apply dot_S2000x128_S128x512_S2000x512_1_0_0_1_n_n rfl,
    broadcastTo_apply x2 _ (ix2 p q) (ix2 0 q) (fun a => by match a with | ⟨0, _⟩ => rfl | ⟨1, _⟩ => rfl)]
  rfl

/-! ## Where each window's block sits in its array -/

/-- The index maps over the grid: the node window and the output window are at block row t, column block 0; the
    weight matrix and the bias row are at block (0, 0) at every point. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 10 := t.isLt.trans_eq N_0

/-- Row p of block t is row 2000 t + p of the array. -/
def rowOf (t : Fin cfg0.N) (p : Fin 2000) : Fin 20000 :=
  ⟨t.val * 2000 + p.val, by have := point_lt t; have := p.isLt; omega⟩

/-- The node window's block at point t: rows 2000 t … of the node features, all 128 columns. -/
theorem nodes_block (c : Dev nD) (t : Fin cfg0.N) (p : Fin 2000) (k : Fin 128) :
    (iblk0 (F := Ideal) V c 0 t : Vec Ideal S2000x128 .f32) (ix2 p k)
      = (V c main_arg0 : Arr 20000 128) (ix2 (rowOf t p) k) := by
  obtain ⟨e0, e1, -⟩ := block_index t
  unfold iblk0
  rw [View.read_apply]
  show (V c main_arg0 : Arr 20000 128) _ = (V c main_arg0 : Arr 20000 128) _
  congr 1
  funext a
  apply Fin.ext
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

/-- The weight window's block at every point is the whole weight matrix. -/
theorem weights_block (c : Dev nD) (t : Fin cfg0.N) (k : Fin 128) (q : Fin 512) :
    (iblk0 (F := Ideal) V c 1 t : Vec Ideal S128x512 .f32) (ix2 k q) = (V c main_v1 : Arr 128 512) (ix2 k q) := by
  obtain ⟨-, -, e0, e1, -⟩ := block_index t
  unfold iblk0
  rw [View.read_apply]
  show (V c main_v1 : Arr 128 512) _ = (V c main_v1 : Arr 128 512) _
  congr 1
  funext a
  apply Fin.ext
  match a with
  | ⟨0, _⟩ => show win0_1.index t (0 : Fin 2) * 128 + 1 * k.val = k.val; rw [e0]; omega
  | ⟨1, _⟩ => show win0_1.index t (1 : Fin 2) * 512 + 1 * q.val = q.val; rw [e1]; omega

/-- The bias window's block at every point is the whole bias row. -/
theorem bias_block (c : Dev nD) (t : Fin cfg0.N) (q : Fin 512) :
    (iblk0 (F := Ideal) V c 2 t : Vec Ideal S1x512 .f32) (ix2 0 q) = (V c main_v3 : Arr 1 512) (ix2 0 q) := by
  obtain ⟨-, -, -, -, e0, e1, -⟩ := block_index t
  unfold iblk0
  rw [View.read_apply]
  show (V c main_v3 : Arr 1 512) _ = (V c main_v3 : Arr 1 512) _
  congr 1
  funext a
  apply Fin.ext
  match a with
  | ⟨0, _⟩ => show win0_2.index t (0 : Fin 2) * 1 + 1 * 0 = 0; rw [e0]
  | ⟨1, _⟩ => show win0_2.index t (1 : Fin 2) * 512 + 1 * q.val = q.val; rw [e1]; omega

/-- Entry (p, q) of the output window's block at point t is entry (2000 t + p, q) of the output array. -/
theorem out_block_entry (t : Fin cfg0.N) (p : Fin 2000) (q : Fin 512) :
    (((cfg0.win 3).blk t).view.emb (ix2 p q) : S20000x512.Idx) = ix2 (rowOf t p) q := by
  obtain ⟨-, -, -, -, -, -, e0, e1⟩ := block_index t
  funext a
  apply Fin.ext
  match a with
  | ⟨0, _⟩ => show win0_3.index t (0 : Fin 2) * 2000 + 1 * p.val = t.val * 2000 + p.val; rw [e0]; omega
  | ⟨1, _⟩ => show win0_3.index t (1 : Fin 2) * 512 + 1 * q.val = q.val; rw [e1]; omega

/-! ## What each point writes back -/

/-- Point t writes back block t of the affine map of the three operand arrays as the region finds them. -/
theorem written_back (c : Dev nD) (t : Fin cfg0.N) :
    (dat0 (F := Ideal) V c).flushed 3 t
      = ((cfg0.win 3).blk t).view.read (Elt Ideal)
          (lin (N := 20000) (K := 128) (M := 512) (V c main_arg0) (V c main_v1) (V c main_v3)) := by
  show (cfg0.win 3).cut (grid0.coords t) ((dat0 (F := Ideal) V c).after 3 t) = _
  rw [after0_3]
  unfold out0_3
  rw [View.canon_unit_zero origin2]
  simp only [View.ld_unit_zero (S := S2000x128) origin2, View.ld_unit_zero (S := S128x512) origin2,
    View.ld_unit_zero (S := S1x512) origin2]
  funext j
  obtain ⟨p, q, rfl⟩ : ∃ (p : Fin 2000) (q : Fin 512), j = ix2 p q := ⟨j 0, j 1, eq_ix2 j⟩
  rw [View.read_apply]
  refine (proj_at (iblk0 (F := Ideal) V c 0 t) (iblk0 (F := Ideal) V c 1 t) (iblk0 (F := Ideal) V c 2 t) p q).trans ?_
  refine Eq.trans ?_ (congrArg (lin (N := 20000) (K := 128) (M := 512) (V c main_arg0) (V c main_v1) (V c main_v3))
    (out_block_entry t p q)).symm
  rw [lin_apply, bias_block V c t q]
  refine congrArg (· + (V c main_v3 : Arr 1 512) (ix2 0 q)) (Finset.sum_congr rfl fun k _ => ?_)
  rw [nodes_block V c t p k, weights_block V c t k q]

/-! ## The blocks tile the rows -/

/-- An entry of the output array is in point t's block iff each coordinate is in the block's range on its axis. -/
theorem mem_out_block (t : Fin cfg0.N) (i : S20000x512.Idx) :
    i ∈ ((cfg0.win 3).blk t).view.set
      ↔ ∀ a : Fin 2, win0_3.index t a * S2000x512.size a ≤ (i a).val
          ∧ (i a).val < win0_3.index t a * S2000x512.size a + S2000x512.size a := by
  show i ∈ ((View.whole main_v4).slice (win0_3.rect t)).set ↔ _
  rw [View.set_slice_whole, Rect.mem_set_unit]
  exact Iff.rfl

/-- Row r of the output array is in the block of point r / 2000, and every point writes back. -/
theorem rows_covered (i : S20000x512.Idx) :
    ∃ t : Fin cfg0.N, (cfg0.win 3).flush t = true ∧ i ∈ ((cfg0.win 3).blk t).view.set := by
  have hi0 : (i 0).val < 20000 := (i 0).isLt
  have hi1 : (i 1).val < 512 := (i 1).isLt
  have hN : (i 0).val / 2000 < cfg0.N := by rw [show cfg0.N = 10 from N_0]; omega
  obtain ⟨-, -, -, -, -, -, e0, e1⟩ := block_index ⟨(i 0).val / 2000, hN⟩
  refine ⟨⟨(i 0).val / 2000, hN⟩, flush0_3 _, ?_⟩
  rw [mem_out_block]
  intro a
  match a with
  | ⟨0, _⟩ =>
    show win0_3.index ⟨(i 0).val / 2000, hN⟩ (0 : Fin 2) * 2000 ≤ (i 0).val
      ∧ (i 0).val < win0_3.index ⟨(i 0).val / 2000, hN⟩ (0 : Fin 2) * 2000 + 2000
    rw [e0]
    show (i 0).val / 2000 * 2000 ≤ (i 0).val ∧ (i 0).val < (i 0).val / 2000 * 2000 + 2000
    omega
  | ⟨1, _⟩ =>
    show win0_3.index ⟨(i 0).val / 2000, hN⟩ (1 : Fin 2) * 512 ≤ (i 1).val
      ∧ (i 1).val < win0_3.index ⟨(i 0).val / 2000, hN⟩ (1 : Fin 2) * 512 + 512
    rw [e1]
    omega

/-! ## The array after the run -/

/-- Region 0's output array after its ten points: the affine map of the node features by the weight matrix and
    the bias row, all three as the region finds them. -/
theorem final0 (c : Dev nD) :
    (dat0 (F := Ideal) V c).arrAt 3 cfg0.N = lin (V c main_arg0) (V c main_v1) (V c main_v3) :=
  (dat0 (F := Ideal) V c).arrAt_eq_of_cover 3
    (lin (N := 20000) (K := 128) (M := 512) (V c main_arg0) (V c main_v1) (V c main_v3))
    (fun t _ => written_back V c t) rows_covered

end Cert.KernelIdeal.Hand

end
-- ==== Proof.Val.Final1.lean ====
/- Region 1's three output arrays after the run, as whole-array functions of the region's operand arrays, over the
   extended reals. At each of the 200 grid points the body writes back three blocks of 3200 rows; entry (p, q) of a
   block at point t is entry (3200 t + p, q) of one function of the arrays: for the pre-activation s (the affine map
   of the edge features plus the two gathered projections), the gate logistic(s), the gated message
   logistic(s) * (third gathered projection), and the normalised, scaled, shifted and rectified s. The blocks tile the
   640000 rows (row r lies in the block of point r / 3200), so each array ends holding its function everywhere. -/
import proofs.«157276_j46986942218355_1_alg».proof.Proof.KI.Region1
import proofs.«157276_j46986942218355_1_alg».proof.Proof.Val.Spec
import proofs.«157276_j46986942218355_1_alg».proof.Proof.LibPlainDot
import Idealize.ShloMosaic.Lib.Pipeline.Value
import Idealize.ShloMosaic.Lib.ValueLayout
import Idealize.ShloMosaic.Lib.ValueIdx

set_option maxRecDepth 16384

noncomputable section

namespace Cert.KernelIdeal.Hand

open Cert.KernelIdeal Cert.KernelIdeal.Gen Cert.Proof.Spec Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-! ## The body's payloads at an index -/

/-- The pre-activation of a block at (p, q): row p of the first operand against column q of the weights, plus the
    bias row at q, plus the two gathered blocks at (p, q). The two roundings to the narrower format are the identity
    on the extended reals, the casts to the same shape are the identity, and the product into the zero accumulator
    is the plain contraction sum. -/
theorem pre1_apply (x0 : Vec Ideal S3200x128 .f32) (x1 : Vec Ideal S128x128 .f32) (x2 : Vec Ideal S1x128 .f32)
    (x3 x4 : Vec Ideal S3200x128 .f32) (p : Fin 3200) (q : Fin 128) :
    k1_pay2 x0 x1 x2 x3 x4 (ix2 p q)
      = (((∑ k : Fin 128, x0 (ix2 p k) * x1 (ix2 k q)) + x2 (ix2 0 q)) + x3 (ix2 p q)) + x4 (ix2 p q) := by
  unfold k1_pay2
  rw [addf_apply, addf_apply, addf_apply]
  simp only [shapeCast_self]
  rw [broadcastTo_1b_ab_apply]
  rw [Cert.PlainDot.matmul_zero_apply (M := 3200) (K := 128) (N := 128) dot_S3200x128_S128x128_S3200x128_1_0_0_1_n_n rfl]
  simp only [truncf_apply]

/-- The gate at (p, q): the logistic function of the pre-activation there. -/
theorem gate1_apply (x0 : Vec Ideal S3200x128 .f32) (x1 : Vec Ideal S128x128 .f32) (x2 : Vec Ideal S1x128 .f32)
    (x3 x4 : Vec Ideal S3200x128 .f32) (p : Fin 3200) (q : Fin 128) :
    k1_pay3 x0 x1 x2 x3 x4 (ix2 p q) = Ideal.logistic (k1_pay2 x0 x1 x2 x3 x4 (ix2 p q)) := rfl

/-- The gated message at (p, q): the gate times the third gathered block. -/
theorem msg1_apply (x0 : Vec Ideal S3200x128 .f32) (x1 : Vec Ideal S128x128 .f32) (x2 : Vec Ideal S1x128 .f32)
    (x3 x4 x5 : Vec Ideal S3200x128 .f32) (p : Fin 3200) (q : Fin 128) :
    k1_pay4 x0 x1 x2 x3 x4 x5 (ix2 p q) = Ideal.logistic (k1_pay2 x0 x1 x2 x3 x4 (ix2 p q)) * x5 (ix2 p q) := by
  unfold k1_pay4
  rw [mulf_apply, shapeCast_self, gate1_apply]

/-- The normalised output at (p, q): the scale row times the pre-activation less the mean row, times the reciprocal
    square root of the variance row plus the small constant, plus the shift row, then the larger of that and zero;
    each row read at column q. -/
theorem norm1_apply (x0 : Vec Ideal S3200x128 .f32) (x1 : Vec Ideal S128x128 .f32) (x2 : Vec Ideal S1x128 .f32)
    (x3 x4 : Vec Ideal S3200x128 .f32) (x6 x7 x8 x9 : Vec Ideal S1x128 .f32) (p : Fin 3200) (q : Fin 128) :
    k1_pay1 (k1_pay5 x0 x1 x2 x3 x4 x7 x8 x6) (k1_pay6 x9) (ix2 p q)
      = max (((x8 (ix2 0 q) * (k1_pay2 x0 x1 x2 x3 x4 (ix2 p q) - x6 (ix2 0 q))) * Ideal.rsqrt (x7 (ix2 0 q) + eps5)) + x9 (ix2 0 q)) zero32 := by
  unfold k1_pay1 k1_pay5 k1_pay6
  rw [maximumf_apply, addf_apply, mulf_apply, mulf_apply, subf_apply]
  simp only [shapeCast_self]
  rw [broadcastTo_1b_ab_apply, broadcastTo_1b_ab_apply, broadcastTo_1b_ab_apply, broadcastTo_1b_ab_apply]
  rfl

/-! ## A block's entry against the whole arrays' -/

/-- Where row p of the blocks is row r of the row-blocked arrays and the other operands are whole, a block's
    pre-activation at (p, q) is the arrays' at (r, q). -/
theorem pre1_point (x0 : Vec Ideal S3200x128 .f32) (x1 : Vec Ideal S128x128 .f32) (x2 : Vec Ideal S1x128 .f32)
    (x3 x4 : Vec Ideal S3200x128 .f32) (E : Arr 640000 128) (W : Arr 128 128) (B : Arr 1 128) (D H : Arr 640000 128)
    (r : Fin 640000) (p : Fin 3200) (q : Fin 128)
    (h0 : ∀ k : Fin 128, x0 (ix2 p k) = E (ix2 r k)) (h1 : x1 = W) (h2 : x2 = B)
    (h3 : x3 (ix2 p q) = D (ix2 r q)) (h4 : x4 (ix2 p q) = H (ix2 r q)) :
    k1_pay2 x0 x1 x2 x3 x4 (ix2 p q) = enew E W B D H (ix2 r q) := by
  rw [pre1_apply, h1, h2, h3, h4]
  simp only [h0]
  rfl

/-- So is its gate, -/
theorem gate1_point (x0 : Vec Ideal S3200x128 .f32) (x1 : Vec Ideal S128x128 .f32) (x2 : Vec Ideal S1x128 .f32)
    (x3 x4 : Vec Ideal S3200x128 .f32) (E : Arr 640000 128) (W : Arr 128 128) (B : Arr 1 128) (D H : Arr 640000 128)
    (r : Fin 640000) (p : Fin 3200) (q : Fin 128)
    (hpre : k1_pay2 x0 x1 x2 x3 x4 (ix2 p q) = enew E W B D H (ix2 r q)) :
    k1_pay3 x0 x1 x2 x3 x4 (ix2 p q) = Cert.Proof.Spec.sig E W B D H (ix2 r q) := by
  rw [gate1_apply, hpre]
  rfl

/-- its gated message, where the third gathered block's row p is the array's row r, -/
theorem msg1_point (x0 : Vec Ideal S3200x128 .f32) (x1 : Vec Ideal S128x128 .f32) (x2 : Vec Ideal S1x128 .f32)
    (x3 x4 x5 : Vec Ideal S3200x128 .f32) (E : Arr 640000 128) (W : Arr 128 128) (B : Arr 1 128) (D H G : Arr 640000 128)
    (r : Fin 640000) (p : Fin 3200) (q : Fin 128)
    (hpre : k1_pay2 x0 x1 x2 x3 x4 (ix2 p q) = enew E W B D H (ix2 r q)) (h5 : x5 (ix2 p q) = G (ix2 r q)) :
    k1_pay4 x0 x1 x2 x3 x4 x5 (ix2 p q) = numr E W B D H G (ix2 r q) := by
  rw [msg1_apply, hpre, h5]
  rfl

/-- and its normalised output, the four rows being whole. -/
theorem norm1_point (x0 : Vec Ideal S3200x128 .f32) (x1 : Vec Ideal S128x128 .f32) (x2 : Vec Ideal S1x128 .f32)
    (x3 x4 : Vec Ideal S3200x128 .f32) (x6 x7 x8 x9 : Vec Ideal S1x128 .f32)
    (E : Arr 640000 128) (W : Arr 128 128) (B : Arr 1 128) (D H : Arr 640000 128) (mean var gamma beta : Arr 1 128)
    (r : Fin 640000) (p : Fin 3200) (q : Fin 128)
    (hpre : k1_pay2 x0 x1 x2 x3 x4 (ix2 p q) = enew E W B D H (ix2 r q))
    (h6 : x6 = mean) (h7 : x7 = var) (h8 : x8 = gamma) (h9 : x9 = beta) :
    k1_pay1 (k1_pay5 x0 x1 x2 x3 x4 x7 x8 x6) (k1_pay6 x9) (ix2 p q) = bn (enew E W B D H) mean var gamma beta (ix2 r q) := by
  rw [norm1_apply, hpre, h6, h7, h8, h9]
  rfl

/-! ## The grid: 200 points, point t owning rows 3200 t … 3200 t + 3199 -/

theorem zeros1 : (![0, 0] : Fin 2 → Nat) = fun _ => 0 := funext fun a => by fin_cases a <;> rfl

theorem points1 : cfg1.N = 200 := by decide

/-- The row of the whole arrays that row p of the blocks at point t is. -/
def row1 (t : Fin cfg1.N) (p : Fin 3200) : Fin 640000 :=
  ⟨t.val * 3200 + p.val, by have ht : t.val < 200 := lt_of_lt_of_eq t.isLt points1; have := p.isLt; omega⟩

/-- The index maps, decided over the grid: a row-blocked window is at block (t, 0) at point t, a whole window at (0, 0). -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = t.val ∧ win1_3.index t (1 : Fin 2) = 0 :=
  (by decide +kernel : ∀ t : Fin grid1.N, _)
theorem idx1_4 : ∀ t : Fin cfg1.N, win1_4.index t (0 : Fin 2) = t.val ∧ win1_4.index t (1 : Fin 2) = 0 :=
  (by decide +kernel : ∀ t : Fin grid1.N, _)
theorem idx1_5 : ∀ t : Fin cfg1.N, win1_5.index t (0 : Fin 2) = t.val ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 2) = 0 ∧ win1_9.index t (1 : Fin 2) = 0 :=
  (by decide +kernel : ∀ t : Fin grid1.N, _)
theorem idx1_10 : ∀ t : Fin cfg1.N, win1_10.index t (0 : Fin 2) = t.val ∧ win1_10.index t (1 : Fin 2) = 0 :=
  (by decide +kernel : ∀ t : Fin grid1.N, _)
theorem idx1_11 : ∀ t : Fin cfg1.N, win1_11.index t (0 : Fin 2) = t.val ∧ win1_11.index t (1 : Fin 2) = 0 :=
  (by decide +kernel : ∀ t : Fin grid1.N, _)
theorem idx1_12 : ∀ t : Fin cfg1.N, win1_12.index t (0 : Fin 2) = t.val ∧ win1_12.index t (1 : Fin 2) = 0 :=
  (by decide +kernel : ∀ t : Fin grid1.N, _)

/-! ## The input blocks, read off the arrays -/

/-- A row-blocked input's block at point t, at (p, q), is its array at (row1 t p, q): a block's coordinate is the
    block index times the block size plus the coordinate inside the block. -/
theorem iblk1_0_apply (c : Dev nD) (t : Fin cfg1.N) (p : Fin 3200) (q : Fin 128) :
    (iblk1 V c 0 t : Vec Ideal S3200x128 .f32) (ix2 p q) = (V c main_arg1 : Arr 640000 128) (ix2 (row1 t p) q) := by
  obtain ⟨e0, e1⟩ := idx1_0 t
  unfold iblk1
  rw [View.read_apply]
  show V c main_arg1 _ = V c main_arg1 _
  congr 1
  funext a
  apply Fin.ext
  match a with
  | ⟨0, _⟩ => show win1_0.index t (0 : Fin 2) * 3200 + 1 * p.val = t.val * 3200 + p.val; rw [e0]; omega
  | ⟨1, _⟩ => show win1_0.index t (1 : Fin 2) * 128 + 1 * q.val = q.val; rw [e1]; omega
theorem iblk1_3_apply (c : Dev nD) (t : Fin cfg1.N) (p : Fin 3200) (q : Fin 128) :
    (iblk1 V c 3 t : Vec Ideal S3200x128 .f32) (ix2 p q) = (V c main_v15 : Arr 640000 128) (ix2 (row1 t p) q) := by
  obtain ⟨e0, e1⟩ := idx1_3 t
  unfold iblk1
  rw [View.read_apply]
  show V c main_v15 _ = V c main_v15 _
  congr 1
  funext a
  apply Fin.ext
  match a with
  | ⟨0, _⟩ => show win1_3.index t (0 : Fin 2) * 3200 + 1 * p.val = t.val * 3200 + p.val; rw [e0]; omega
  | ⟨1, _⟩ => show win1_3.index t (1 : Fin 2) * 128 + 1 * q.val = q.val; rw [e1]; omega
theorem iblk1_4_apply (c : Dev nD) (t : Fin cfg1.N) (p : Fin 3200) (q : Fin 128) :
    (iblk1 V c 4 t : Vec Ideal S3200x128 .f32) (ix2 p q) = (V c main_v22 : Arr 640000 128) (ix2 (row1 t p) q) := by
  obtain ⟨e0, e1⟩ := idx1_4 t
  unfold iblk1
  rw [View.read_apply]
  show V c main_v22 _ = V c main_v22 _
  congr 1
  funext a
  apply Fin.ext
  match a with
  | ⟨0, _⟩ => show win1_4.index t (0 : Fin 2) * 3200 + 1 * p.val = t.val * 3200 + p.val; rw [e0]; omega
  | ⟨1, _⟩ => show win1_4.index t (1 : Fin 2) * 128 + 1 * q.val = q.val; rw [e1]; omega
theorem iblk1_5_apply (c : Dev nD) (t : Fin cfg1.N) (p : Fin 3200) (q : Fin 128) :
    (iblk1 V c 5 t : Vec Ideal S3200x128 .f32) (ix2 p q) = (V c main_v29 : Arr 640000 128) (ix2 (row1 t p) q) := by
  obtain ⟨e0, e1⟩ := idx1_5 t
  unfold iblk1
  rw [View.read_apply]
  show V c main_v29 _ = V c main_v29 _
  congr 1
  funext a
  apply Fin.ext
  match a with
  | ⟨0, _⟩ => show win1_5.index t (0 : Fin 2) * 3200 + 1 * p.val = t.val * 3200 + p.val; rw [e0]; omega
  | ⟨1, _⟩ => show win1_5.index t (1 : Fin 2) * 128 + 1 * q.val = q.val; rw [e1]; omega

/-- A whole input's block at any point is its array. -/
theorem iblk1_1_eq (c : Dev nD) (t : Fin cfg1.N) : (iblk1 V c 1 t : Vec Ideal S128x128 .f32) = (V c main_v30 : Arr 128 128) := by
  obtain ⟨e0, e1⟩ := idx1_1 t
  funext k
  unfold iblk1
  rw [View.read_apply]
  show V c main_v30 _ = V c main_v30 _
  congr 1
  funext a
  apply Fin.ext
  match a with
  | ⟨0, _⟩ => show win1_1.index t (0 : Fin 2) * 128 + 1 * (k 0).val = (k 0).val; rw [e0]; omega
  | ⟨1, _⟩ => show win1_1.index t (1 : Fin 2) * 128 + 1 * (k 1).val = (k 1).val; rw [e1]; omega
theorem iblk1_2_eq (c : Dev nD) (t : Fin cfg1.N) : (iblk1 V c 2 t : Vec Ideal S1x128 .f32) = (V c main_v31 : Arr 1 128) := by
  obtain ⟨e0, e1⟩ := idx1_2 t
  funext k
  unfold iblk1
  rw [View.read_apply]
  show V c main_v31 _ = V c main_v31 _
  congr 1
  funext a
  apply Fin.ext
  match a with
  | ⟨0, _⟩ => show win1_2.index t (0 : Fin 2) * 1 + 1 * (k 0).val = (k 0).val; rw [e0]; omega
  | ⟨1, _⟩ => show win1_2.index t (1 : Fin 2) * 128 + 1 * (k 1).val = (k 1).val; rw [e1]; omega
theorem iblk1_6_eq (c : Dev nD) (t : Fin cfg1.N) : (iblk1 V c 6 t : Vec Ideal S1x128 .f32) = (V c main_v32 : Arr 1 128) := by
  obtain ⟨e0, e1⟩ := idx1_6 t
  funext k
  unfold iblk1
  rw [View.read_apply]
  show V c main_v32 _ = V c main_v32 _
  congr 1
  funext a
  apply Fin.ext
  match a with
  | ⟨0, _⟩ => show win1_6.index t (0 : Fin 2) * 1 + 1 * (k 0).val = (k 0).val; rw [e0]; omega
  | ⟨1, _⟩ => show win1_6.index t (1 : Fin 2) * 128 + 1 * (k 1).val = (k 1).val; rw [e1]; omega
theorem iblk1_7_eq (c : Dev nD) (t : Fin cfg1.N) : (iblk1 V c 7 t : Vec Ideal S1x128 .f32) = (V c main_v33 : Arr 1 128) := by
  obtain ⟨e0, e1⟩ := idx1_7 t
  funext k
  unfold iblk1
  rw [View.read_apply]
  show V c main_v33 _ = V c main_v33 _
  congr 1
  funext a
  apply Fin.ext
  match a with
  | ⟨0, _⟩ => show win1_7.index t (0 : Fin 2) * 1 + 1 * (k 0).val = (k 0).val; rw [e0]; omega
  | ⟨1, _⟩ => show win1_7.index t (1 : Fin 2) * 128 + 1 * (k 1).val = (k 1).val; rw [e1]; omega
theorem iblk1_8_eq (c : Dev nD) (t : Fin cfg1.N) : (iblk1 V c 8 t : Vec Ideal S1x128 .f32) = (V c main_v34 : Arr 1 128) := by
  obtain ⟨e0, e1⟩ := idx1_8 t
  funext k
  unfold iblk1
  rw [View.read_apply]
  show V c main_v34 _ = V c main_v34 _
  congr 1
  funext a
  apply Fin.ext
  match a with
  | ⟨0, _⟩ => show win1_8.index t (0 : Fin 2) * 1 + 1 * (k 0).val = (k 0).val; rw [e0]; omega
  | ⟨1, _⟩ => show win1_8.index t (1 : Fin 2) * 128 + 1 * (k 1).val = (k 1).val; rw [e1]; omega
theorem iblk1_9_eq (c : Dev nD) (t : Fin cfg1.N) : (iblk1 V c 9 t : Vec Ideal S1x128 .f32) = (V c main_v35 : Arr 1 128) := by
  obtain ⟨e0, e1⟩ := idx1_9 t
  funext k
  unfold iblk1
  rw [View.read_apply]
  show V c main_v35 _ = V c main_v35 _
  congr 1
  funext a
  apply Fin.ext
  match a with
  | ⟨0, _⟩ => show win1_9.index t (0 : Fin 2) * 1 + 1 * (k 0).val = (k 0).val; rw [e0]; omega
  | ⟨1, _⟩ => show win1_9.index t (1 : Fin 2) * 128 + 1 * (k 1).val = (k 1).val; rw [e1]; omega

/-- The pre-activation of the blocks at point t, at (p, q), is the arrays' at (row1 t p, q). -/
theorem pre1_blk (c : Dev nD) (t : Fin cfg1.N) (p : Fin 3200) (q : Fin 128) :
    k1_pay2 (iblk1 V c 0 t) (iblk1 V c 1 t) (iblk1 V c 2 t) (iblk1 V c 3 t) (iblk1 V c 4 t) (ix2 p q)
      = enew (V c main_arg1 : Arr 640000 128) (V c main_v30 : Arr 128 128) (V c main_v31 : Arr 1 128) (V c main_v15 : Arr 640000 128)
          (V c main_v22 : Arr 640000 128) (ix2 (row1 t p) q) :=
  pre1_point _ _ _ _ _ _ _ _ _ _ (row1 t p) p q (fun k => iblk1_0_apply V c t p k) (iblk1_1_eq V c t) (iblk1_2_eq V c t)
    (iblk1_3_apply V c t p q) (iblk1_4_apply V c t p q)

/-! ## What each point writes back, and the arrays after the run -/

/-- Row p of the output blocks at point t is row (row1 t p) of the output arrays. -/
theorem emb1_12 (t : Fin cfg1.N) (p : Fin 3200) (q : Fin 128) :
    ((cfg1.win 12).blk t).view.emb (ix2 p q : S3200x128.Idx) = (ix2 (row1 t p) q : S640000x128.Idx) := by
  obtain ⟨e0, e1⟩ := idx1_12 t
  funext a
  apply Fin.ext
  match a with
  | ⟨0, _⟩ => show win1_12.index t (0 : Fin 2) * 3200 + 1 * p.val = t.val * 3200 + p.val; rw [e0]; omega
  | ⟨1, _⟩ => show win1_12.index t (1 : Fin 2) * 128 + 1 * q.val = q.val; rw [e1]; omega
theorem emb1_11 (t : Fin cfg1.N) (p : Fin 3200) (q : Fin 128) :
    ((cfg1.win 11).blk t).view.emb (ix2 p q : S3200x128.Idx) = (ix2 (row1 t p) q : S640000x128.Idx) := by
  obtain ⟨e0, e1⟩ := idx1_11 t
  funext a
  apply Fin.ext
  match a with
  | ⟨0, _⟩ => show win1_11.index t (0 : Fin 2) * 3200 + 1 * p.val = t.val * 3200 + p.val; rw [e0]; omega
  | ⟨1, _⟩ => show win1_11.index t (1 : Fin 2) * 128 + 1 * q.val = q.val; rw [e1]; omega
theorem emb1_10 (t : Fin cfg1.N) (p : Fin 3200) (q : Fin 128) :
    ((cfg1.win 10).blk t).view.emb (ix2 p q : S3200x128.Idx) = (ix2 (row1 t p) q : S640000x128.Idx) := by
  obtain ⟨e0, e1⟩ := idx1_10 t
  funext a
  apply Fin.ext
  match a with
  | ⟨0, _⟩ => show win1_10.index t (0 : Fin 2) * 3200 + 1 * p.val = t.val * 3200 + p.val; rw [e0]; omega
  | ⟨1, _⟩ => show win1_10.index t (1 : Fin 2) * 128 + 1 * q.val = q.val; rw [e1]; omega

/-- What point t writes back to the gate's array is block t of the gate of the operand arrays. -/
theorem flushed1_12_eq (c : Dev nD) (t : Fin cfg1.N) :
    (dat1 V c).flushed 12 t = ((cfg1.win 12).blk t).view.read (Elt Ideal)
      (Cert.Proof.Spec.sig (V c main_arg1 : Arr 640000 128) (V c main_v30 : Arr 128 128) (V c main_v31 : Arr 1 128)
        (V c main_v15 : Arr 640000 128) (V c main_v22 : Arr 640000 128)) := by
  show (cfg1.win 12).cut (grid1.coords t) ((dat1 V c).after 12 t) = _
  rw [after1_12]
  unfold out1_12
  rw [View.canon_unit_zero zeros1]
  simp only [View.ld_unit_zero (S := S3200x128) zeros1, View.ld_unit_zero (S := S128x128) zeros1, View.ld_unit_zero (S := S1x128) zeros1]
  funext j
  obtain ⟨p, q, rfl⟩ : ∃ (p : Fin 3200) (q : Fin 128), j = ix2 p q := ⟨j 0, j 1, eq_ix2 j⟩
  rw [View.read_apply, emb1_12]
  exact gate1_point _ _ _ _ _ _ _ _ _ _ (row1 t p) p q (pre1_blk V c t p q)

/-- To the gated message's array, block t of the gated message of the operand arrays. -/
theorem flushed1_11_eq (c : Dev nD) (t : Fin cfg1.N) :
    (dat1 V c).flushed 11 t = ((cfg1.win 11).blk t).view.read (Elt Ideal)
      (numr (V c main_arg1 : Arr 640000 128) (V c main_v30 : Arr 128 128) (V c main_v31 : Arr 1 128)
        (V c main_v15 : Arr 640000 128) (V c main_v22 : Arr 640000 128) (V c main_v29 : Arr 640000 128)) := by
  show (cfg1.win 11).cut (grid1.coords t) ((dat1 V c).after 11 t) = _
  rw [after1_11]
  unfold out1_11
  rw [View.canon_unit_zero zeros1]
  simp only [View.ld_unit_zero (S := S3200x128) zeros1, View.ld_unit_zero (S := S128x128) zeros1, View.ld_unit_zero (S := S1x128) zeros1]
  funext j
  obtain ⟨p, q, rfl⟩ : ∃ (p : Fin 3200) (q : Fin 128), j = ix2 p q := ⟨j 0, j 1, eq_ix2 j⟩
  rw [View.read_apply, emb1_11]
  exact msg1_point _ _ _ _ _ _ _ _ _ _ _ _ (row1 t p) p q (pre1_blk V c t p q) (iblk1_5_apply V c t p q)

/-- To the normalised output's array, block t of the normalisation of the pre-activation of the operand arrays. -/
theorem flushed1_10_eq (c : Dev nD) (t : Fin cfg1.N) :
    (dat1 V c).flushed 10 t = ((cfg1.win 10).blk t).view.read (Elt Ideal)
      (bn (enew (V c main_arg1 : Arr 640000 128) (V c main_v30 : Arr 128 128) (V c main_v31 : Arr 1 128)
          (V c main_v15 : Arr 640000 128) (V c main_v22 : Arr 640000 128))
        (V c main_v32 : Arr 1 128) (V c main_v33 : Arr 1 128) (V c main_v34 : Arr 1 128) (V c main_v35 : Arr 1 128)) := by
  show (cfg1.win 10).cut (grid1.coords t) ((dat1 V c).after 10 t) = _
  rw [after1_10]
  unfold out1_10
  rw [View.canon_unit_zero zeros1]
  simp only [View.ld_unit_zero (S := S3200x128) zeros1, View.ld_unit_zero (S := S128x128) zeros1, View.ld_unit_zero (S := S1x128) zeros1]
  funext j
  obtain ⟨p, q, rfl⟩ : ∃ (p : Fin 3200) (q : Fin 128), j = ix2 p q := ⟨j 0, j 1, eq_ix2 j⟩
  rw [View.read_apply, emb1_10]
  exact norm1_point _ _ _ _ _ _ _ _ _ _ _ _ _ _ _ _ _ _ (row1 t p) p q (pre1_blk V c t p q) (iblk1_6_eq V c t) (iblk1_7_eq V c t)
    (iblk1_8_eq V c t) (iblk1_9_eq V c t)

/-- An index of an output array is in point t's block iff each coordinate is in the block's range on its axis. -/
theorem mem_blk1_12 (t : Fin cfg1.N) (i : S640000x128.Idx) :
    i ∈ ((cfg1.win 12).blk t).view.set ↔ ∀ a : Fin 2, win1_12.index t a * S3200x128.size a ≤ (i a).val ∧ (i a).val < win1_12.index t a * S3200x128.size a + S3200x128.size a := by
  show i ∈ ((View.whole main_v36_2).slice (win1_12.rect t)).set ↔ _
  rw [View.set_slice_whole, Rect.mem_set_unit]
  exact Iff.rfl
theorem mem_blk1_11 (t : Fin cfg1.N) (i : S640000x128.Idx) :
    i ∈ ((cfg1.win 11).blk t).view.set ↔ ∀ a : Fin 2, win1_11.index t a * S3200x128.size a ≤ (i a).val ∧ (i a).val < win1_11.index t a * S3200x128.size a + S3200x128.size a := by
  show i ∈ ((View.whole main_v36_1).slice (win1_11.rect t)).set ↔ _
  rw [View.set_slice_whole, Rect.mem_set_unit]
  exact Iff.rfl
theorem mem_blk1_10 (t : Fin cfg1.N) (i : S640000x128.Idx) :
    i ∈ ((cfg1.win 10).blk t).view.set ↔ ∀ a : Fin 2, win1_10.index t a * S3200x128.size a ≤ (i a).val ∧ (i a).val < win1_10.index t a * S3200x128.size a + S3200x128.size a := by
  show i ∈ ((View.whole main_v36_0).slice (win1_10.rect t)).set ↔ _
  rw [View.set_slice_whole, Rect.mem_set_unit]
  exact Iff.rfl

/-- The point that covers row r is r / 3200: the 200 blocks of 3200 rows tile the 640000 rows. -/
theorem point_of_row1 (i : S640000x128.Idx) : ∃ t : Fin cfg1.N, t.val = (i 0).val / 3200 :=
  ⟨⟨(i 0).val / 3200, by rw [points1]; have hi0 : (i 0).val < 640000 := (i 0).isLt; omega⟩, rfl⟩

theorem covered1_12 (i : S640000x128.Idx) : ∃ t : Fin cfg1.N, (cfg1.win 12).flush t = true ∧ i ∈ ((cfg1.win 12).blk t).view.set := by
  obtain ⟨t, ht⟩ := point_of_row1 i
  obtain ⟨e0, e1⟩ := idx1_12 t
  have hi1 : (i 1).val < 128 := (i 1).isLt
  refine ⟨t, flush1_12 t, ?_⟩
  rw [mem_blk1_12]
  intro a
  match a with
  | ⟨0, _⟩ => show win1_12.index t (0 : Fin 2) * 3200 ≤ (i 0).val ∧ (i 0).val < win1_12.index t (0 : Fin 2) * 3200 + 3200; rw [e0]; omega
  | ⟨1, _⟩ => show win1_12.index t (1 : Fin 2) * 128 ≤ (i 1).val ∧ (i 1).val < win1_12.index t (1 : Fin 2) * 128 + 128; rw [e1]; omega
theorem covered1_11 (i : S640000x128.Idx) : ∃ t : Fin cfg1.N, (cfg1.win 11).flush t = true ∧ i ∈ ((cfg1.win 11).blk t).view.set := by
  obtain ⟨t, ht⟩ := point_of_row1 i
  obtain ⟨e0, e1⟩ := idx1_11 t
  have hi1 : (i 1).val < 128 := (i 1).isLt
  refine ⟨t, flush1_11 t, ?_⟩
  rw [mem_blk1_11]
  intro a
  match a with
  | ⟨0, _⟩ => show win1_11.index t (0 : Fin 2) * 3200 ≤ (i 0).val ∧ (i 0).val < win1_11.index t (0 : Fin 2) * 3200 + 3200; rw [e0]; omega
  | ⟨1, _⟩ => show win1_11.index t (1 : Fin 2) * 128 ≤ (i 1).val ∧ (i 1).val < win1_11.index t (1 : Fin 2) * 128 + 128; rw [e1]; omega
theorem covered1_10 (i : S640000x128.Idx) : ∃ t : Fin cfg1.N, (cfg1.win 10).flush t = true ∧ i ∈ ((cfg1.win 10).blk t).view.set := by
  obtain ⟨t, ht⟩ := point_of_row1 i
  obtain ⟨e0, e1⟩ := idx1_10 t
  have hi1 : (i 1).val < 128 := (i 1).isLt
  refine ⟨t, flush1_10 t, ?_⟩
  rw [mem_blk1_10]
  intro a
  match a with
  | ⟨0, _⟩ => show win1_10.index t (0 : Fin 2) * 3200 ≤ (i 0).val ∧ (i 0).val < win1_10.index t (0 : Fin 2) * 3200 + 3200; rw [e0]; omega
  | ⟨1, _⟩ => show win1_10.index t (1 : Fin 2) * 128 ≤ (i 1).val ∧ (i 1).val < win1_10.index t (1 : Fin 2) * 128 + 128; rw [e1]; omega

/-- The gate's array after the run. -/
theorem final1_12 (c : Dev nD) :
    (dat1 V c).arrAt 12 cfg1.N = Cert.Proof.Spec.sig (V c main_arg1 : Arr 640000 128) (V c main_v30 : Arr 128 128) (V c main_v31 : Arr 1 128)
      (V c main_v15 : Arr 640000 128) (V c main_v22 : Arr 640000 128) :=
  (dat1 V c).arrAt_eq_of_cover 12 _ (fun t _ => flushed1_12_eq V c t) covered1_12

/-- The gated message's array after the run. -/
theorem final1_11 (c : Dev nD) :
    (dat1 V c).arrAt 11 cfg1.N = numr (V c main_arg1 : Arr 640000 128) (V c main_v30 : Arr 128 128) (V c main_v31 : Arr 1 128)
      (V c main_v15 : Arr 640000 128) (V c main_v22 : Arr 640000 128) (V c main_v29 : Arr 640000 128) :=
  (dat1 V c).arrAt_eq_of_cover 11 _ (fun t _ => flushed1_11_eq V c t) covered1_11

/-- The normalised output's array after the run. -/
theorem final1_10 (c : Dev nD) :
    (dat1 V c).arrAt 10 cfg1.N = bn (enew (V c main_arg1 : Arr 640000 128) (V c main_v30 : Arr 128 128) (V c main_v31 : Arr 1 128)
        (V c main_v15 : Arr 640000 128) (V c main_v22 : Arr 640000 128))
      (V c main_v32 : Arr 1 128) (V c main_v33 : Arr 1 128) (V c main_v34 : Arr 1 128) (V c main_v35 : Arr 1 128) :=
  (dat1 V c).arrAt_eq_of_cover 10 _ (fun t _ => flushed1_10_eq V c t) covered1_10

end Cert.KernelIdeal.Hand

end
-- ==== Proof.Val.Final2.lean ====
/- The array region 2 leaves behind. At grid point t the body writes back rows 2000 t .. 2000 t + 1999 of the output, and
   what it writes at row p of that block and column q is the rectified normalisation of the node update at row
   2000 t + p: the three 2000-row blocks it reads sit at the same rows of their arrays, and the four 1 x 128 rows are read
   whole at every point. The ten blocks tile the 20000 rows, so the output array ends as one function of the seven
   operand arrays, index by index. Over the extended reals. -/
import proofs.«157276_j46986942218355_1_alg».proof.Proof.KI.Region2
import proofs.«157276_j46986942218355_1_alg».proof.Proof.Val.Spec
import Idealize.ShloMosaic.Lib.Pipeline.Value
import Idealize.ShloMosaic.Lib.ValueLayout
import Idealize.ShloMosaic.Lib.ValueIdx

set_option maxRecDepth 16384

noncomputable section

namespace Cert.KernelIdeal.Hand

open Cert.KernelIdeal Cert.KernelIdeal.Gen Cert.Proof.Spec
open Idealize.ShloMosaic Idealize.ShloMosaic.TcCoe Idealize.ShloMosaic.ValueIdx
open Idealize.SL.Sem
open Idealize.ShloMosaic.Pipeline (Dat)

-- the TensorCore's buffer contents when the region is entered
variable (V : (c : Dev nD) → (b : Ref sig .tc) → Buf (Elt Ideal) ((c : Thread nD τ).loc b))

theorem zeros2 : (![0, 0] : Fin 2 → Nat) = fun _ => 0 := funext fun a => by fin_cases a <;> rfl

/-! ## One entry of the payload -/

/-- The reciprocal square root of a vector, at an index. -/
theorem rsqrt_entry {s : Shape} {φ : FTy} (a : FVec Ideal s φ) (i : s.Idx) : rsqrt a i = Ideal.rsqrt (a i) := rfl

/-- The payload at row p, column q of the block, when the three block operands there are the entries of three arrays at
    one index i of the same column, and the four row operands are four arrays' rows: the normalised, rectified node
    update at i. The operations are pointwise but for the four rows, each broadcast down the block's rows. -/
theorem combine_entry (b0 b1 b2 : Vec Ideal S2000x128 .f32) (b3 b4 b5 b6 : Vec Ideal S1x128 .f32)
    (A0 A1 A2 : Arr 20000 128) (R3 R4 R5 R6 : Arr 1 128) (p : Fin 2000) (q : Fin 128) (r : Fin 20000)
    (h0 : b0 (ix2 p q) = A0 (ix2 r q)) (h1 : b1 (ix2 p q) = A1 (ix2 r q)) (h2 : b2 (ix2 p q) = A2 (ix2 r q))
    (h3 : b3 (ix2 0 q) = R3 (ix2 0 q)) (h4 : b4 (ix2 0 q) = R4 (ix2 0 q)) (h5 : b5 (ix2 0 q) = R5 (ix2 0 q))
    (h6 : b6 (ix2 0 q) = R6 (ix2 0 q)) :
    k2_pay1 b0 b1 b2 b4 b5 b3 b6 (ix2 p q) = bn (hnew A0 A1 A2) R3 R4 R5 R6 (ix2 r q) := by
  unfold k2_pay1
  simp only [maximumf_apply, addf_apply, mulf_apply, subf_apply, divf_apply, broadcast_apply, shapeCast_self,
    broadcastTo_1b_ab_apply, rsqrt_entry, Scalar.ofBits, Ideal.ofBits_def]
  rw [h0, h1, h2, h3, h4, h5, h6, bn_apply]
  rfl

/-- The same at an index j of the block and an index i of the arrays in the same column. -/
theorem combine_at (b0 b1 b2 : Vec Ideal S2000x128 .f32) (b3 b4 b5 b6 : Vec Ideal S1x128 .f32)
    (A0 A1 A2 : Arr 20000 128) (R3 R4 R5 R6 : Arr 1 128) (j : S2000x128.Idx) (i : S20000x128.Idx)
    (hq : (i 1).val = (j 1).val) (h0 : b0 j = A0 i) (h1 : b1 j = A1 i) (h2 : b2 j = A2 i)
    (h3 : ∀ y, b3 y = R3 y) (h4 : ∀ y, b4 y = R4 y) (h5 : ∀ y, b5 y = R5 y) (h6 : ∀ y, b6 y = R6 y) :
    k2_pay1 b0 b1 b2 b4 b5 b3 b6 j = bn (hnew A0 A1 A2) R3 R4 R5 R6 i := by
  obtain ⟨p, q, rfl⟩ : ∃ (p : Fin 2000) (q : Fin 128), j = ix2 p q := ⟨j 0, j 1, eq_ix2 j⟩
  obtain ⟨r, s, rfl⟩ : ∃ (r : Fin 20000) (s : Fin 128), i = ix2 r s := ⟨i 0, i 1, eq_ix2 i⟩
  obtain rfl : s = q := Fin.ext hq
  exact combine_entry b0 b1 b2 b3 b4 b5 b6 A0 A1 A2 R3 R4 R5 R6 p s r h0 h1 h2 (h3 _) (h4 _) (h5 _) (h6 _)

/-! ## Where the blocks sit -/

/-- The index maps over the grid: the three block operands and the output are at block row t, column block 0; the four
    rows are at block (0, 0) at every point. -/
theorem block_rows2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = t.val ∧ win2_7.index t (1 : Fin 2) = 0) :=
  (by decide +kernel : ∀ t : Fin grid2.N, _)

/-- What point t writes back is block t of the normalised node update of the operand arrays as the region finds them. -/
theorem written2_7 (c : Dev nD) (t : Fin cfg2.N) :
    (dat2 (F := Ideal) V c).flushed 7 t = ((cfg2.win 7).blk t).view.read (Elt Ideal)
      (bn (N := 20000) (M := 128) (hnew (V c main_v5) (V c main_v39) (V c main_v42)) (V c main_v43) (V c main_v44) (V c main_v45)
        (V c main_v46)) := by
  show (cfg2.win 7).cut (grid2.coords t) ((dat2 (F := Ideal) V c).after 7 t) = _
  rw [after2_7]
  unfold out2_7
  rw [View.canon_unit_zero zeros2]
  simp only [View.ld_unit_zero (S := S2000x128) zeros2, View.ld_unit_zero (S := S1x128) zeros2]
  obtain ⟨⟨a0, a1⟩, ⟨b0, b1⟩, ⟨c0, c1⟩, ⟨d0, d1⟩, ⟨e0, e1⟩, ⟨f0, f1⟩, ⟨g0, g1⟩, ⟨o0, o1⟩⟩ := block_rows2 t
  funext j
  refine combine_at (iblk2 V c 0 t) (iblk2 V c 1 t) (iblk2 V c 2 t) (iblk2 V c 3 t) (iblk2 V c 4 t) (iblk2 V c 5 t) (iblk2 V c 6 t)
    (V c main_v5) (V c main_v39) (V c main_v42) (V c main_v43) (V c main_v44) (V c main_v45) (V c main_v46) j
    (((cfg2.win 7).blk t).view.emb j) ?_ ?_ ?_ ?_ ?_ ?_ ?_ ?_
  · show win2_7.index t (1 : Fin 2) * 128 + 1 * (j 1).val = (j 1).val
    rw [o1]; omega
  · show V c main_v5 (((cfg2.win 0).blk t).view.emb j) = V c main_v5 (((cfg2.win 7).blk t).view.emb j)
    refine congrArg _ (funext fun a => Fin.ext ?_)
    match a with
    | ⟨0, _⟩ => show win2_0.index t (0 : Fin 2) * 2000 + 1 * (j 0).val = win2_7.index t (0 : Fin 2) * 2000 + 1 * (j 0).val; rw [a0, o0]
    | ⟨1, _⟩ => show win2_0.index t (1 : Fin 2) * 128 + 1 * (j 1).val = win2_7.index t (1 : Fin 2) * 128 + 1 * (j 1).val; rw [a1, o1]
  · show V c main_v39 (((cfg2.win 1).blk t).view.emb j) = V c main_v39 (((cfg2.win 7).blk t).view.emb j)
    refine congrArg _ (funext fun a => Fin.ext ?_)
    match a with
    | ⟨0, _⟩ => show win2_1.index t (0 : Fin 2) * 2000 + 1 * (j 0).val = win2_7.index t (0 : Fin 2) * 2000 + 1 * (j 0).val; rw [b0, o0]
    | ⟨1, _⟩ => show win2_1.index t (1 : Fin 2) * 128 + 1 * (j 1).val = win2_7.index t (1 : Fin 2) * 128 + 1 * (j 1).val; rw [b1, o1]
  · show V c main_v42 (((cfg2.win 2).blk t).view.emb j) = V c main_v42 (((cfg2.win 7).blk t).view.emb j)
    refine congrArg _ (funext fun a => Fin.ext ?_)
    match a with
    | ⟨0, _⟩ => show win2_2.index t (0 : Fin 2) * 2000 + 1 * (j 0).val = win2_7.index t (0 : Fin 2) * 2000 + 1 * (j 0).val; rw [c0, o0]
    | ⟨1, _⟩ => show win2_2.index t (1 : Fin 2) * 128 + 1 * (j 1).val = win2_7.index t (1 : Fin 2) * 128 + 1 * (j 1).val; rw [c1, o1]
  · intro y
    show V c main_v43 (((cfg2.win 3).blk t).view.emb y) = V c main_v43 y
    refine congrArg _ (funext fun a => Fin.ext ?_)
    match a with
    | ⟨0, _⟩ => show win2_3.index t (0 : Fin 2) * 1 + 1 * (y 0).val = (y 0).val; rw [d0]; omega
    | ⟨1, _⟩ => show win2_3.index t (1 : Fin 2) * 128 + 1 * (y 1).val = (y 1).val; rw [d1]; omega
  · intro y
    show V c main_v44 (((cfg2.win 4).blk t).view.emb y) = V c main_v44 y
    refine congrArg _ (funext fun a => Fin.ext ?_)
    match a with
    | ⟨0, _⟩ => show win2_4.index t (0 : Fin 2) * 1 + 1 * (y 0).val = (y 0).val; rw [e0]; omega
    | ⟨1, _⟩ => show win2_4.index t (1 : Fin 2) * 128 + 1 * (y 1).val = (y 1).val; rw [e1]; omega
  · intro y
    show V c main_v45 (((cfg2.win 5).blk t).view.emb y) = V c main_v45 y
    refine congrArg _ (funext fun a => Fin.ext ?_)
    match a with
    | ⟨0, _⟩ => show win2_5.index t (0 : Fin 2) * 1 + 1 * (y 0).val = (y 0).val; rw [f0]; omega
    | ⟨1, _⟩ => show win2_5.index t (1 : Fin 2) * 128 + 1 * (y 1).val = (y 1).val; rw [f1]; omega
  · intro y
    show V c main_v46 (((cfg2.win 6).blk t).view.emb y) = V c main_v46 y
    refine congrArg _ (funext fun a => Fin.ext ?_)
    match a with
    | ⟨0, _⟩ => show win2_6.index t (0 : Fin 2) * 1 + 1 * (y 0).val = (y 0).val; rw [g0]; omega
    | ⟨1, _⟩ => show win2_6.index t (1 : Fin 2) * 128 + 1 * (y 1).val = (y 1).val; rw [g1]; omega

/-! ## The blocks tile the rows -/

/-- An index of the output array is in point t's block iff each coordinate is in the block's range on its axis. -/
theorem in_block2_7 (t : Fin cfg2.N) (i : S20000x128.Idx) :
    i ∈ ((cfg2.win 7).blk t).view.set ↔ ∀ a : Fin 2, win2_7.index t a * S2000x128.size a ≤ (i a).val
      ∧ (i a).val < win2_7.index t a * S2000x128.size a + S2000x128.size a := by
  show i ∈ ((View.whole main_v47).slice (win2_7.rect t)).set ↔ _
  rw [View.set_slice_whole, Rect.mem_set_unit]
  exact Iff.rfl

/-- Row r of the output is written at point r / 2000. -/
theorem rows_tiled2_7 (i : S20000x128.Idx) :
    ∃ t : Fin cfg2.N, (cfg2.win 7).flush t = true ∧ i ∈ ((cfg2.win 7).blk t).view.set := by
  have hi0 : (i 0).val < 20000 := (i 0).isLt
  have hi1 : (i 1).val < 128 := (i 1).isLt
  have hN : cfg2.N = 10 := N_2
  let t : Fin cfg2.N := ⟨(i 0).val / 2000, by rw [hN]; omega⟩
  obtain ⟨-, -, -, -, -, -, -, ⟨o0, o1⟩⟩ := block_rows2 t
  have ht : t.val = (i 0).val / 2000 := rfl
  refine ⟨t, flush2_7 t, ?_⟩
  rw [in_block2_7]
  intro a
  match a with
  | ⟨0, _⟩ => show win2_7.index t (0 : Fin 2) * 2000 ≤ (i 0).val ∧ (i 0).val < win2_7.index t (0 : Fin 2) * 2000 + 2000; rw [o0, ht]; omega
  | ⟨1, _⟩ => show win2_7.index t (1 : Fin 2) * 128 ≤ (i 1).val ∧ (i 1).val < win2_7.index t (1 : Fin 2) * 128 + 128; rw [o1]; omega

/-! ## The array after the region -/

/-- Region 2's output array after its ten points: the normalised, rectified node update of the operand arrays. -/
theorem final2 (c : Dev nD) :
    (dat2 (F := Ideal) V c).arrAt 7 cfg2.N = bn (N := 20000) (M := 128) (hnew (V c main_v5) (V c main_v39) (V c main_v42)) (V c main_v43)
      (V c main_v44) (V c main_v45) (V c main_v46) :=
  (dat2 (F := Ideal) V c).arrAt_eq_of_cover 7 _ (fun t _ => written2_7 V c t) rows_tiled2_7

end Cert.KernelIdeal.Hand

end
-- ==== Proof.Val.RefProj.lean ====
/-
  The reference's five affine stages read at an index, over the extended reals.

  Each stage is h · Wᵀ + b: the weight matrix is transposed, contracted with the rows of the
  feature array over the shared axis, and the bias vector is broadcast along the rows and added. Read at
  row p and column q, the contraction is the sum over k of x(p, k) · W(q, k) (the weight is read
  transposed) and the broadcast bias is b(q). What is proved by hand is only that the re-indexings the
  stages compose are these coordinates.
-/
import proofs.«157276_j46986942218355_1_alg».proof.Proof.RefImports

noncomputable section

namespace Cert.Proof.RefAt

open Cert.ReferenceIdeal Cert.ReferenceIdeal.Read Idealize.ShloMosaic Idealize.ShloMosaic.ValueIdx

/-- The first node projection at (p, q): the sum over k of x0(p, k) · x4(q, k), plus x5(q). -/
theorem v4_at (x0 : (⟨S20000x128, .f32⟩ : BufTy).Contents (Elt Ideal)) (x4 : (⟨S128x128, .f32⟩ : BufTy).Contents (Elt Ideal))
    (x5 : (⟨S128, .f32⟩ : BufTy).Contents (Elt Ideal)) (p : Fin 20000) (q : Fin 128) :
    val_main_v4 (F := Ideal) x0 x4 x5 (ix2 p q) = (∑ k : Fin 128, x0 (ix2 p k) * x4 (ix2 q k)) + x5 (ix1 q) := by
  -- the left operand of the contraction is read at (p, k)
  have el : ∀ k : Fin 128, lidx_main_v1 (ix2 p q) k = ix2 p k := fun k =>
    funext fun a => Fin.ext (by match a with | ⟨0, _⟩ => rfl | ⟨1, _⟩ => rfl)
  -- the transposed weight at (k, q) is the weight at (q, k)
  have er : ∀ k : Fin 128, idx_main_v0 (ridx_main_v1 (ix2 p q) k) = ix2 q k := fun k =>
    funext fun a => Fin.ext (by match a with | ⟨0, _⟩ => rfl | ⟨1, _⟩ => rfl)
  -- the twice-broadcast bias at (p, q) is the bias at q
  have eb : idx_main_v2 (idx_main_v3 (ix2 p q)) = ix1 q :=
    funext fun a => Fin.ext (by match a with | ⟨0, _⟩ => rfl)
  rw [val_main_v4_apply, val_main_v1_apply, val_main_v3_apply, val_main_v2_apply]
  simp only [val_main_v0_apply, Ideal.addf_def, el, er, eb]

/-- The second node projection at (p, q): the sum over k of x0(p, k) · x6(q, k), plus x7(q). -/
theorem v9_at (x0 : (⟨S20000x128, .f32⟩ : BufTy).Contents (Elt Ideal)) (x6 : (⟨S128x128, .f32⟩ : BufTy).Contents (Elt Ideal))
    (x7 : (⟨S128, .f32⟩ : BufTy).Contents (Elt Ideal)) (p : Fin 20000) (q : Fin 128) :
    val_main_v9 (F := Ideal) x0 x6 x7 (ix2 p q) = (∑ k : Fin 128, x0 (ix2 p k) * x6 (ix2 q k)) + x7 (ix1 q) := by
  have el : ∀ k : Fin 128, lidx_main_v6 (ix2 p q) k = ix2 p k := fun k =>
    funext fun a => Fin.ext (by match a with | ⟨0, _⟩ => rfl | ⟨1, _⟩ => rfl)
  have er : ∀ k : Fin 128, idx_main_v5 (ridx_main_v6 (ix2 p q) k) = ix2 q k := fun k =>
    funext fun a => Fin.ext (by match a with | ⟨0, _⟩ => rfl | ⟨1, _⟩ => rfl)
  have eb : idx_main_v7 (idx_main_v8 (ix2 p q)) = ix1 q :=
    funext fun a => Fin.ext (by match a with | ⟨0, _⟩ => rfl)
  rw [val_main_v9_apply, val_main_v6_apply, val_main_v8_apply, val_main_v7_apply]
  simp only [val_main_v5_apply, Ideal.addf_def, el, er, eb]

/-- The third node projection at (p, q): the sum over k of x0(p, k) · x10(q, k), plus x11(q). -/
theorem v14_at (x0 : (⟨S20000x128, .f32⟩ : BufTy).Contents (Elt Ideal)) (x10 : (⟨S128x128, .f32⟩ : BufTy).Contents (Elt Ideal))
    (x11 : (⟨S128, .f32⟩ : BufTy).Contents (Elt Ideal)) (p : Fin 20000) (q : Fin 128) :
    val_main_v14 (F := Ideal) x0 x10 x11 (ix2 p q) = (∑ k : Fin 128, x0 (ix2 p k) * x10 (ix2 q k)) + x11 (ix1 q) := by
  have el : ∀ k : Fin 128, lidx_main_v11 (ix2 p q) k = ix2 p k := fun k =>
    funext fun a => Fin.ext (by match a with | ⟨0, _⟩ => rfl | ⟨1, _⟩ => rfl)
  have er : ∀ k : Fin 128, idx_main_v10 (ridx_main_v11 (ix2 p q) k) = ix2 q k := fun k =>
    funext fun a => Fin.ext (by match a with | ⟨0, _⟩ => rfl | ⟨1, _⟩ => rfl)
  have eb : idx_main_v12 (idx_main_v13 (ix2 p q)) = ix1 q :=
    funext fun a => Fin.ext (by match a with | ⟨0, _⟩ => rfl)
  rw [val_main_v14_apply, val_main_v11_apply, val_main_v13_apply, val_main_v12_apply]
  simp only [val_main_v10_apply, Ideal.addf_def, el, er, eb]

/-- The fourth node projection at (p, q): the sum over k of x0(p, k) · x12(q, k), plus x13(q). -/
theorem v19_at (x0 : (⟨S20000x128, .f32⟩ : BufTy).Contents (Elt Ideal)) (x12 : (⟨S128x128, .f32⟩ : BufTy).Contents (Elt Ideal))
    (x13 : (⟨S128, .f32⟩ : BufTy).Contents (Elt Ideal)) (p : Fin 20000) (q : Fin 128) :
    val_main_v19 (F := Ideal) x0 x12 x13 (ix2 p q) = (∑ k : Fin 128, x0 (ix2 p k) * x12 (ix2 q k)) + x13 (ix1 q) := by
  have el : ∀ k : Fin 128, lidx_main_v16 (ix2 p q) k = ix2 p k := fun k =>
    funext fun a => Fin.ext (by match a with | ⟨0, _⟩ => rfl | ⟨1, _⟩ => rfl)
  have er : ∀ k : Fin 128, idx_main_v15 (ridx_main_v16 (ix2 p q) k) = ix2 q k := fun k =>
    funext fun a => Fin.ext (by match a with | ⟨0, _⟩ => rfl | ⟨1, _⟩ => rfl)
  have eb : idx_main_v17 (idx_main_v18 (ix2 p q)) = ix1 q :=
    funext fun a => Fin.ext (by match a with | ⟨0, _⟩ => rfl)
  rw [val_main_v19_apply, val_main_v16_apply, val_main_v18_apply, val_main_v17_apply]
  simp only [val_main_v15_apply, Ideal.addf_def, el, er, eb]

/-- The edge projection at (p, q): the sum over k of x1(p, k) · x8(q, k), plus x9(q). -/
theorem v24_at (x1 : (⟨S640000x128, .f32⟩ : BufTy).Contents (Elt Ideal)) (x8 : (⟨S128x128, .f32⟩ : BufTy).Contents (Elt Ideal))
    (x9 : (⟨S128, .f32⟩ : BufTy).Contents (Elt Ideal)) (p : Fin 640000) (q : Fin 128) :
    val_main_v24 (F := Ideal) x1 x8 x9 (ix2 p q) = (∑ k : Fin 128, x1 (ix2 p k) * x8 (ix2 q k)) + x9 (ix1 q) := by
  have el : ∀ k : Fin 128, lidx_main_v21 (ix2 p q) k = ix2 p k := fun k =>
    funext fun a => Fin.ext (by match a with | ⟨0, _⟩ => rfl | ⟨1, _⟩ => rfl)
  have er : ∀ k : Fin 128, idx_main_v20 (ridx_main_v21 (ix2 p q) k) = ix2 q k := fun k =>
    funext fun a => Fin.ext (by match a with | ⟨0, _⟩ => rfl | ⟨1, _⟩ => rfl)
  have eb : idx_main_v22 (idx_main_v23 (ix2 p q)) = ix1 q :=
    funext fun a => Fin.ext (by match a with | ⟨0, _⟩ => rfl)
  rw [val_main_v24_apply, val_main_v21_apply, val_main_v23_apply, val_main_v22_apply]
  simp only [val_main_v20_apply, Ideal.addf_def, el, er, eb]

end Cert.Proof.RefAt

end
-- ==== Proof.Val.ProjGlue.lean ====
/-
  The node projections joined. The kernel computes ONE affine map of the node features against the four
  weight matrices stacked along their rows and then transposed (a 128 x 512 matrix whose column off + q is
  row q of the piece that starts at off) and the four bias vectors stacked and laid out as one 1 x 512 row,
  and cuts the 20000 x 512 result into four bands of 128 columns. The reference computes four separate
  affine maps. Band by band they are the same arrays: column off + q of the stacked map contracts the
  features with row q of the piece and adds entry q of the piece's bias, which is the reference's stage
  read at (p, q).
-/
import Idealize.ShloMosaic.Lib.ValueLayout
import Idealize.ShloMosaic.Lib.Pipeline.Value
import proofs.«157276_j46986942218355_1_alg».proof.Proof.Val.Spec
import proofs.«157276_j46986942218355_1_alg».proof.Proof.Val.RefProj

noncomputable section

namespace Cert.Proof.Glue

open Cert.Proof.Spec Cert.Proof.RefAt Cert.ReferenceIdeal.Read Idealize.ShloMosaic Idealize.ShloMosaic.ValueIdx

/-! ## The stacked weights, transposed, read at a column of each piece

The stack has the pieces' rows end to end: rows 0..127 are Wa's, 128..255 Wb's, 256..383 Wd's, 384..511 We's.
Transposed, row c of the stack is column c; so column off + q, read at row k, is the piece's entry (q, k). -/

section Weights

variable (Wa Wb Wd We : Arr 128 128)
  (hcw : Shape.Concatenates [(⟨2, ![128, 128]⟩ : Shape), ⟨2, ![128, 128]⟩, ⟨2, ![128, 128]⟩, ⟨2, ![128, 128]⟩] ⟨2, ![512, 128]⟩ 0)
  (htw : (⟨2, ![512, 128]⟩ : Shape).Transposes [1, 0] ⟨2, ![128, 512]⟩)

/-- Column q of the first piece: the transposed stack at (k, c), c = 0 + q, is Wa at (q, k). -/
theorem wcat_at0 (k q : Fin 128) (c : Fin 512) (hc : c.val = 0 + q.val) :
    transpose ⟨2, ![128, 512]⟩ [1, 0] (concatenate ⟨2, ![512, 128]⟩ 0
      [⟨⟨2, ![128, 128]⟩, Wa⟩, ⟨⟨2, ![128, 128]⟩, Wb⟩, ⟨⟨2, ![128, 128]⟩, Wd⟩, ⟨⟨2, ![128, 128]⟩, We⟩] hcw) htw (ix2 k c)
      = Wa (ix2 q k) := by
  rw [transpose_ix2_apply]
  exact concatenate_apply_piece 0
    [⟨⟨2, ![128, 128]⟩, Wa⟩, ⟨⟨2, ![128, 128]⟩, Wb⟩, ⟨⟨2, ![128, 128]⟩, Wd⟩, ⟨⟨2, ![128, 128]⟩, We⟩] hcw (ix2 c k)
    0 (by simp) ⟨2, ![128, 128]⟩ Wa rfl rfl 0 rfl (ix2 q k)
    (fun b hb => by match b with | ⟨0, _⟩ => exact absurd rfl hb | ⟨1, _⟩ => rfl) hc.symm

/-- Column q of the second piece: the transposed stack at (k, c), c = 128 + q, is Wb at (q, k);
    one piece of 128 rows lies before it. -/
theorem wcat_at1 (k q : Fin 128) (c : Fin 512) (hc : c.val = 128 + q.val) :
    transpose ⟨2, ![128, 512]⟩ [1, 0] (concatenate ⟨2, ![512, 128]⟩ 0
      [⟨⟨2, ![128, 128]⟩, Wa⟩, ⟨⟨2, ![128, 128]⟩, Wb⟩, ⟨⟨2, ![128, 128]⟩, Wd⟩, ⟨⟨2, ![128, 128]⟩, We⟩] hcw) htw (ix2 k c)
      = Wb (ix2 q k) := by
  rw [transpose_ix2_apply]
  exact concatenate_apply_piece 0
    [⟨⟨2, ![128, 128]⟩, Wa⟩, ⟨⟨2, ![128, 128]⟩, Wb⟩, ⟨⟨2, ![128, 128]⟩, Wd⟩, ⟨⟨2, ![128, 128]⟩, We⟩] hcw (ix2 c k)
    1 (by simp) ⟨2, ![128, 128]⟩ Wb rfl rfl 128 rfl (ix2 q k)
    (fun b hb => by match b with | ⟨0, _⟩ => exact absurd rfl hb | ⟨1, _⟩ => rfl) hc.symm

/-- Column q of the third piece: the transposed stack at (k, c), c = 256 + q, is Wd at (q, k);
    two pieces, 256 rows, lie before it. -/
theorem wcat_at2 (k q : Fin 128) (c : Fin 512) (hc : c.val = 256 + q.val) :
    transpose ⟨2, ![128, 512]⟩ [1, 0] (concatenate ⟨2, ![512, 128]⟩ 0
      [⟨⟨2, ![128, 128]⟩, Wa⟩, ⟨⟨2, ![128, 128]⟩, Wb⟩, ⟨⟨2, ![128, 128]⟩, Wd⟩, ⟨⟨2, ![128, 128]⟩, We⟩] hcw) htw (ix2 k c)
      = Wd (ix2 q k) := by
  rw [transpose_ix2_apply]
  exact concatenate_apply_piece 0
    [⟨⟨2, ![128, 128]⟩, Wa⟩, ⟨⟨2, ![128, 128]⟩, Wb⟩, ⟨⟨2, ![128, 128]⟩, Wd⟩, ⟨⟨2, ![128, 128]⟩, We⟩] hcw (ix2 c k)
    2 (by simp) ⟨2, ![128, 128]⟩ Wd rfl rfl 256 rfl (ix2 q k)
    (fun b hb => by match b with | ⟨0, _⟩ => exact absurd rfl hb | ⟨1, _⟩ => rfl) hc.symm

/-- Column q of the fourth piece: the transposed stack at (k, c), c = 384 + q, is We at (q, k);
    three pieces, 384 rows, lie before it. -/
theorem wcat_at3 (k q : Fin 128) (c : Fin 512) (hc : c.val = 384 + q.val) :
    transpose ⟨2, ![128, 512]⟩ [1, 0] (concatenate ⟨2, ![512, 128]⟩ 0
      [⟨⟨2, ![128, 128]⟩, Wa⟩, ⟨⟨2, ![128, 128]⟩, Wb⟩, ⟨⟨2, ![128, 128]⟩, Wd⟩, ⟨⟨2, ![128, 128]⟩, We⟩] hcw) htw (ix2 k c)
      = We (ix2 q k) := by
  rw [transpose_ix2_apply]
  exact concatenate_apply_piece 0
    [⟨⟨2, ![128, 128]⟩, Wa⟩, ⟨⟨2, ![128, 128]⟩, Wb⟩, ⟨⟨2, ![128, 128]⟩, Wd⟩, ⟨⟨2, ![128, 128]⟩, We⟩] hcw (ix2 c k)
    3 (by simp) ⟨2, ![128, 128]⟩ We rfl rfl 384 rfl (ix2 q k)
    (fun b hb => by match b with | ⟨0, _⟩ => exact absurd rfl hb | ⟨1, _⟩ => rfl) hc.symm

end Weights

/-! ## The stacked biases, laid out as one row, read at an entry of each piece

The stacked vector has the four bias vectors end to end; as a 1 x 512 row its entry (0, c) is the vector's
entry c, and entry off + q of the vector is entry q of the piece that starts at off. -/

section Biases

variable (ba bb bd be : (⟨1, ![128]⟩ : Shape).Idx → EReal)
  (hcb : Shape.Concatenates [(⟨1, ![128]⟩ : Shape), ⟨1, ![128]⟩, ⟨1, ![128]⟩, ⟨1, ![128]⟩] ⟨1, ![512]⟩ 0)
  (hsb : (⟨1, ![512]⟩ : Shape).ShapeCasts ⟨2, ![1, 512]⟩)

/-- Entry q of the first piece: the bias row at (0, c), c = 0 + q, is ba at q. -/
theorem bcat_at0 (q : Fin 128) (c : Fin 512) (hc : c.val = 0 + q.val) :
    shapeCast ⟨2, ![1, 512]⟩ (concatenate ⟨1, ![512]⟩ 0
      [⟨⟨1, ![128]⟩, ba⟩, ⟨⟨1, ![128]⟩, bb⟩, ⟨⟨1, ![128]⟩, bd⟩, ⟨⟨1, ![128]⟩, be⟩] hcb) hsb (ix2 (0 : Fin 1) c)
      = ba (ix1 q) := by
  rw [shapeCast_a_1a_apply]
  exact concatenate_apply_piece 0
    [⟨⟨1, ![128]⟩, ba⟩, ⟨⟨1, ![128]⟩, bb⟩, ⟨⟨1, ![128]⟩, bd⟩, ⟨⟨1, ![128]⟩, be⟩] hcb (ix1 c)
    0 (by simp) ⟨1, ![128]⟩ ba rfl rfl 0 rfl (ix1 q)
    (fun b hb => by match b with | ⟨0, _⟩ => exact absurd rfl hb) hc.symm

/-- Entry q of the second piece: the bias row at (0, c), c = 128 + q, is bb at q. -/
theorem bcat_at1 (q : Fin 128) (c : Fin 512) (hc : c.val = 128 + q.val) :
    shapeCast ⟨2, ![1, 512]⟩ (concatenate ⟨1, ![512]⟩ 0
      [⟨⟨1, ![128]⟩, ba⟩, ⟨⟨1, ![128]⟩, bb⟩, ⟨⟨1, ![128]⟩, bd⟩, ⟨⟨1, ![128]⟩, be⟩] hcb) hsb (ix2 (0 : Fin 1) c)
      = bb (ix1 q) := by
  rw [shapeCast_a_1a_apply]
  exact concatenate_apply_piece 0
    [⟨⟨1, ![128]⟩, ba⟩, ⟨⟨1, ![128]⟩, bb⟩, ⟨⟨1, ![128]⟩, bd⟩, ⟨⟨1, ![128]⟩, be⟩] hcb (ix1 c)
    1 (by simp) ⟨1, ![128]⟩ bb rfl rfl 128 rfl (ix1 q)
    (fun b hb => by match b with | ⟨0, _⟩ => exact absurd rfl hb) hc.symm

/-- Entry q of the third piece: the bias row at (0, c), c = 256 + q, is bd at q. -/
theorem bcat_at2 (q : Fin 128) (c : Fin 512) (hc : c.val = 256 + q.val) :
    shapeCast ⟨2, ![1, 512]⟩ (concatenate ⟨1, ![512]⟩ 0
      [⟨⟨1, ![128]⟩, ba⟩, ⟨⟨1, ![128]⟩, bb⟩, ⟨⟨1, ![128]⟩, bd⟩, ⟨⟨1, ![128]⟩, be⟩] hcb) hsb (ix2 (0 : Fin 1) c)
      = bd (ix1 q) := by
  rw [shapeCast_a_1a_apply]
  exact concatenate_apply_piece 0
    [⟨⟨1, ![128]⟩, ba⟩, ⟨⟨1, ![128]⟩, bb⟩, ⟨⟨1, ![128]⟩, bd⟩, ⟨⟨1, ![128]⟩, be⟩] hcb (ix1 c)
    2 (by simp) ⟨1, ![128]⟩ bd rfl rfl 256 rfl (ix1 q)
    (fun b hb => by match b with | ⟨0, _⟩ => exact absurd rfl hb) hc.symm

/-- Entry q of the fourth piece: the bias row at (0, c), c = 384 + q, is be at q. -/
theorem bcat_at3 (q : Fin 128) (c : Fin 512) (hc : c.val = 384 + q.val) :
    shapeCast ⟨2, ![1, 512]⟩ (concatenate ⟨1, ![512]⟩ 0
      [⟨⟨1, ![128]⟩, ba⟩, ⟨⟨1, ![128]⟩, bb⟩, ⟨⟨1, ![128]⟩, bd⟩, ⟨⟨1, ![128]⟩, be⟩] hcb) hsb (ix2 (0 : Fin 1) c)
      = be (ix1 q) := by
  rw [shapeCast_a_1a_apply]
  exact concatenate_apply_piece 0
    [⟨⟨1, ![128]⟩, ba⟩, ⟨⟨1, ![128]⟩, bb⟩, ⟨⟨1, ![128]⟩, bd⟩, ⟨⟨1, ![128]⟩, be⟩] hcb (ix1 c)
    3 (by simp) ⟨1, ![128]⟩ be rfl rfl 384 rfl (ix1 q)
    (fun b hb => by match b with | ⟨0, _⟩ => exact absurd rfl hb) hc.symm

end Biases

/-! ## The four bands

At (p, q) the band that starts at column off reads the stacked map at (p, off + q): the sum over k of
h(p, k) times the transposed stack at (k, off + q), plus the bias row at (0, off + q). By the two readings
above that is the sum over k of h(p, k) times the piece at (q, k), plus the piece's bias at q: the
reference's stage at (p, q). -/

section Bands

variable (h : Arr 20000 128) (Wa Wb Wd We : Arr 128 128) (ba bb bd be : (⟨1, ![128]⟩ : Shape).Idx → EReal)
  (hcw : Shape.Concatenates [(⟨2, ![128, 128]⟩ : Shape), ⟨2, ![128, 128]⟩, ⟨2, ![128, 128]⟩, ⟨2, ![128, 128]⟩] ⟨2, ![512, 128]⟩ 0)
  (htw : (⟨2, ![512, 128]⟩ : Shape).Transposes [1, 0] ⟨2, ![128, 512]⟩)
  (hcb : Shape.Concatenates [(⟨1, ![128]⟩ : Shape), ⟨1, ![128]⟩, ⟨1, ![128]⟩, ⟨1, ![128]⟩] ⟨1, ![512]⟩ 0)
  (hsb : (⟨1, ![512]⟩ : Shape).ShapeCasts ⟨2, ![1, 512]⟩)

/-- Columns 0..127 of the stacked affine map are the reference's projection with Wa and ba. -/
theorem proj_band0 (hs0 : (⟨2, ![20000, 512]⟩ : Shape).Slices ![0, 0] ⟨2, ![20000, 128]⟩) :
    extractStridedSlice ⟨2, ![20000, 128]⟩ ![0, 0]
      (lin h
        (transpose ⟨2, ![128, 512]⟩ [1, 0] (concatenate ⟨2, ![512, 128]⟩ 0
          [⟨⟨2, ![128, 128]⟩, Wa⟩, ⟨⟨2, ![128, 128]⟩, Wb⟩, ⟨⟨2, ![128, 128]⟩, Wd⟩, ⟨⟨2, ![128, 128]⟩, We⟩] hcw) htw)
        (shapeCast ⟨2, ![1, 512]⟩ (concatenate ⟨1, ![512]⟩ 0
          [⟨⟨1, ![128]⟩, ba⟩, ⟨⟨1, ![128]⟩, bb⟩, ⟨⟨1, ![128]⟩, bd⟩, ⟨⟨1, ![128]⟩, be⟩] hcb) hsb)) hs0
      = val_main_v4 (F := Ideal) h Wa ba := by
  funext i
  obtain ⟨p, q, rfl⟩ : ∃ (p : Fin 20000) (q : Fin 128), i = ix2 p q := ⟨i 0, i 1, eq_ix2 i⟩
  have hq : 0 + q.val < 512 := by have := q.isLt; omega
  rw [slice2_axis1_apply 0 _ hs0 p q ⟨0 + q.val, hq⟩ rfl, lin_apply, v4_at,
    bcat_at0 ba bb bd be hcb hsb q ⟨0 + q.val, hq⟩ rfl]
  congr 1
  exact Finset.sum_congr rfl fun k _ => by rw [wcat_at0 Wa Wb Wd We hcw htw k q ⟨0 + q.val, hq⟩ rfl]

/-- Columns 128..255 of the stacked affine map are the reference's projection with Wb and bb. -/
theorem proj_band1 (hs1 : (⟨2, ![20000, 512]⟩ : Shape).Slices ![0, 128] ⟨2, ![20000, 128]⟩) :
    extractStridedSlice ⟨2, ![20000, 128]⟩ ![0, 128]
      (lin h
        (transpose ⟨2, ![128, 512]⟩ [1, 0] (concatenate ⟨2, ![512, 128]⟩ 0
          [⟨⟨2, ![128, 128]⟩, Wa⟩, ⟨⟨2, ![128, 128]⟩, Wb⟩, ⟨⟨2, ![128, 128]⟩, Wd⟩, ⟨⟨2, ![128, 128]⟩, We⟩] hcw) htw)
        (shapeCast ⟨2, ![1, 512]⟩ (concatenate ⟨1, ![512]⟩ 0
          [⟨⟨1, ![128]⟩, ba⟩, ⟨⟨1, ![128]⟩, bb⟩, ⟨⟨1, ![128]⟩, bd⟩, ⟨⟨1, ![128]⟩, be⟩] hcb) hsb)) hs1
      = val_main_v9 (F := Ideal) h Wb bb := by
  funext i
  obtain ⟨p, q, rfl⟩ : ∃ (p : Fin 20000) (q : Fin 128), i = ix2 p q := ⟨i 0, i 1, eq_ix2 i⟩
  have hq : 128 + q.val < 512 := by have := q.isLt; omega
  rw [slice2_axis1_apply 128 _ hs1 p q ⟨128 + q.val, hq⟩ rfl, lin_apply, v9_at,
    bcat_at1 ba bb bd be hcb hsb q ⟨128 + q.val, hq⟩ rfl]
  congr 1
  exact Finset.sum_congr rfl fun k _ => by rw [wcat_at1 Wa Wb Wd We hcw htw k q ⟨128 + q.val, hq⟩ rfl]

/-- Columns 256..383 of the stacked affine map are the reference's projection with Wd and bd. -/
theorem proj_band2 (hs2 : (⟨2, ![20000, 512]⟩ : Shape).Slices ![0, 256] ⟨2, ![20000, 128]⟩) :
    extractStridedSlice ⟨2, ![20000, 128]⟩ ![0, 256]
      (lin h
        (transpose ⟨2, ![128, 512]⟩ [1, 0] (concatenate ⟨2, ![512, 128]⟩ 0
          [⟨⟨2, ![128, 128]⟩, Wa⟩, ⟨⟨2, ![128, 128]⟩, Wb⟩, ⟨⟨2, ![128, 128]⟩, Wd⟩, ⟨⟨2, ![128, 128]⟩, We⟩] hcw) htw)
        (shapeCast ⟨2, ![1, 512]⟩ (concatenate ⟨1, ![512]⟩ 0
          [⟨⟨1, ![128]⟩, ba⟩, ⟨⟨1, ![128]⟩, bb⟩, ⟨⟨1, ![128]⟩, bd⟩, ⟨⟨1, ![128]⟩, be⟩] hcb) hsb)) hs2
      = val_main_v14 (F := Ideal) h Wd bd := by
  funext i
  obtain ⟨p, q, rfl⟩ : ∃ (p : Fin 20000) (q : Fin 128), i = ix2 p q := ⟨i 0, i 1, eq_ix2 i⟩
  have hq : 256 + q.val < 512 := by have := q.isLt; omega
  rw [slice2_axis1_apply 256 _ hs2 p q ⟨256 + q.val, hq⟩ rfl, lin_apply, v14_at,
    bcat_at2 ba bb bd be hcb hsb q ⟨256 + q.val, hq⟩ rfl]
  congr 1
  exact Finset.sum_congr rfl fun k _ => by rw [wcat_at2 Wa Wb Wd We hcw htw k q ⟨256 + q.val, hq⟩ rfl]

/-- Columns 384..511 of the stacked affine map are the reference's projection with We and be. -/
theorem proj_band3 (hs3 : (⟨2, ![20000, 512]⟩ : Shape).Slices ![0, 384] ⟨2, ![20000, 128]⟩) :
    extractStridedSlice ⟨2, ![20000, 128]⟩ ![0, 384]
      (lin h
        (transpose ⟨2, ![128, 512]⟩ [1, 0] (concatenate ⟨2, ![512, 128]⟩ 0
          [⟨⟨2, ![128, 128]⟩, Wa⟩, ⟨⟨2, ![128, 128]⟩, Wb⟩, ⟨⟨2, ![128, 128]⟩, Wd⟩, ⟨⟨2, ![128, 128]⟩, We⟩] hcw) htw)
        (shapeCast ⟨2, ![1, 512]⟩ (concatenate ⟨1, ![512]⟩ 0
          [⟨⟨1, ![128]⟩, ba⟩, ⟨⟨1, ![128]⟩, bb⟩, ⟨⟨1, ![128]⟩, bd⟩, ⟨⟨1, ![128]⟩, be⟩] hcb) hsb)) hs3
      = val_main_v19 (F := Ideal) h We be := by
  funext i
  obtain ⟨p, q, rfl⟩ : ∃ (p : Fin 20000) (q : Fin 128), i = ix2 p q := ⟨i 0, i 1, eq_ix2 i⟩
  have hq : 384 + q.val < 512 := by have := q.isLt; omega
  rw [slice2_axis1_apply 384 _ hs3 p q ⟨384 + q.val, hq⟩ rfl, lin_apply, v19_at,
    bcat_at3 ba bb bd be hcb hsb q ⟨384 + q.val, hq⟩ rfl]
  congr 1
  exact Finset.sum_congr rfl fun k _ => by rw [wcat_at3 Wa Wb Wd We hcw htw k q ⟨384 + q.val, hq⟩ rfl]

end Bands

end Cert.Proof.Glue

end
-- ==== Proof.Val.Law.lean ====
/-
  Scalar laws on the extended reals that join the kernel's arithmetic to the reference's.

  Batch normalisation. The kernel multiplies by the reciprocal square root of the shifted variance,
  the reference divides by its square root. The shift is the positive real the word 0x3727C5AC
  denotes, so over a finite nonnegative variance the shifted variance v is a positive real; then
  √v is a positive real, in particular nonzero, the quotient by it is the product with its inverse,
  and that inverse is what the reciprocal square root answers. Both sides are x · (√v)⁻¹ for EVERY
  extended real x: nothing is asked of x.

  Sigmoid. The kernel's one logistic operation is by definition the quotient 1 / (1 + e^(-x)); the
  reference spells that quotient out with the word of 1.0, which denotes 1.
-/
import Idealize.ShloMosaic.PureOps.Ideal
import Idealize.ShloMosaic.PureOps.Ideal.Laws
import Mathlib.Analysis.SpecialFunctions.Sqrt

noncomputable section

namespace Cert.Proof.Law

open Idealize.ShloMosaic

/-! ## The literals -/

/-- The word of 1.0 denotes 1. -/
theorem ofBits_one : Ideal.ofBits .f32 0x3F800000#32 = 1 := by
  simp [Ideal.ofBits, Ideal.ieee, -EReal.coe_mul]; norm_num

/-- The word of +0.0 denotes 0. -/
theorem ofBits_zero : Ideal.ofBits .f32 0x00000000#32 = 0 := Ideal.ofBits_zero_f32

/-- The real the word 0x3727C5AC denotes: significand 2^23 + 2606508 = 10995116 at exponent
    110 - 127 - 23 = -40 (the binary32 nearest to 1e-5). -/
def eps : ℝ := 10995116 * (2 : ℝ) ^ (-40 : ℤ)

theorem eps_pos : 0 < eps := by unfold eps; positivity

theorem ofBits_eps : Ideal.ofBits .f32 0x3727C5AC#32 = ((eps : ℝ) : EReal) := by
  simp [Ideal.ofBits, Ideal.ieee, eps, -EReal.coe_mul]

/-! ## Square root and reciprocal square root at a positive real -/

theorem sqrt_coe_pos {s : ℝ} (hs : 0 < s) : Ideal.sqrt (s : EReal) = ((Real.sqrt s : ℝ) : EReal) := by
  rw [Ideal.sqrt_coe, if_neg (not_lt.mpr hs.le)]

theorem rsqrt_coe_pos {s : ℝ} (hs : 0 < s) :
    Ideal.rsqrt (s : EReal) = (((Real.sqrt s)⁻¹ : ℝ) : EReal) := by
  rw [Ideal.rsqrt_coe, if_neg (not_lt.mpr hs.le), if_neg hs.ne']

/-- At a positive real s, the product with the reciprocal square root is the quotient by the square
    root, for every extended real x: √s is a nonzero real, so the quotient is x · (√s)⁻¹. -/
theorem mul_rsqrt_eq_div_sqrt {s : ℝ} (hs : 0 < s) (x : EReal) :
    x * Ideal.rsqrt (s : EReal) = Ideal.div x (Ideal.sqrt (s : EReal)) := by
  have h : Real.sqrt s ≠ 0 := (Real.sqrt_pos.mpr hs).ne'
  rw [rsqrt_coe_pos hs, sqrt_coe_pos hs, Ideal.div_coe h, one_div]

/-! ## The batch-norm law -/

/-- Over a nonnegative real variance r: x · rsqrt (r + ε) = x / sqrt (r + ε), every x. -/
theorem bn_law {r : ℝ} (hr : 0 ≤ r) (x : EReal) :
    x * Ideal.rsqrt ((r : EReal) + Ideal.ofBits .f32 0x3727C5AC#32)
      = Ideal.div x (Ideal.sqrt ((r : EReal) + Ideal.ofBits .f32 0x3727C5AC#32)) := by
  rw [ofBits_eps, ← EReal.coe_add]
  exact mul_rsqrt_eq_div_sqrt (add_pos_of_nonneg_of_pos hr eps_pos) x

/-- The same over an extended real variance that is nonnegative and not +∞ (so it is a real). -/
theorem bn_law_of_nonneg {v : EReal} (h0 : 0 ≤ v) (hT : v ≠ ⊤) (x : EReal) :
    x * Ideal.rsqrt (v + Ideal.ofBits .f32 0x3727C5AC#32)
      = Ideal.div x (Ideal.sqrt (v + Ideal.ofBits .f32 0x3727C5AC#32)) := by
  induction v using EReal.rec with
  | bot => exact absurd h0 (by simp)
  | coe r => exact bn_law (EReal.coe_nonneg.mp h0) x
  | top => exact absurd rfl hT

/-- A magnitude below +∞ leaves +∞ out. -/
theorem ne_top_of_abs_lt_top {v : EReal} (h : max v (-v) < ⊤) : v ≠ ⊤ := by
  rintro rfl
  simp at h

/-! ## The sigmoid -/

/-- The logistic operation is the quotient the reference spells: 1 / (1 + e^(-x)), with the word
    of 1.0 for each 1. -/
theorem logistic_eq (x : EReal) :
    Ideal.logistic x
      = Ideal.div (Ideal.ofBits .f32 0x3F800000#32) (Ideal.ofBits .f32 0x3F800000#32 + Ideal.exp (-x)) := by
  rw [ofBits_one]; rfl

end Cert.Proof.Law

end
-- ==== Proof.Val.RefChain.lean ====
/-
  The reference program read at an index, over the extended reals.

  The edge chain. The edge pre-activation is the sum of the edge features' affine map and the two gathered node
  projections; the gate is the logistic function of it (the reference spells the quotient 1 / (1 + e^(-x)) with
  the word of 1.0); the gated message is the gate times the gathered source projection; the edge output is the
  normalised, rectified pre-activation.

  The node chain. The node update is the node's own projection plus the quotient of the two scattered aggregates,
  the denominator shifted by the small constant; the node output is its normalised, rectified value.

  Normalisation. The reference divides by the square root of the shifted variance; over a nonnegative finite
  variance that quotient is the product with the reciprocal square root, which is the form stated here.

  The gathers and the scatters stay closed: each is named by its stage and read no further.
-/
import proofs.«157276_j46986942218355_1_alg».proof.Proof.RefImports
import proofs.«157276_j46986942218355_1_alg».proof.Proof.Val.Spec
import proofs.«157276_j46986942218355_1_alg».proof.Proof.Val.Law

noncomputable section

namespace Cert.Proof.RefAt

open Cert.ReferenceIdeal Cert.ReferenceIdeal.Read Cert.Proof.Spec Idealize.ShloMosaic Idealize.ShloMosaic.ValueIdx

variable (x0 : (⟨S20000x128, .f32⟩ : BufTy).Contents (Elt Ideal)) (x1 : (⟨S640000x128, .f32⟩ : BufTy).Contents (Elt Ideal))
  (x2 x3 : (⟨S640000, .i32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S128x128, .f32⟩ : BufTy).Contents (Elt Ideal)) (x11 : (⟨S128, .f32⟩ : BufTy).Contents (Elt Ideal))
  (x12 : (⟨S128x128, .f32⟩ : BufTy).Contents (Elt Ideal))
  (x13 x14 x15 x16 x17 x18 x19 x20 x21 : (⟨S128, .f32⟩ : BufTy).Contents (Elt Ideal))

/-! ## Index equations: a row vector broadcast over the rows is read at the column -/

/-- Over the edge array, the four row vectors (mean, scale, variance, shift): entry (p, q) of the broadcast
    reads entry q of the vector. -/
theorem idx_e_mean (p : Fin 640000) (q : Fin 128) : idx_main_v81 (idx_main_v82 (ix2 p q)) = ix1 q :=
  funext fun a => Fin.ext (by match a with | ⟨0, _⟩ => rfl)
theorem idx_e_scale (p : Fin 640000) (q : Fin 128) : idx_main_v84 (idx_main_v85 (ix2 p q)) = ix1 q :=
  funext fun a => Fin.ext (by match a with | ⟨0, _⟩ => rfl)
theorem idx_e_var (p : Fin 640000) (q : Fin 128) : idx_main_v90 (idx_main_v91 (ix2 p q)) = ix1 q :=
  funext fun a => Fin.ext (by match a with | ⟨0, _⟩ => rfl)
theorem idx_e_shift (p : Fin 640000) (q : Fin 128) : idx_main_v93 (idx_main_v94 (ix2 p q)) = ix1 q :=
  funext fun a => Fin.ext (by match a with | ⟨0, _⟩ => rfl)

/-- Over the node array, the same four row vectors. -/
theorem idx_n_mean (p : Fin 20000) (q : Fin 128) : idx_main_v65 (idx_main_v66 (ix2 p q)) = ix1 q :=
  funext fun a => Fin.ext (by match a with | ⟨0, _⟩ => rfl)
theorem idx_n_scale (p : Fin 20000) (q : Fin 128) : idx_main_v68 (idx_main_v69 (ix2 p q)) = ix1 q :=
  funext fun a => Fin.ext (by match a with | ⟨0, _⟩ => rfl)
theorem idx_n_var (p : Fin 20000) (q : Fin 128) : idx_main_v74 (idx_main_v75 (ix2 p q)) = ix1 q :=
  funext fun a => Fin.ext (by match a with | ⟨0, _⟩ => rfl)
theorem idx_n_shift (p : Fin 20000) (q : Fin 128) : idx_main_v77 (idx_main_v78 (ix2 p q)) = ix1 q :=
  funext fun a => Fin.ext (by match a with | ⟨0, _⟩ => rfl)

/-! ## The edge chain -/

/-- The pre-activation: the affine map of the edge features plus the two gathered projections. -/
theorem v40_at (p : Fin 640000) (q : Fin 128) :
    val_main_v40 (F := Ideal) x0 x1 x2 x3 x8 x9 x10 x11 x12 x13 (ix2 p q)
      = (val_main_v24 x1 x8 x9 (ix2 p q) + val_main_v31 x0 x2 x10 x11 (ix2 p q))
          + val_main_v39 x0 x3 x12 x13 (ix2 p q) := by
  rw [val_main_v40_apply, val_main_v32_apply]
  simp only [Ideal.addf_def]

/-- The gate: the spelled quotient 1 / (1 + e^(-x)) is the logistic function of the pre-activation. -/
theorem v46_at (p : Fin 640000) (q : Fin 128) :
    val_main_v46 (F := Ideal) x0 x1 x2 x3 x8 x9 x10 x11 x12 x13 (ix2 p q)
      = Ideal.logistic (val_main_v40 x0 x1 x2 x3 x8 x9 x10 x11 x12 x13 (ix2 p q)) := by
  rw [val_main_v46_apply, val_main_v45_apply, val_main_cst_3_apply, val_main_v44_apply, val_main_v43_apply,
    val_main_cst_apply, val_main_v42_apply, val_main_v41_apply]
  simp only [Ideal.addf_def, Ideal.hostDivf_def, Ideal.hostUnary_exp_def, Ideal.hostNegf_def, Ideal.negf_def,
    Ideal.ofBits_def]
  exact (Cert.Proof.Law.logistic_eq _).symm

/-- The gated message: the gate times the gathered source projection. -/
theorem v54_at (p : Fin 640000) (q : Fin 128) :
    val_main_v54 (F := Ideal) x0 x1 x2 x3 x6 x7 x8 x9 x10 x11 x12 x13 (ix2 p q)
      = val_main_v46 x0 x1 x2 x3 x8 x9 x10 x11 x12 x13 (ix2 p q) * val_main_v53 x0 x2 x6 x7 (ix2 p q) := by
  rw [val_main_v54_apply]
  simp only [Ideal.mulf_def]

/-- The edge output: the pre-activation normalised with the reciprocal square root, then rectified. -/
theorem v96_at (p : Fin 640000) (q : Fin 128) (h0 : (0 : EReal) ≤ x21 (ix1 q)) (hT : x21 (ix1 q) ≠ (⊤ : EReal)) :
    val_main_v96 (F := Ideal) x0 x1 x2 x3 x8 x9 x10 x11 x12 x13 x18 x19 x20 x21 (ix2 p q)
      = max (((x18 (ix1 q) * (val_main_v40 x0 x1 x2 x3 x8 x9 x10 x11 x12 x13 (ix2 p q) - x20 (ix1 q)))
                * Ideal.rsqrt (x21 (ix1 q) + eps5)) + x19 (ix1 q)) zero32 := by
  rw [val_main_v96_apply, val_main_v95_apply, val_main_v92_apply, val_main_v86_apply, val_main_v83_apply,
    val_main_v82_apply, val_main_v81_apply, val_main_v85_apply, val_main_v84_apply, val_main_v91_apply,
    val_main_v90_apply, val_main_v89_apply, val_main_v88_apply, val_main_v87_apply, val_main_cst_10_apply,
    val_main_v94_apply, val_main_v93_apply, val_main_call1_v0_apply, val_main_call1_cst_apply]
  simp only [idx_e_mean, idx_e_scale, idx_e_var, idx_e_shift, Ideal.mulf_def, Ideal.subf_def, Ideal.addf_def,
    Ideal.maximumf_def, Ideal.hostDivf_def, Ideal.hostUnary_sqrt_def, Ideal.ofBits_def]
  rw [Cert.Proof.Law.bn_law_of_nonneg h0 hT]

/-! ## The node chain -/

/-- The node output: the node's own projection plus the quotient of the two aggregates, normalised with the
    reciprocal square root, then rectified. -/
theorem v80_at (p : Fin 20000) (q : Fin 128) (h0 : (0 : EReal) ≤ x17 (ix1 q)) (hT : x17 (ix1 q) ≠ (⊤ : EReal)) :
    val_main_v80 (F := Ideal) x0 x1 x2 x3 x4 x5 x6 x7 x8 x9 x10 x11 x12 x13 x14 x15 x16 x17 (ix2 p q)
      = max (((x14 (ix1 q) * ((val_main_v4 x0 x4 x5 (ix2 p q)
                  + Ideal.div (val_main_v57 x0 x1 x2 x3 x6 x7 x8 x9 x10 x11 x12 x13 (ix2 p q))
                      (val_main_v60 x0 x1 x2 x3 x8 x9 x10 x11 x12 x13 (ix2 p q) + eps6)) - x16 (ix1 q)))
                * Ideal.rsqrt (x17 (ix1 q) + eps5)) + x15 (ix1 q)) zero32 := by
  rw [val_main_v80_apply, val_main_v79_apply, val_main_v76_apply, val_main_v70_apply, val_main_v67_apply,
    val_main_v64_apply, val_main_v63_apply, val_main_v62_apply, val_main_v61_apply, val_main_cst_8_apply,
    val_main_v66_apply, val_main_v65_apply, val_main_v69_apply, val_main_v68_apply, val_main_v75_apply,
    val_main_v74_apply, val_main_v73_apply, val_main_v72_apply, val_main_v71_apply, val_main_cst_9_apply,
    val_main_v78_apply, val_main_v77_apply, val_main_call0_v0_apply, val_main_call0_cst_apply]
  simp only [idx_n_mean, idx_n_scale, idx_n_var, idx_n_shift, Ideal.mulf_def, Ideal.subf_def, Ideal.addf_def,
    Ideal.maximumf_def, Ideal.hostDivf_def, Ideal.hostUnary_sqrt_def, Ideal.ofBits_def]
  rw [Cert.Proof.Law.bn_law_of_nonneg h0 hT]

end Cert.Proof.RefAt

end
-- ==== Proof.Val.ChainGlue.lean ====
/-
  The edge chain and the node chain joined: the whole-array functions of the three regions, applied to the
  reference's own gathered and scattered arrays, are the reference's stages.

  The regions read the edge weight already transposed and the row vectors already reshaped to one row; the
  reference reads the weight as given, contracted over its second axis, and the vectors as given. So the affine map
  of the edge features over the transposed weight and the reshaped bias is the reference's edge projection: the
  transposed weight at (k, q) is the weight at (q, k), and a vector reshaped to one row reads, at (0, q), its entry q.
  The two gathered node projections, the gathered source projection and the two scattered aggregates are never
  opened: both sides name the same arrays. Above the projection each stage is one more operation on both sides:
  the two sums, the logistic function, the product with the source projection, the normalisation with the
  reciprocal square root followed by the rectifier, and for the nodes the quotient of the two aggregates.
-/
import proofs.«157276_j46986942218355_1_alg».proof.Proof.RefImports
import proofs.«157276_j46986942218355_1_alg».proof.Proof.Val.Spec
import proofs.«157276_j46986942218355_1_alg».proof.Proof.Val.RefProj
import proofs.«157276_j46986942218355_1_alg».proof.Proof.Val.RefChain
import Idealize.ShloMosaic.Lib.ValueLayout

noncomputable section

namespace Cert.Proof.Glue

open Cert.Proof.Spec Cert.Proof.RefAt Cert.ReferenceIdeal Cert.ReferenceIdeal.Read Idealize.ShloMosaic
  Idealize.ShloMosaic.ValueIdx

variable {x0 : (⟨S20000x128, .f32⟩ : BufTy).Contents (Elt Ideal)} {x1 : (⟨S640000x128, .f32⟩ : BufTy).Contents (Elt Ideal)}
  {x2 x3 : (⟨S640000, .i32⟩ : BufTy).Contents (Elt Ideal)}
  {x4 : (⟨S128x128, .f32⟩ : BufTy).Contents (Elt Ideal)} {x5 : (⟨S128, .f32⟩ : BufTy).Contents (Elt Ideal)}
  {x6 : (⟨S128x128, .f32⟩ : BufTy).Contents (Elt Ideal)} {x7 : (⟨S128, .f32⟩ : BufTy).Contents (Elt Ideal)}
  {x8 : (⟨S128x128, .f32⟩ : BufTy).Contents (Elt Ideal)} {x9 : (⟨S128, .f32⟩ : BufTy).Contents (Elt Ideal)}
  {x10 : (⟨S128x128, .f32⟩ : BufTy).Contents (Elt Ideal)} {x11 : (⟨S128, .f32⟩ : BufTy).Contents (Elt Ideal)}
  {x12 : (⟨S128x128, .f32⟩ : BufTy).Contents (Elt Ideal)}
  {x13 x14 x15 x16 x17 x18 x19 x20 x21 : (⟨S128, .f32⟩ : BufTy).Contents (Elt Ideal)}

/-! ## The edge pre-activation -/

/-- The affine map of the edge features over the transposed weight and the reshaped bias, plus the two gathered
    node projections, is the reference's pre-activation: the transposed weight at (k, q) is the weight at (q, k),
    the reshaped bias at (0, q) is the bias at q. -/
theorem edge_enew_at (ht : (⟨2, ![128, 128]⟩ : Shape).Transposes [1, 0] ⟨2, ![128, 128]⟩)
    (hs9 : (⟨1, ![128]⟩ : Shape).ShapeCasts ⟨2, ![1, 128]⟩) (p : Fin 640000) (q : Fin 128) :
    enew (N := 640000) (K := 128) (M := 128) x1 (transpose ⟨2, ![128, 128]⟩ [1, 0] x8 ht)
        (shapeCast ⟨2, ![1, 128]⟩ x9 hs9) (val_main_v31 (F := Ideal) x0 x2 x10 x11)
        (val_main_v39 (F := Ideal) x0 x3 x12 x13) (ix2 p q)
      = val_main_v40 (F := Ideal) x0 x1 x2 x3 x8 x9 x10 x11 x12 x13 (ix2 p q) := by
  rw [v40_at, v24_at]
  show (lin (N := 640000) (K := 128) (M := 128) x1 _ _ (ix2 p q) + _) + _ = _
  rw [lin_apply]
  have et : ∀ k : Fin 128, transpose ⟨2, ![128, 128]⟩ [1, 0] x8 ht (ix2 k q) = x8 (ix2 q k) := fun k =>
    transpose_ix2_apply (a := 128) (b := 128) x8 ht k q
  simp only [et, shapeCast_a_1a_apply]

/-! ## The edge chain -/

/-- The gate over the reference's gathered projections is the reference's gate. -/
theorem edge_sig (ht : (⟨2, ![128, 128]⟩ : Shape).Transposes [1, 0] ⟨2, ![128, 128]⟩)
    (hs9 : (⟨1, ![128]⟩ : Shape).ShapeCasts ⟨2, ![1, 128]⟩) :
    sig (N := 640000) (K := 128) (M := 128) x1 (transpose ⟨2, ![128, 128]⟩ [1, 0] x8 ht)
        (shapeCast ⟨2, ![1, 128]⟩ x9 hs9) (val_main_v31 (F := Ideal) x0 x2 x10 x11)
        (val_main_v39 (F := Ideal) x0 x3 x12 x13)
      = val_main_v46 (F := Ideal) x0 x1 x2 x3 x8 x9 x10 x11 x12 x13 := by
  funext i
  obtain ⟨p, q, rfl⟩ : ∃ (p : Fin 640000) (q : Fin 128), i = ix2 p q := ⟨i 0, i 1, eq_ix2 i⟩
  rw [v46_at, ← edge_enew_at ht hs9]
  rfl

/-- The gated message over the reference's gathered projections is the reference's gated message. -/
theorem edge_num (ht : (⟨2, ![128, 128]⟩ : Shape).Transposes [1, 0] ⟨2, ![128, 128]⟩)
    (hs9 : (⟨1, ![128]⟩ : Shape).ShapeCasts ⟨2, ![1, 128]⟩) :
    numr (N := 640000) (K := 128) (M := 128) x1 (transpose ⟨2, ![128, 128]⟩ [1, 0] x8 ht)
        (shapeCast ⟨2, ![1, 128]⟩ x9 hs9) (val_main_v31 (F := Ideal) x0 x2 x10 x11)
        (val_main_v39 (F := Ideal) x0 x3 x12 x13) (val_main_v53 (F := Ideal) x0 x2 x6 x7)
      = val_main_v54 (F := Ideal) x0 x1 x2 x3 x6 x7 x8 x9 x10 x11 x12 x13 := by
  funext i
  obtain ⟨p, q, rfl⟩ : ∃ (p : Fin 640000) (q : Fin 128), i = ix2 p q := ⟨i 0, i 1, eq_ix2 i⟩
  rw [v54_at, ← edge_sig ht hs9]
  rfl

/-- The edge output: the normalised, rectified pre-activation, the four row vectors reshaped to one row, is the
    reference's edge output wherever the variance is nonnegative and finite. -/
theorem edge_out (ht : (⟨2, ![128, 128]⟩ : Shape).Transposes [1, 0] ⟨2, ![128, 128]⟩)
    (hs9 hs20 hs21 hs18 hs19 : (⟨1, ![128]⟩ : Shape).ShapeCasts ⟨2, ![1, 128]⟩)
    (hv : ∀ q : Fin 128, (0 : EReal) ≤ x21 (ix1 q) ∧ x21 (ix1 q) ≠ (⊤ : EReal)) :
    bn (N := 640000) (M := 128)
        (enew (N := 640000) (K := 128) (M := 128) x1 (transpose ⟨2, ![128, 128]⟩ [1, 0] x8 ht)
          (shapeCast ⟨2, ![1, 128]⟩ x9 hs9) (val_main_v31 (F := Ideal) x0 x2 x10 x11)
          (val_main_v39 (F := Ideal) x0 x3 x12 x13))
        (shapeCast ⟨2, ![1, 128]⟩ x20 hs20) (shapeCast ⟨2, ![1, 128]⟩ x21 hs21)
        (shapeCast ⟨2, ![1, 128]⟩ x18 hs18) (shapeCast ⟨2, ![1, 128]⟩ x19 hs19)
      = val_main_v96 (F := Ideal) x0 x1 x2 x3 x8 x9 x10 x11 x12 x13 x18 x19 x20 x21 := by
  funext i
  obtain ⟨p, q, rfl⟩ : ∃ (p : Fin 640000) (q : Fin 128), i = ix2 p q := ⟨i 0, i 1, eq_ix2 i⟩
  rw [bn_apply, v96_at x0 x1 x2 x3 x8 x9 x10 x11 x12 x13 x18 x19 x20 x21 p q (hv q).1 (hv q).2,
    edge_enew_at ht hs9]
  simp only [shapeCast_a_1a_apply]

/-! ## The node chain -/

/-- The node output: the node's own projection plus the quotient of the two scattered aggregates, normalised and
    rectified, the four row vectors reshaped to one row, is the reference's node output wherever the variance is
    nonnegative and finite. -/
theorem node_out (hs16 hs17 hs14 hs15 : (⟨1, ![128]⟩ : Shape).ShapeCasts ⟨2, ![1, 128]⟩)
    (hv : ∀ q : Fin 128, (0 : EReal) ≤ x17 (ix1 q) ∧ x17 (ix1 q) ≠ (⊤ : EReal)) :
    bn (N := 20000) (M := 128)
        (hnew (N := 20000) (M := 128) (val_main_v4 (F := Ideal) x0 x4 x5)
          (val_main_v57 (F := Ideal) x0 x1 x2 x3 x6 x7 x8 x9 x10 x11 x12 x13)
          (val_main_v60 (F := Ideal) x0 x1 x2 x3 x8 x9 x10 x11 x12 x13))
        (shapeCast ⟨2, ![1, 128]⟩ x16 hs16) (shapeCast ⟨2, ![1, 128]⟩ x17 hs17)
        (shapeCast ⟨2, ![1, 128]⟩ x14 hs14) (shapeCast ⟨2, ![1, 128]⟩ x15 hs15)
      = val_main_v80 (F := Ideal) x0 x1 x2 x3 x4 x5 x6 x7 x8 x9 x10 x11 x12 x13 x14 x15 x16 x17 := by
  funext i
  obtain ⟨p, q, rfl⟩ : ∃ (p : Fin 20000) (q : Fin 128), i = ix2 p q := ⟨i 0, i 1, eq_ix2 i⟩
  rw [bn_apply, v80_at x0 x1 x2 x3 x4 x5 x6 x7 x8 x9 x10 x11 x12 x13 x14 x15 x16 x17 p q (hv q).1 (hv q).2]
  simp only [shapeCast_a_1a_apply]
  rfl

end Cert.Proof.Glue

end
-- ==== Proof.Val.KVal.lean ====
/-
  The kernel's two results are the reference's stages of the same arguments.

  The kernel's run is a fold of buffer contents: a stretch of host operations, then a region, three times over. Each
  region leaves in its output arrays one whole-array function of its operand arrays (the affine map; the gate, the
  gated message and the normalised edge pre-activation; the normalised node update), each host stretch leaves plain
  terms of the contents before it, and every launch argument passes the whole fold untouched. Read from the launch
  arguments forward:

  * the four column bands of region 0's affine map under the stacked weights are the reference's four node projections;
  * the three gathers and the two scatter-sums are the reference's own operations, on operands already identified;
  * region 1's three outputs are the reference's edge result, gated message and gate;
  * region 2's output is the reference's node result, and region 1's edge result reaches the end unchanged.

  The two normalisations ask that the variance row be nonnegative and finite at every column.
-/
import proofs.«157276_j46986942218355_1_alg».proof.Proof.KI.Run
import proofs.«157276_j46986942218355_1_alg».proof.Proof.RefImports
import proofs.«157276_j46986942218355_1_alg».proof.Proof.Val.Spec
import proofs.«157276_j46986942218355_1_alg».proof.Proof.Val.KHost
import proofs.«157276_j46986942218355_1_alg».proof.Proof.Val.Final0
import proofs.«157276_j46986942218355_1_alg».proof.Proof.Val.Final1
import proofs.«157276_j46986942218355_1_alg».proof.Proof.Val.Final2
import proofs.«157276_j46986942218355_1_alg».proof.Proof.Val.ProjGlue
import proofs.«157276_j46986942218355_1_alg».proof.Proof.Val.ChainGlue

set_option maxRecDepth 16384

noncomputable section

namespace Cert.KernelIdeal.Hand

open Cert.KernelIdeal Cert.KernelIdeal.Gen Cert.Proof.Spec
open Idealize.ShloMosaic Idealize.ShloMosaic.TcCoe Idealize.SL.Sem Idealize.ShloMosaic.ValueIdx
open Cert.ReferenceIdeal.Read (val_main_v4 val_main_v9 val_main_v14 val_main_v19 val_main_v25 val_main_v26 val_main_v27
  val_main_v28 val_main_v29 val_main_v30 val_main_v31 val_main_v33 val_main_v34 val_main_v35 val_main_v36 val_main_v37
  val_main_v38 val_main_v39 val_main_v46 val_main_v47 val_main_v48 val_main_v49 val_main_v50 val_main_v51 val_main_v52
  val_main_v53 val_main_v54 val_main_v55 val_main_v56 val_main_v57 val_main_v58 val_main_v59 val_main_v60 val_main_v80
  val_main_v96 val_main_c val_main_c_0 val_main_c_1 val_main_c_2 val_main_c_4 val_main_c_5 val_main_cst_6 val_main_cst_7)

variable (m : (ℓ : Loc nD τ sig) → Buf (Elt Ideal) ℓ) (c : Dev nD)

/-! ## Region 0: the four node projections -/

/-- Region 0 leaves the affine map of the node features under the stacked, transposed weights and the stacked bias row. -/
theorem w2_v4 : W2 m c (Proc.devRef .tc main_v4) = lin (X m c main_arg0) (E1 m c main_v1) (E1 m c main_v3) := by
  have h := (W2_arr m c 3).trans (final0 (E1 m) c)
  rw [e1_arg0] at h
  exact h

/-- Column band 0 of that map is the first projection of the reference. -/
theorem k_v5 : E3 m c main_v5 = val_main_v4 (F := Ideal) (X m c main_arg0) (X m c main_arg4) (X m c main_arg5) := by
  rw [e3_v5, w2_v4, e1_v1, e1_v3]
  apply Cert.Proof.Glue.proj_band0

/-- Column band 1 is the second projection. -/
theorem k_v6 : E3 m c main_v6 = val_main_v9 (F := Ideal) (X m c main_arg0) (X m c main_arg6) (X m c main_arg7) := by
  rw [e3_v6, w2_v4, e1_v1, e1_v3]
  apply Cert.Proof.Glue.proj_band1

/-- Column band 2 is the third projection. -/
theorem k_v7 : E3 m c main_v7 = val_main_v14 (F := Ideal) (X m c main_arg0) (X m c main_arg10) (X m c main_arg11) := by
  rw [e3_v7, w2_v4, e1_v1, e1_v3]
  apply Cert.Proof.Glue.proj_band2

/-- Column band 3 is the fourth projection. -/
theorem k_v8 : E3 m c main_v8 = val_main_v19 (F := Ideal) (X m c main_arg0) (X m c main_arg12) (X m c main_arg13) := by
  rw [e3_v8, w2_v4, e1_v1, e1_v3]
  apply Cert.Proof.Glue.proj_band3

/-! ## The three gathers: the same operation on equal operands -/

/-- The third projection read at each edge's wrapped source index. -/
theorem k_v15 : E3 m c main_v15
    = val_main_v31 (F := Ideal) (X m c main_arg0) (X m c main_arg2) (X m c main_arg10) (X m c main_arg11) := by
  rw [e3_v15, k_v7]
  unfold val_main_v31 val_main_v30 val_main_v29 val_main_v28 val_main_v27 val_main_v26 val_main_v25 val_main_c val_main_c_0 wrapIdx
  rfl

/-- The fourth projection read at each edge's wrapped destination index. -/
theorem k_v22 : E3 m c main_v22
    = val_main_v39 (F := Ideal) (X m c main_arg0) (X m c main_arg3) (X m c main_arg12) (X m c main_arg13) := by
  rw [e3_v22, k_v8]
  unfold val_main_v39 val_main_v38 val_main_v37 val_main_v36 val_main_v35 val_main_v34 val_main_v33 val_main_c_1 val_main_c_2 wrapIdx
  rfl

/-- The second projection read at each edge's wrapped source index. -/
theorem k_v29 : E3 m c main_v29
    = val_main_v53 (F := Ideal) (X m c main_arg0) (X m c main_arg2) (X m c main_arg6) (X m c main_arg7) := by
  rw [e3_v29, k_v6]
  unfold val_main_v53 val_main_v52 val_main_v51 val_main_v50 val_main_v49 val_main_v48 val_main_v47 val_main_c_4 val_main_c_5 wrapIdx
  rfl

/-! ## Region 1: the gate, the gated message, the edge result -/

/-- Region 1's third output is the reference's gate. -/
theorem k_sig : W4 m c (Proc.devRef .tc main_v36_2) = val_main_v46 (F := Ideal) (X m c main_arg0) (X m c main_arg1) (X m c main_arg2) (X m c main_arg3) (X m c main_arg8) (X m c main_arg9) (X m c main_arg10) (X m c main_arg11) (X m c main_arg12) (X m c main_arg13) := by
  have h := (W4_arr m c 12).trans (final1_12 (E3 m) c)
  rw [e3_arg1, e3_v30, e3_v31, k_v15, k_v22] at h
  refine h.trans ?_
  apply Cert.Proof.Glue.edge_sig

/-- Region 1's second output is the reference's gated message. -/
theorem k_num : W4 m c (Proc.devRef .tc main_v36_1) = val_main_v54 (F := Ideal) (X m c main_arg0) (X m c main_arg1) (X m c main_arg2) (X m c main_arg3) (X m c main_arg6) (X m c main_arg7) (X m c main_arg8) (X m c main_arg9) (X m c main_arg10) (X m c main_arg11) (X m c main_arg12) (X m c main_arg13) := by
  have h := (W4_arr m c 11).trans (final1_11 (E3 m) c)
  rw [e3_arg1, e3_v30, e3_v31, k_v15, k_v22, k_v29] at h
  refine h.trans ?_
  apply Cert.Proof.Glue.edge_num

/-- Region 1's first output is the reference's edge result, over a nonnegative finite edge variance. -/
theorem k_eout (hv : ∀ q : Fin 128, (0 : EReal) ≤ X m c main_arg21 (ix1 q) ∧ X m c main_arg21 (ix1 q) ≠ (⊤ : EReal)) :
    W4 m c (Proc.devRef .tc main_v36_0) = val_main_v96 (F := Ideal) (X m c main_arg0) (X m c main_arg1) (X m c main_arg2) (X m c main_arg3) (X m c main_arg8) (X m c main_arg9) (X m c main_arg10) (X m c main_arg11) (X m c main_arg12) (X m c main_arg13) (X m c main_arg18) (X m c main_arg19) (X m c main_arg20) (X m c main_arg21) := by
  have h := (W4_arr m c 10).trans (final1_10 (E3 m) c)
  rw [e3_arg1, e3_v30, e3_v31, k_v15, k_v22, e3_v32, e3_v33, e3_v34, e3_v35] at h
  refine h.trans ?_
  apply Cert.Proof.Glue.edge_out
  exact hv

/-! ## The two scatter-sums: the same operation on equal operands -/

/-- The gated messages summed at each edge's destination. -/
theorem k_v39 : E5 m c main_v39 = val_main_v57 (F := Ideal) (X m c main_arg0) (X m c main_arg1) (X m c main_arg2) (X m c main_arg3) (X m c main_arg6) (X m c main_arg7) (X m c main_arg8) (X m c main_arg9) (X m c main_arg10) (X m c main_arg11) (X m c main_arg12) (X m c main_arg13) := by
  rw [e5_v39, k_num]
  unfold val_main_v57 val_main_v55 val_main_v56 val_main_cst_6
  rfl

/-- The gates summed at each edge's destination. -/
theorem k_v42 : E5 m c main_v42 = val_main_v60 (F := Ideal) (X m c main_arg0) (X m c main_arg1) (X m c main_arg2) (X m c main_arg3) (X m c main_arg8) (X m c main_arg9) (X m c main_arg10) (X m c main_arg11) (X m c main_arg12) (X m c main_arg13) := by
  rw [e5_v42, k_sig]
  unfold val_main_v60 val_main_v58 val_main_v59 val_main_cst_7
  rfl

/-! ## Region 2 and the two results -/

/-- The node result: region 2's output is the reference's, over a nonnegative finite node variance. -/
theorem kernel_h (hv : ∀ q : Fin 128, (0 : EReal) ≤ X m c main_arg17 (ix1 q) ∧ X m c main_arg17 (ix1 q) ≠ (⊤ : EReal)) :
    W6 m c (Proc.devRef .tc main_v47) = val_main_v80 (F := Ideal) (X m c main_arg0) (X m c main_arg1) (X m c main_arg2) (X m c main_arg3) (X m c main_arg4) (X m c main_arg5) (X m c main_arg6) (X m c main_arg7) (X m c main_arg8) (X m c main_arg9) (X m c main_arg10) (X m c main_arg11) (X m c main_arg12) (X m c main_arg13) (X m c main_arg14) (X m c main_arg15) (X m c main_arg16) (X m c main_arg17) := by
  have h := (W6_arr m c 7).trans (final2 (E5 m) c)
  rw [e5_v5, k_v5, k_v39, k_v42, e5_v43, e5_v44, e5_v45, e5_v46] at h
  refine h.trans ?_
  apply Cert.Proof.Glue.node_out
  exact hv

/-- The edge result: region 1's first output, untouched by what follows, is the reference's. -/
theorem kernel_e (hv : ∀ q : Fin 128, (0 : EReal) ≤ X m c main_arg21 (ix1 q) ∧ X m c main_arg21 (ix1 q) ≠ (⊤ : EReal)) :
    W6 m c (Proc.devRef .tc main_v36_0) = val_main_v96 (F := Ideal) (X m c main_arg0) (X m c main_arg1) (X m c main_arg2) (X m c main_arg3) (X m c main_arg8) (X m c main_arg9) (X m c main_arg10) (X m c main_arg11) (X m c main_arg12) (X m c main_arg13) (X m c main_arg18) (X m c main_arg19) (X m c main_arg20) (X m c main_arg21) :=
  (w6_v36_0 m c).trans (k_eout m c hv)

end Cert.KernelIdeal.Hand

end
-- ==== Proof.lean ====
/- The gated graph-convolution layer: the kernel (three device regions — the four node projections as one affine map
   against the stacked weights, the fused edge update, the node combine — with the row gathers and the two
   scatter-sums between them on the host) against the reference (the same layer written with whole-array
   operations), over the extended reals.

   Both programs compute, for every edge, e_new = e·Wcᵀ + bc + Dh[src] + Eh[dst], the gate sigma = logistic(e_new) and
   the message sigma · Bh[src]; for every node the sums num, den of the messages and of the gates over the incoming
   edges and h_new = Ah + num / (den + 1e-6); and return the two batch-normalised, rectified arrays. They differ in
   three ways, none of which changes an entry: (1) the kernel multiplies the node features once by the 128x512 matrix
   whose four column bands are the transposes of Wa, Wb, Wd, We and cuts the result into bands, where the reference
   forms four products — band by band the contraction sums are the same sums; (2) the kernel tiles every array by
   blocks of rows, and each entry of a block is the whole-array formula at that row; (3) the kernel normalises by
   x · rsqrt(var + eps) where the reference writes x / sqrt(var + eps). The last is an identity of extended reals
   exactly when var + eps is a positive real (then both are x · (√(var+eps))⁻¹; at zero or below the two conventions
   part), which is why the statement asks the two variance vectors to be non-negative: with eps > 0 that makes
   var + eps positive. No other step uses a hypothesis on the inputs: sums and products of the same operands in the
   same order are equal whatever their values, and the gathers and scatters are the same functions of equal operands.

   The three frames: each kernel program's run is the launch theorem for several regions over the fold of buffer
   contents through @main (Proof/KI/Run.lean at the ideal values, Proof/KB/Run.lean at the words), read at the
   argument arrays; the reference's is its run with the results dropped. Nothing was rewritten by the idealization,
   so there is nothing to preserve. -/
import proofs.«157276_j46986942218355_1_alg».proof.Defs
import proofs.«157276_j46986942218355_1_alg».proof.Proof.Gen.Kernel
import proofs.«157276_j46986942218355_1_alg».proof.Proof.Gen.KernelIdeal
import proofs.«157276_j46986942218355_1_alg».proof.Proof.Gen.ReferenceIdeal
import proofs.«157276_j46986942218355_1_alg».proof.Proof.Gen.Pre_finite_inputs
import proofs.«157276_j46986942218355_1_alg».proof.Proof.KB.Run
import proofs.«157276_j46986942218355_1_alg».proof.Proof.KI.Run
import proofs.«157276_j46986942218355_1_alg».proof.Proof.RefImports
import proofs.«157276_j46986942218355_1_alg».proof.Proof.Val.Pre
import proofs.«157276_j46986942218355_1_alg».proof.Proof.Val.KVal
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- Under the precondition, on every core, both variance vectors hold non-negative reals: every entry is at least
    zero and is not +∞. -/
theorem var_facts (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ q : Fin 128, (0 : EReal) ≤ (m ((c.tc : Thread Cert.KernelIdeal.nD Cert.KernelIdeal.τ).loc Cert.KernelIdeal.main_arg17)) (ix1 q) ∧ (m ((c.tc : Thread Cert.KernelIdeal.nD Cert.KernelIdeal.τ).loc Cert.KernelIdeal.main_arg17)) (ix1 q) ≠ (⊤ : EReal))
    ∧ (∀ q : Fin 128, (0 : EReal) ≤ (m ((c.tc : Thread Cert.KernelIdeal.nD Cert.KernelIdeal.τ).loc Cert.KernelIdeal.main_arg21)) (ix1 q) ∧ (m ((c.tc : Thread Cert.KernelIdeal.nD Cert.KernelIdeal.τ).loc Cert.KernelIdeal.main_arg21)) (ix1 q) ≠ (⊤ : EReal)) := by
  obtain ⟨h17, h21⟩ := Cert.Proof.PreFacts.var_real_nonneg _ _ _ _ _ _ _ _ _ _ _ _ _ _ _ _ _ _ _ _ _ _ (hpre c)
  refine ⟨fun q => ?_, fun q => ?_⟩
  · obtain ⟨r, hr, e⟩ := h17 (ix1 q)
    exact ⟨e ▸ EReal.coe_nonneg.mpr hr, e ▸ EReal.coe_ne_top r⟩
  · obtain ⟨r, hr, e⟩ := h21 (ix1 q)
    exact ⟨e ▸ EReal.coe_nonneg.mpr hr, e ▸ EReal.coe_ne_top r⟩

theorem frame_k : Cert.frame_Kernel := fun m ρ _ => Cert.Kernel.Hand.frame_all m ρ
theorem frame_ki : Cert.frame_KernelIdeal := fun m ρ _ => Cert.KernelIdeal.Hand.frame_all m ρ
theorem frame_ri : Cert.frame_ReferenceIdeal := fun m ρ _ =>
  (θ_run Cert.ReferenceIdeal.defs _ _).mono (fun _ h c => (h c).2.2) (Cert.ReferenceIdeal.Value.run (F := Ideal) m ρ)

/-- At the ideal values both programs end with the reference's two result stages of the (agreeing) arguments: the
    kernel by the chain of its regions' results and host stretches, the reference by its own run. -/
theorem algebraic : Cert.algebraic_KernelIdeal_ReferenceIdeal := by
  intro m ρ m' ρ' hpre hagree
  refine ⟨fun c => Cert.ReferenceIdeal.Read.val_main_v80 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)),
    fun c => Cert.ReferenceIdeal.Read.val_main_v96 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)), ?_, ?_⟩
  · refine (θ_run Cert.KernelIdeal.defs _ _).mono (fun r h c => ?_) (Cert.KernelIdeal.Hand.run_all m ρ)
    have hv := var_facts m hpre c
    exact ⟨(h c _ (Cert.KernelIdeal.Hand.mem_uc Cert.KernelIdeal.main_v47 (by decide))).trans (Cert.KernelIdeal.Hand.kernel_h m c hv.1),
      (h c _ (Cert.KernelIdeal.Hand.mem_uc Cert.KernelIdeal.main_v36_0 (by decide))).trans (Cert.KernelIdeal.Hand.kernel_e m c hv.2),
      Cert.KernelIdeal.Hand.frame_of_all m r.2.mem c (h c)⟩
  · refine (θ_run Cert.ReferenceIdeal.defs _ _).mono (fun r h c => ⟨?_, ?_, (h c).2.2⟩)
      (Cert.ReferenceIdeal.Value.run (F := Ideal) m' ρ')
    · obtain ⟨g0, g1, g2, g3, g4, g5, g6, g7, g8, g9, g10, g11, g12, g13, g14, g15, g16, g17, g18, g19, g20, g21⟩ := hagree c
      rw [(h c).1, Cert.ReferenceIdeal.Read.val_main_v80_eq, g0, g1, g2, g3, g4, g5, g6, g7, g8, g9, g10, g11, g12, g13, g14, g15, g16, g17]
    · obtain ⟨g0, g1, g2, g3, g4, g5, g6, g7, g8, g9, g10, g11, g12, g13, g14, g15, g16, g17, g18, g19, g20, g21⟩ := hagree c
      refine (h c).2.1.trans ?_
      show Cert.ReferenceIdeal.Read.val_main_v96 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) = _
      simp only [g0, g1, g2, g3, g8, g9, g10, g11, g12, g13, g18, g19, g20, g21]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
